-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg2 : IVec S2x800000 32) (main_v67 : IVec S_ 1) : IVec S_ 1 :=
  let main_c_26 : IVec S_ 32 := constantI S_ 32 50000#32
  let main_v68 : IVec S2x800000 32 := broadcastInDim S2x800000 ![] bcast_S_S2x800000 main_c_26
  let main_v69 : IVec S2x800000 1 := cmpi .slt main_arg2 main_v68
  let main_c_27 : IVec S_ 1 := constantI S_ 1 1#1
  let main_v70 : IVec S_ 1 := (fun x v => Host.reduce IntOp.andi x v reducesTo_S2x800000_S_d0_1 h_S_) main_v69 main_c_27
  let main_v71 : IVec S_ 1 := andi main_v67 main_v70
  main_v71

def fn_part3 {F : FTy → Type} [FloatOps F] (main_arg2 : IVec S2x800000 32) (main_arg12 : FVec F S128 .f32) (main_arg13 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_c_24 : IVec S_ 32 := constantI S_ 32 0#32
  let main_v64 : IVec S2x800000 32 := broadcastInDim S2x800000 ![] bcast_S_S2x800000 main_c_24
  let main_v65 : IVec S2x800000 1 := cmpi .sge main_arg2 main_v64
  let main_c_25 : IVec S_ 1 := constantI S_ 1 1#1
  let main_v66 : IVec S_ 1 := (fun x v => Host.reduce IntOp.andi x v reducesTo_S2x800000_S_d0_1 h_S_) main_v65 main_c_25
  let main_v67 : IVec S_ 1 := andi main_v63 main_v66
  fn_part4 (F := F) main_arg2 main_v67

def fn_part2 {F : FTy → Type} [FloatOps F] (main_arg2 : IVec S2x800000 32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_v48 main_v49 main_v50

def fn_part1 {F : FTy → Type} [FloatOps F] (main_arg2 : IVec S2x800000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg8 main_arg9 main_arg10 main_arg11 main_arg12 main_arg13 main_v33

def fn {F : FTy → Type} [FloatOps F] (main_arg0 : FVec F S50000x128 .f32) (main_arg1 : FVec F S50000x3 .f32) (main_arg2 : IVec S2x800000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S800000x3 : Shape := ⟨2, ![800000, 3]⟩
abbrev S1x128 : Shape := ⟨2, ![1, 128]⟩
abbrev S3200x128 : Shape := ⟨2, ![3200, 128]⟩
abbrev S3200x3 : Shape := ⟨2, ![3200, 3]⟩
abbrev S3200 : Shape := ⟨1, ![3200]⟩
abbrev S3200x1 : Shape := ⟨2, ![3200, 1]⟩
abbrev S5000x128 : Shape := ⟨2, ![5000, 128]⟩

abbrev nBuf : Space → Nat
  | .hbm => 128
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S1, .i32⟩
  | .hbm, ⟨27, _⟩ => ⟨S_, .i32⟩
  | .hbm, ⟨28, _⟩ => ⟨S800000x1, .i32⟩
  | .hbm, ⟨29, _⟩ => ⟨S800000x1, .i1⟩
  | .hbm, ⟨30, _⟩ => ⟨S1x1, .i32⟩
  | .hbm, ⟨31, _⟩ => ⟨S800000x1, .i32⟩
  | .hbm, ⟨32, _⟩ => ⟨S800000x1, .i1⟩
  | .hbm, ⟨33, _⟩ => ⟨S800000x1, .i1⟩
  | .hbm, ⟨34, _⟩ => ⟨S_, .i1⟩
  | .hbm, ⟨35, _⟩ => ⟨S800000, .i1⟩
  | .hbm, ⟨36, _⟩ => ⟨S800000x128, .f32⟩
  | .hbm, ⟨37, _⟩ => ⟨S800000x128, .i1⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S1, .i32⟩
  | .hbm, ⟨50, _⟩ => ⟨S_, .i32⟩
  | .hbm, ⟨51, _⟩ => ⟨S800000x1, .i32⟩
  | .hbm, ⟨52, _⟩ => ⟨S800000x1, .i1⟩
  | .hbm, ⟨53, _⟩ => ⟨S1x1, .i32⟩
  | .hbm, ⟨54, _⟩ => ⟨S800000x1, .i32⟩
  | .hbm, ⟨55, _⟩ => ⟨S800000x1, .i1⟩
  | .hbm, ⟨56, _⟩ => ⟨S800000x1, .i1⟩
  | .hbm, ⟨57, _⟩ => ⟨S_, .i1⟩
  | .hbm, ⟨58, _⟩ => ⟨S800000, .i1⟩
  | .hbm, ⟨59, _⟩ => ⟨S800000x128, .f32⟩
  | .hbm, ⟨60, _⟩ => ⟨S800000x128, .i1⟩
  | .hbm, ⟨61, _⟩ => ⟨S_, .f32⟩
  | .hbm, ⟨62, _⟩ => ⟨S800000x128, .f32⟩
  | .hbm, ⟨63, _⟩ => ⟨S800000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S1, .i32⟩
  | .hbm, ⟨73, _⟩ => ⟨S_, .i32⟩
  | .hbm, ⟨74, _⟩ => ⟨S800000x1, .i32⟩
  | .hbm, ⟨75, _⟩ => ⟨S800000x1, .i1⟩
  | .hbm, ⟨76, _⟩ => ⟨S1x1, .i32⟩
  | .hbm, ⟨77, _⟩ => ⟨S800000x1, .i32⟩
  | .hbm, ⟨78, _⟩ => ⟨S800000x1, .i1⟩
  | .hbm, ⟨79, _⟩ => ⟨S800000x1, .i1⟩
  | .hbm, ⟨80, _⟩ => ⟨S_, .i1⟩
  | .hbm, ⟨81, _⟩ => ⟨S800000, .i1⟩
  | .hbm, ⟨82, _⟩ => ⟨S800000x3, .f32⟩
  | .hbm, ⟨83, _⟩ => ⟨S800000x3, .i1⟩
  | .hbm, ⟨84, _⟩ => ⟨S_, .f32⟩
  | .hbm, ⟨85, _⟩ => ⟨S800000x3, .f32⟩
  | .hbm, ⟨86, _⟩ => ⟨S800000x3, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S1, .i32⟩
  | .hbm, ⟨96, _⟩ => ⟨S_, .i32⟩
  | .hbm, ⟨97, _⟩ => ⟨S800000x1, .i32⟩
  | .hbm, ⟨98, _⟩ => ⟨S800000x1, .i1⟩
  | .hbm, ⟨99, _⟩ => ⟨S1x1, .i32⟩
  | .hbm, ⟨100, _⟩ => ⟨S800000x1, .i32⟩
  | .hbm, ⟨101, _⟩ => ⟨S800000x1, .i1⟩
  | .hbm, ⟨102, _⟩ => ⟨S800000x1, .i1⟩
  | .hbm, ⟨103, _⟩ => ⟨S_, .i1⟩
  | .hbm, ⟨104, _⟩ => ⟨S800000, .i1⟩
  | .hbm, ⟨105, _⟩ => ⟨S800000x3, .f32⟩
  | .hbm, ⟨106, _⟩ => ⟨S800000x3, .i1⟩
  | .hbm, ⟨107, _⟩ => ⟨S_, .f32⟩
  | .hbm, ⟨108, _⟩ => ⟨S800000x3, .f32⟩
  | .hbm, ⟨109, _⟩ => ⟨S800000x3, .f32⟩
  | .hbm, ⟨110, _⟩ => ⟨S800000x3, .f32⟩
  | .hbm, ⟨111, _⟩ => ⟨S128x128, .f32⟩
  | .hbm, ⟨112, _⟩ => ⟨S128x128, .f32⟩
  | .hbm, ⟨113, _⟩ => ⟨S1x128, .f32⟩
  | .hbm, ⟨114, _⟩ => ⟨S800000x128, .f32⟩
  | .hbm, ⟨115, _⟩ => ⟨S800000x3, .f32⟩
  | .hbm, ⟨116, _⟩ => ⟨S_, .f32⟩
  | .hbm, ⟨117, _⟩ => ⟨S50000x128, .f32⟩
  | .hbm, ⟨118, _⟩ => ⟨S800000x1, .i32⟩
  | .hbm, ⟨119, _⟩ => ⟨S50000x128, .f32⟩
  | .hbm, ⟨120, _⟩ => ⟨S_, .f32⟩
  | .hbm, ⟨121, _⟩ => ⟨S50000x3, .f32⟩
  | .hbm, ⟨122, _⟩ => ⟨S800000x1, .i32⟩
  | .hbm, ⟨123, _⟩ => ⟨S50000x3, .f32⟩
  | .hbm, ⟨124, _⟩ => ⟨S128x128, .f32⟩
  | .hbm, ⟨125, _⟩ => ⟨S128x128, .f32⟩
  | .hbm, ⟨126, _⟩ => ⟨S50000x128, .f32⟩
  | .hbm, ⟨127, _⟩ => ⟨S50000x3, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x3, .f32⟩
  | .local _ .vmem, ⟨5, _⟩ => ⟨S3200x3, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x1, .f32⟩
  | .local _ .vmem, ⟨15, _⟩ => ⟨S3200x128, .f32⟩
  | .local _ .vmem, ⟨16, _⟩ => ⟨S3200x128, .f32⟩
  | .local _ .vmem, ⟨17, _⟩ => ⟨S3200x3, .f32⟩
  | .local _ .vmem, ⟨18, _⟩ => ⟨S3200x3, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v5 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v6 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v7 : Ref sig .tc := ⟨.hbm, 109, rfl⟩
abbrev main_v8 : Ref sig .tc := ⟨.hbm, 110, rfl⟩
abbrev main_v9 : Ref sig .tc := ⟨.hbm, 111, rfl⟩
abbrev main_v10 : Ref sig .tc := ⟨.hbm, 112, rfl⟩
abbrev main_v11 : Ref sig .tc := ⟨.hbm, 113, rfl⟩
abbrev main_v12_0 : Ref sig .tc := ⟨.hbm, 114, rfl⟩
abbrev main_v12_1 : Ref sig .tc := ⟨.hbm, 115, rfl⟩
abbrev main_cst : Ref sig .tc := ⟨.hbm, 116, rfl⟩
abbrev main_v13 : Ref sig .tc := ⟨.hbm, 117, rfl⟩
abbrev main_v14 : Ref sig .tc := ⟨.hbm, 118, rfl⟩
abbrev main_v15 : Ref sig .tc := ⟨.hbm, 119, rfl⟩
abbrev main_cst_0 : Ref sig .tc := ⟨.hbm, 120, rfl⟩
abbrev main_v16 : Ref sig .tc := ⟨.hbm, 121, rfl⟩
abbrev main_v17 : Ref sig .tc := ⟨.hbm, 122, rfl⟩
abbrev main_v18 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3200x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3200x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000_S800000x3_0 : S800000.BroadcastsInDim S800000x3 (![0] : Fin 1 → Fin S800000x3.rank)
  bcast_S_S800000x3 : S_.BroadcastsInDim S800000x3 (![] : Fin 0 → Fin S800000x3.rank)
  slices_S257x128_S128x128_0_0 : S257x128.Slices ![0, 0] S128x128
  slices_S257x128_S128x128_128_0 : S257x128.Slices ![128, 0] S128x128
  slices_S257x128_S1x128_256_0 : S257x128.Slices ![256, 0] S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S3200x3_S3200x3_0_0 : ∀ a, (![0, 0] : Fin 2 → Nat) a + S3200x3.size a ≤ S3200x3.size a
  h_S3200x3 : 0 < S3200x3.numel
  shapeCasts_S3200x3_S3200x3 : S3200x3.ShapeCasts S3200x3
  reduces_S3200x3_S3200 : S3200x3.Reduces [1] S3200
  shapeCasts_S3200_S3200x1 : S3200.ShapeCasts S3200x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128_S128_0 : ∀ a, (![0] : Fin 1 → Nat) a + S128.size a ≤ S128.size a
  h_S128 : 0 < S128.numel
  broadcasts_S3200x1_S3200x128 : S3200x1.Broadcasts S3200x128
  broadcasts_S1x128_S3200x128 : S1x128.Broadcasts S3200x128
  shapeCasts_S128_S1x128 : S128.ShapeCasts S1x128
  inb_S128x1_S128x1_0_0 : ∀ a, (![0, 0] : Fin 2 → Nat) a + S128x1.size a ≤ S128x1.size a
  h_S128x1 : 0 < S128x1.numel
  broadcasts_S3200x1_S3200x3 : S3200x1.Broadcasts S3200x3
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S3200x128_S128x128_S3200x128_1_0_0_1_n_n_wf : DotDims.WF S3200x128 S128x128 S3200x128 [1] [0] [0] [1] [] []
  dot_S3200x128_S128x1_S3200x1_1_0_0_1_n_n_wf : DotDims.WF S3200x128 S128x1 S3200x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x3.size a ≤ S800000x3.size a
  hwx0_2 : ∀ i : grid0.Coords, EltTy.bits .f32 = 32 ∨ (Rect.block (s := S800000x3) S3200x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x128.size a ≤ S800000x128.size a
  hwx0_12 : ∀ i : grid0.Coords, EltTy.bits .f32 = 32 ∨ (Rect.block (s := S800000x128) S3200x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3200x3.size a ≤ S800000x3.size a
  hwx0_13 : ∀ i : grid0.Coords, EltTy.bits .f32 = 32 ∨ (Rect.block (s := S800000x3) S3200x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S3200x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12_0) S3200x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12_1) S3200x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S257x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x3, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x3, .f32⟩
  | 36 => ⟨S800000x3, .f32⟩
  | 37 => ⟨S800000x3, .f32⟩
  | 38 => ⟨S_, .f32⟩
  | 39 => ⟨S800000, .f32⟩
  | 40 => ⟨S800000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x257, .f32⟩
  | 60 => ⟨S800000x128, .f32⟩
  | 61 => ⟨S1x128, .f32⟩
  | 62 => ⟨S800000x128, .f32⟩
  | 63 => ⟨S800000x128, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S_, .f32⟩
  | 70 => ⟨S800000x128, .f32⟩
  | 71 => ⟨S800000x128, .f32⟩
  | 72 => ⟨S800000x128, .f32⟩
  | 73 => ⟨S800000x128, .f32⟩
  | 74 => ⟨S1x128, .f32⟩
  | 75 => ⟨S800000x128, .f32⟩
  | 76 => ⟨S800000x128, .f32⟩
  | 77 => ⟨S800000x128, .f32⟩
  | 78 => ⟨S800000x128, .f32⟩
  | 79 => ⟨S_, .f32⟩
  | 80 => ⟨S800000x128, .f32⟩
  | 81 => ⟨S800000x128, .f32⟩
  | 82 => ⟨S_, .f32⟩
  | 83 => ⟨S800000x128, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x256, .f32⟩
  | 91 => ⟨S50000x128, .f32⟩
  | 92 => ⟨S1x128, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S800000x128, .f32⟩
  | 110 => ⟨S1x128, .f32⟩
  | 111 => ⟨S800000x128, .f32⟩
  | 112 => ⟨S800000x128, .f32⟩
  | 113 => ⟨S800000x128, .f32⟩
  | 114 => ⟨S800000x128, .f32⟩
  | 115 => ⟨S_, .f32⟩
  | 116 => ⟨S800000x128, .f32⟩
  | 117 => ⟨S800000x128, .f32⟩
  | 118 => ⟨S_, .f32⟩
  | 119 => ⟨S800000x128, .f32⟩
  | 120 => ⟨S800000x128, .f32⟩
  | 121 => ⟨S800000x128, .f32⟩
  | 122 => ⟨S800000x1, .f32⟩
  | 123 => ⟨S800000x3, .f32⟩
  | 124 => ⟨S800000x3, .f32⟩
  | 125 => ⟨S_, .f32⟩
  | 126 => ⟨S50000x3, .f32⟩
  | 127 => ⟨S800000x1, .i32⟩
  | _ => ⟨S50000x128, .f32⟩

abbrev hbmTy0_1 (i : Nat) : BufTy := match i % 128 with
  | 0 => ⟨S50000x3, .f32⟩
  | 1 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v46 : Ref sig .tc := ⟨.hbm, 85, rfl⟩
abbrev main_cst_7 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_call3_v0 : Ref sig .tc := ⟨.hbm, 113, rfl⟩
abbrev main_call3_v1 : Ref sig .tc := ⟨.hbm, 114, rfl⟩
abbrev main_call3_cst : Ref sig .tc := ⟨.hbm, 115, rfl⟩
abbrev main_call3_v2 : Ref sig .tc := ⟨.hbm, 116, rfl⟩
abbrev main_call3_v3 : Ref sig .tc := ⟨.hbm, 117, rfl⟩
abbrev main_call3_cst_0 : Ref sig .tc := ⟨.hbm, 118, rfl⟩
abbrev main_call3_v4 : Ref sig .tc := ⟨.hbm, 119, rfl⟩
abbrev main_call3_v5 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_cst_8 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.Spec.lean ====
/-
  The mathematics of one message-passing layer, row by row, over the extended reals.

  An edge e carries the two gathered feature rows hr, hc (128 entries each) and the relative position rp (3 entries).
  Its first linear layer reads the 257 features (hr, hc, |rp|²) against a 257 × 128 matrix: the kernel keeps the matrix in
  three row groups and adds three partial products, the reference multiplies the concatenated row once. The two are the
  same sum, regrouped (`sum_cat257`); likewise a node's first layer reads (h, messages) against a 256 × 128 matrix
  (`sum_cat256`). Only commutativity and associativity of + are used, so the infinities are no exception.
  Everything after the first layer is the same expression on both sides: silu x = x · logistic x, a 128 × 128 layer,
  and for the coordinate weight a further 128 × 128 layer and a 128 × 1 layer.
-/
import Idealize.ShloMosaic.PureOps.Ideal
import Idealize.ShloMosaic.Lib.ValueIdx
import Mathlib.Algebra.BigOperators.Fin

noncomputable section

namespace Cert.Egnn

open Idealize.ShloMosaic

/-- silu x = x · 1/(1 + e^(-x)). -/
def silu (x : EReal) : EReal := x * Ideal.logistic x

/-- The squared length of a relative position. -/
def dsq (rp : Fin 3 → EReal) : EReal := ∑ d : Fin 3, rp d * rp d

/-- First edge layer, the kernel's grouping: rows 0–127 of the matrix (A) against hr, rows 128–255 (B) against hc,
    row 256 (cvec) against the squared distance, then the bias. -/
def lin1K (hr hc : Fin 128 → EReal) (rp : Fin 3 → EReal) (A B : Fin 128 → Fin 128 → EReal) (cvec bias : Fin 128 → EReal)
    (j : Fin 128) : EReal :=
  (((∑ k : Fin 128, hr k * A k j) + (∑ k : Fin 128, hc k * B k j)) + dsq rp * cvec j) + bias j

/-- The concatenated edge feature row (hr, hc, s). -/
def cat257 (hr hc : Fin 128 → EReal) (s : EReal) (k : Fin 257) : EReal :=
  if h : k.val < 128 then hr ⟨k.val, h⟩ else if h2 : k.val < 256 then hc ⟨k.val - 128, by omega⟩ else s

/-- First edge layer, the reference's grouping: one product with the 257 × 128 matrix, then the bias. -/
def lin1R (hr hc : Fin 128 → EReal) (rp : Fin 3 → EReal) (W : Fin 257 → Fin 128 → EReal) (bias : Fin 128 → EReal)
    (j : Fin 128) : EReal :=
  (∑ k : Fin 257, cat257 hr hc (dsq rp) k * W k j) + bias j

/-- A 128 → 128 layer after silu: Σ_k silu (a k) · W k j + b j. -/
def layer (a : Fin 128 → EReal) (W : Fin 128 → Fin 128 → EReal) (b : Fin 128 → EReal) (j : Fin 128) : EReal :=
  (∑ k : Fin 128, silu (a k) * W k j) + b j

/-- An edge's message from its first-layer row l1. -/
def msgOf (l1 : Fin 128 → EReal) (W2 : Fin 128 → Fin 128 → EReal) (b2 : Fin 128 → EReal) (j : Fin 128) : EReal :=
  silu (layer l1 W2 b2 j)

/-- The coordinate weight of an edge from its message row em: Σ_k silu (Σ_k' em k' · Wc1 k' k + bc1 k) · wc2 k. -/
def coordW (em : Fin 128 → EReal) (Wc1 : Fin 128 → Fin 128 → EReal) (bc1 wc2 : Fin 128 → EReal) : EReal :=
  ∑ k : Fin 128, silu ((∑ k' : Fin 128, em k' * Wc1 k' k) + bc1 k) * wc2 k

/-- First node layer, the kernel's grouping. -/
def nlin1K (h msg : Fin 128 → EReal) (A B : Fin 128 → Fin 128 → EReal) (bias : Fin 128 → EReal) (j : Fin 128) : EReal :=
  ((∑ k : Fin 128, h k * A k j) + (∑ k : Fin 128, msg k * B k j)) + bias j

/-- The concatenated node feature row (h, msg). -/
def cat256 (h msg : Fin 128 → EReal) (k : Fin 256) : EReal :=
  if hk : k.val < 128 then h ⟨k.val, hk⟩ else msg ⟨k.val - 128, by omega⟩

/-- First node layer, the reference's grouping. -/
def nlin1R (h msg : Fin 128 → EReal) (W : Fin 256 → Fin 128 → EReal) (bias : Fin 128 → EReal) (j : Fin 128) : EReal :=
  (∑ k : Fin 256, cat256 h msg k * W k j) + bias j

/-- A node's new feature from its first-layer row: h j + (Σ_k silu (l1 k) · W2 k j + b2 j). -/
def nodeOf (h : Fin 128 → EReal) (l1 : Fin 128 → EReal) (W2 : Fin 128 → Fin 128 → EReal) (b2 : Fin 128 → EReal) (j : Fin 128) : EReal :=
  h j + layer l1 W2 b2 j

/-- A sum over 256 = 128 + 128 indices splits into its two halves. -/
theorem sum_cat256 (h msg : Fin 128 → EReal) (W : Fin 256 → EReal) :
    (∑ k : Fin 256, cat256 h msg k * W k)
      = (∑ k : Fin 128, h k * W ⟨k.val, by omega⟩) + (∑ k : Fin 128, msg k * W ⟨128 + k.val, by omega⟩) := by
  rw [show (∑ k : Fin 256, cat256 h msg k * W k) = ∑ k : Fin (128 + 128), cat256 h msg k * W k from rfl, Fin.sum_univ_add]
  refine congrArg₂ (· + ·) (Finset.sum_congr rfl fun k _ => ?_) (Finset.sum_congr rfl fun k _ => ?_)
  · have hk : (Fin.castAdd 128 k : Fin (128 + 128)).val < 128 := k.isLt
    unfold cat256; rw [dif_pos hk]; rfl
  · have hk : ¬ (Fin.natAdd 128 k : Fin (128 + 128)).val < 128 := by simp [Fin.natAdd]
    unfold cat256; rw [dif_neg hk]
    refine congrArg₂ (· * ·) (congrArg msg (Fin.ext ?_)) (congrArg W (Fin.ext ?_)) <;> simp [Fin.natAdd]

/-- A sum over 257 = 128 + 128 + 1 indices splits into two halves and the last term. -/
theorem sum_cat257 (hr hc : Fin 128 → EReal) (s : EReal) (W : Fin 257 → EReal) :
    (∑ k : Fin 257, cat257 hr hc s k * W k)
      = ((∑ k : Fin 128, hr k * W ⟨k.val, by omega⟩) + (∑ k : Fin 128, hc k * W ⟨128 + k.val, by omega⟩)) + s * W ⟨256, by omega⟩ := by
  rw [show (∑ k : Fin 257, cat257 hr hc s k * W k) = ∑ k : Fin (256 + 1), cat257 hr hc s k * W k from rfl, Fin.sum_univ_castSucc]
  refine congrArg₂ (· + ·) ?_ ?_
  · rw [show (∑ k : Fin 256, cat257 hr hc s (Fin.castSucc k) * W (Fin.castSucc k))
        = ∑ k : Fin 256, cat256 hr hc k * W (Fin.castSucc k) from
        Finset.sum_congr rfl fun k _ => by
          congr 1
          unfold cat257 cat256
          by_cases hk : k.val < 128
          · rw [dif_pos (show (Fin.castSucc k).val < 128 from hk), dif_pos hk]; rfl
          · rw [dif_neg (show ¬ (Fin.castSucc k).val < 128 from hk), dif_neg hk,
              dif_pos (show (Fin.castSucc k).val < 256 from k.isLt)]; rfl]
    exact sum_cat256 hr hc fun k => W (Fin.castSucc k)
  · unfold cat257
    rw [dif_neg (show ¬ (Fin.last 256).val < 128 by simp), dif_neg (show ¬ (Fin.last 256).val < 256 by simp)]
    rfl

/-- The two groupings of the first edge layer agree when A, B, cvec are the matrix's three row groups. -/
theorem lin1K_eq_lin1R (hr hc : Fin 128 → EReal) (rp : Fin 3 → EReal) (W : Fin 257 → Fin 128 → EReal) (bias : Fin 128 → EReal)
    (j : Fin 128) :
    lin1K hr hc rp (fun k j => W ⟨k.val, by omega⟩ j) (fun k j => W ⟨128 + k.val, by omega⟩ j) (fun j => W ⟨256, by omega⟩ j) bias j
      = lin1R hr hc rp W bias j := by
  unfold lin1K lin1R
  rw [sum_cat257 hr hc (dsq rp) fun k => W k j]

/-- The two groupings of the first node layer agree when A, B are the matrix's two row groups. -/
theorem nlin1K_eq_nlin1R (h msg : Fin 128 → EReal) (W : Fin 256 → Fin 128 → EReal) (bias : Fin 128 → EReal) (j : Fin 128) :
    nlin1K h msg (fun k j => W ⟨k.val, by omega⟩ j) (fun k j => W ⟨128 + k.val, by omega⟩ j) bias j
      = nlin1R h msg W bias j := by
  unfold nlin1K nlin1R
  rw [sum_cat256 h msg fun k => W k j]

/-! ## The same, array by array

  An array is a function of its index; a row of a rank-2 array is the function of the second coordinate. -/

open Idealize.ShloMosaic.ValueIdx

/-- Row e of an n × p array. -/
abbrev row {n p : Nat} (X : (⟨2, ![n, p]⟩ : Shape).Idx → EReal) (e : Fin n) : Fin p → EReal := fun k => X (ix2 e k)
/-- An n × p array as a function of (row, column). -/
abbrev mat {n p : Nat} (X : (⟨2, ![n, p]⟩ : Shape).Idx → EReal) : Fin n → Fin p → EReal := fun k j => X (ix2 k j)
/-- A rank-1 array as a function of its position. -/
abbrev vec {p : Nat} (X : (⟨1, ![p]⟩ : Shape).Idx → EReal) : Fin p → EReal := fun j => X (ix1 j)
/-- The row coordinate of a rank-2 index. -/
abbrev c0 {n p : Nat} (i : (⟨2, ![n, p]⟩ : Shape).Idx) : Fin n := ⟨(i 0).val, idx2_lt0 i⟩
/-- The column coordinate of a rank-2 index. -/
abbrev c1 {n p : Nat} (i : (⟨2, ![n, p]⟩ : Shape).Idx) : Fin p := ⟨(i 1).val, idx2_lt1 i⟩

/-- Edge messages, the kernel's grouping of the first layer: row e from rows e of HR, HC, RP. -/
def EMarrK {E : Nat} (HR HC : (⟨2, ![E, 128]⟩ : Shape).Idx → EReal) (RP : (⟨2, ![E, 3]⟩ : Shape).Idx → EReal)
    (A B : (⟨2, ![128, 128]⟩ : Shape).Idx → EReal) (Cv : (⟨2, ![1, 128]⟩ : Shape).Idx → EReal) (b1 : (⟨1, ![128]⟩ : Shape).Idx → EReal)
    (W2 : (⟨2, ![128, 128]⟩ : Shape).Idx → EReal) (b2 : (⟨1, ![128]⟩ : Shape).Idx → EReal) : (⟨2, ![E, 128]⟩ : Shape).Idx → EReal :=
  fun i => msgOf (lin1K (row HR (c0 i)) (row HC (c0 i)) (row RP (c0 i)) (mat A) (mat B) (row Cv 0) (vec b1)) (mat W2) (vec b2) (c1 i)

/-- Coordinate messages, the kernel's grouping: rp · (the edge's coordinate weight). -/
def CMarrK {E : Nat} (HR HC : (⟨2, ![E, 128]⟩ : Shape).Idx → EReal) (RP : (⟨2, ![E, 3]⟩ : Shape).Idx → EReal)
    (A B : (⟨2, ![128, 128]⟩ : Shape).Idx → EReal) (Cv : (⟨2, ![1, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wc1 : (⟨2, ![128, 128]⟩ : Shape).Idx → EReal) (bc1 : (⟨1, ![128]⟩ : Shape).Idx → EReal) (Wc2 : (⟨2, ![128, 1]⟩ : Shape).Idx → EReal) :
    (⟨2, ![E, 3]⟩ : Shape).Idx → EReal :=
  fun i => RP (ix2 (c0 i) (c1 i)) *
    coordW (msgOf (lin1K (row HR (c0 i)) (row HC (c0 i)) (row RP (c0 i)) (mat A) (mat B) (row Cv 0) (vec b1)) (mat W2) (vec b2))
      (mat Wc1) (vec bc1) (fun k => Wc2 (ix2 k 0))

/-- New node features, the kernel's grouping of the first layer. -/
def HarrK {N : Nat} (H MSG : (⟨2, ![N, 128]⟩ : Shape).Idx → EReal) (A B : (⟨2, ![128, 128]⟩ : Shape).Idx → EReal)
    (b1 : (⟨1, ![128]⟩ : Shape).Idx → EReal) (W2 : (⟨2, ![128, 128]⟩ : Shape).Idx → EReal) (b2 : (⟨1, ![128]⟩ : Shape).Idx → EReal) :
    (⟨2, ![N, 128]⟩ : Shape).Idx → EReal :=
  fun i => nodeOf (row H (c0 i)) (nlin1K (row H (c0 i)) (row MSG (c0 i)) (mat A) (mat B) (vec b1)) (mat W2) (vec b2) (c1 i)

/-- Edge messages, the reference's grouping (one 257 × 128 matrix). -/
def EMarrR {E : Nat} (HR HC : (⟨2, ![E, 128]⟩ : Shape).Idx → EReal) (RP : (⟨2, ![E, 3]⟩ : Shape).Idx → EReal)
    (W : (⟨2, ![257, 128]⟩ : Shape).Idx → EReal) (b1 : (⟨1, ![128]⟩ : Shape).Idx → EReal)
    (W2 : (⟨2, ![128, 128]⟩ : Shape).Idx → EReal) (b2 : (⟨1, ![128]⟩ : Shape).Idx → EReal) : (⟨2, ![E, 128]⟩ : Shape).Idx → EReal :=
  fun i => msgOf (lin1R (row HR (c0 i)) (row HC (c0 i)) (row RP (c0 i)) (mat W) (vec b1)) (mat W2) (vec b2) (c1 i)

/-- Coordinate messages, the reference's grouping. -/
def CMarrR {E : Nat} (HR HC : (⟨2, ![E, 128]⟩ : Shape).Idx → EReal) (RP : (⟨2, ![E, 3]⟩ : Shape).Idx → EReal)
    (W : (⟨2, ![257, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wc1 : (⟨2, ![128, 128]⟩ : Shape).Idx → EReal) (bc1 : (⟨1, ![128]⟩ : Shape).Idx → EReal) (Wc2 : (⟨2, ![128, 1]⟩ : Shape).Idx → EReal) :
    (⟨2, ![E, 3]⟩ : Shape).Idx → EReal :=
  fun i => RP (ix2 (c0 i) (c1 i)) *
    coordW (msgOf (lin1R (row HR (c0 i)) (row HC (c0 i)) (row RP (c0 i)) (mat W) (vec b1)) (mat W2) (vec b2))
      (mat Wc1) (vec bc1) (fun k => Wc2 (ix2 k 0))

/-- New node features, the reference's grouping (one 256 × 128 matrix). -/
def HarrR {N : Nat} (H MSG : (⟨2, ![N, 128]⟩ : Shape).Idx → EReal) (W : (⟨2, ![256, 128]⟩ : Shape).Idx → EReal)
    (b1 : (⟨1, ![128]⟩ : Shape).Idx → EReal) (W2 : (⟨2, ![128, 128]⟩ : Shape).Idx → EReal) (b2 : (⟨1, ![128]⟩ : Shape).Idx → EReal) :
    (⟨2, ![N, 128]⟩ : Shape).Idx → EReal :=
  fun i => nodeOf (row H (c0 i)) (nlin1R (row H (c0 i)) (row MSG (c0 i)) (mat W) (vec b1)) (mat W2) (vec b2) (c1 i)

/-- With A, B, Cv the three row groups of W, the two groupings give the same edge messages. -/
theorem EMarrK_eq_EMarrR {E : Nat} (HR HC : (⟨2, ![E, 128]⟩ : Shape).Idx → EReal) (RP : (⟨2, ![E, 3]⟩ : Shape).Idx → EReal)
    (A B : (⟨2, ![128, 128]⟩ : Shape).Idx → EReal) (Cv : (⟨2, ![1, 128]⟩ : Shape).Idx → EReal)
    (W : (⟨2, ![257, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (hA : ∀ (k : Fin 128) (j : Fin 128), A (ix2 k j) = W (ix2 ⟨k.val, by omega⟩ j))
    (hB : ∀ (k : Fin 128) (j : Fin 128), B (ix2 k j) = W (ix2 ⟨128 + k.val, by omega⟩ j))
    (hC : ∀ j : Fin 128, Cv (ix2 0 j) = W (ix2 ⟨256, by omega⟩ j)) :
    EMarrK HR HC RP A B Cv b1 W2 b2 = EMarrR HR HC RP W b1 W2 b2 := by
  funext i
  unfold EMarrK EMarrR
  have h1 : lin1K (row HR (c0 i)) (row HC (c0 i)) (row RP (c0 i)) (mat A) (mat B) (row Cv 0) (vec b1)
      = lin1R (row HR (c0 i)) (row HC (c0 i)) (row RP (c0 i)) (mat W) (vec b1) := by
    funext j
    rw [← lin1K_eq_lin1R]
    unfold lin1K
    simp only [hA, hB, hC]
  rw [h1]

/-- Likewise the coordinate messages. -/
theorem CMarrK_eq_CMarrR {E : Nat} (HR HC : (⟨2, ![E, 128]⟩ : Shape).Idx → EReal) (RP : (⟨2, ![E, 3]⟩ : Shape).Idx → EReal)
    (A B : (⟨2, ![128, 128]⟩ : Shape).Idx → EReal) (Cv : (⟨2, ![1, 128]⟩ : Shape).Idx → EReal)
    (W : (⟨2, ![257, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wc1 : (⟨2, ![128, 128]⟩ : Shape).Idx → EReal) (bc1 : (⟨1, ![128]⟩ : Shape).Idx → EReal) (Wc2 : (⟨2, ![128, 1]⟩ : Shape).Idx → EReal)
    (hA : ∀ (k : Fin 128) (j : Fin 128), A (ix2 k j) = W (ix2 ⟨k.val, by omega⟩ j))
    (hB : ∀ (k : Fin 128) (j : Fin 128), B (ix2 k j) = W (ix2 ⟨128 + k.val, by omega⟩ j))
    (hC : ∀ j : Fin 128, Cv (ix2 0 j) = W (ix2 ⟨256, by omega⟩ j)) :
    CMarrK HR HC RP A B Cv b1 W2 b2 Wc1 bc1 Wc2 = CMarrR HR HC RP W b1 W2 b2 Wc1 bc1 Wc2 := by
  funext i
  unfold CMarrK CMarrR
  have h1 : lin1K (row HR (c0 i)) (row HC (c0 i)) (row RP (c0 i)) (mat A) (mat B) (row Cv 0) (vec b1)
      = lin1R (row HR (c0 i)) (row HC (c0 i)) (row RP (c0 i)) (mat W) (vec b1) := by
    funext j
    rw [← lin1K_eq_lin1R]
    unfold lin1K
    simp only [hA, hB, hC]
  rw [h1]

/-- With A, B the two row groups of W, the two groupings give the same node features. -/
theorem HarrK_eq_HarrR {N : Nat} (H MSG : (⟨2, ![N, 128]⟩ : Shape).Idx → EReal) (A B : (⟨2, ![128, 128]⟩ : Shape).Idx → EReal)
    (W : (⟨2, ![256, 128]⟩ : Shape).Idx → EReal)
    (b1 : (⟨1, ![128]⟩ : Shape).Idx → EReal) (W2 : (⟨2, ![128, 128]⟩ : Shape).Idx → EReal) (b2 : (⟨1, ![128]⟩ : Shape).Idx → EReal)
    (hA : ∀ (k : Fin 128) (j : Fin 128), A (ix2 k j) = W (ix2 ⟨k.val, by omega⟩ j))
    (hB : ∀ (k : Fin 128) (j : Fin 128), B (ix2 k j) = W (ix2 ⟨128 + k.val, by omega⟩ j)) :
    HarrK H MSG A B b1 W2 b2 = HarrR H MSG W b1 W2 b2 := by
  funext i
  unfold HarrK HarrR
  have h1 : nlin1K (row H (c0 i)) (row MSG (c0 i)) (mat A) (mat B) (vec b1) = nlin1R (row H (c0 i)) (row MSG (c0 i)) (mat W) (vec b1) := by
    funext j
    rw [← nlin1K_eq_nlin1R]
    unfold nlin1K
    simp only [hA, hB]
  rw [h1]

end Cert.Egnn

end
-- ==== Proof.HostDefs.lean ====
/-
  The host-side index arithmetic of the kernel's program, named once.

  The edge list is a 2 × 800000 integer array; row 0 is the source node of each edge and row 1 its target. jnp.take in its
  default mode first wraps a negative index by adding the table's height, then reads the table at the wrapped index where
  that index lies in 0 … 49999 and returns a fill value elsewhere. These are the printed operations, in order, as functions.
-/
import proofs.«404792_j40621800686307_1_alg».proof.Proof.Gen.KernelIdeal

noncomputable section

namespace Cert.KernelIdeal.HostDefs

open Cert.KernelIdeal Cert.KernelIdeal.Facts₀ Cert.KernelIdeal.Facts Idealize.ShloMosaic Idealize.ShloMosaic.TcCoe

variable {F : FTy → Type} [FloatOps F]

/-- Row 0 of the edge list, as a vector: the source node of each edge. -/
def rowIdx (a2 : IVec S2x800000 32) : IVec S800000 32 :=
  shapeCast S800000 (extractStridedSlice S1x800000 ![0, 0] a2 slices_S2x800000_S1x800000_0_0) shapeCasts_S1x800000_S800000

/-- Row 1 of the edge list, as a vector: the target node of each edge. -/
def colIdx (a2 : IVec S2x800000 32) : IVec S800000 32 :=
  shapeCast S800000 (extractStridedSlice S1x800000 ![1, 0] a2 slices_S2x800000_S1x800000_1_0) shapeCasts_S1x800000_S800000

/-- A negative index wrapped by the table's height 50000, as a column of start indices. -/
def normIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Per edge: does the wrapped index lie in 0 … 49999? -/
def inRange (I : IVec S800000x1 32) : IVec S800000 1 :=
  Host.reduce IntOp.andi
    (andi (cmpi .sge I (broadcastInDim S800000x1 ![] bcast_S_S800000x1 (constantI S_ 32 0#32)))
      (cmpi .sle I (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- jnp.take of the 50000 × 128 feature table at an index vector: the gathered row where the index is in range, the fill
    value elsewhere. -/
def takeH (x : FVec F S50000x128 .f32) (idx : IVec S800000 32) : FVec F S800000x128 .f32 :=
  select (broadcastInDim S800000x128 ![0] bcast_S800000_S800000x128_0 (inRange (normIdx idx)))
    (Host.gather gather_S50000x128_S800000x1_S800000x128_1_0_n_n_0_1_1128 x (normIdx idx))
    (broadcastInDim S800000x128 ![] bcast_S_S800000x128 (constant S_ .f32 0x7FC00000#32))

/-- jnp.take of the 50000 × 3 position table likewise. -/
def takeX (x : FVec F S50000x3 .f32) (idx : IVec S800000 32) : FVec F S800000x3 .f32 :=
  select (broadcastInDim S800000x3 ![0] bcast_S800000_S800000x3_0 (inRange (normIdx idx)))
    (Host.gather gather_S50000x3_S800000x1_S800000x3_1_0_n_n_0_1_13 x (normIdx idx))
    (broadcastInDim S800000x3 ![] bcast_S_S800000x3 (constant S_ .f32 0x7FC00000#32))

end Cert.KernelIdeal.HostDefs

end
-- ==== Proof.EdgeBody.lean ====
/-
  What the edge kernel's body leaves in its two output blocks, entry by entry: row r of the message block is the edge's
  message computed from row r of the three input blocks, and row r of the coordinate block is the relative position
  times the edge's coordinate weight.
-/
import proofs.«404792_j40621800686307_1_alg».proof.Proof.Gen.KernelIdeal.Frame
import proofs.«404792_j40621800686307_1_alg».proof.Proof.Spec
import Idealize.ShloMosaic.PureOps.Ideal.Laws
import Idealize.ShloMosaic.Lib.Pipeline.Value
import Idealize.ShloMosaic.Lib.ValueLayout
set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeBody

open Cert.KernelIdeal Cert.KernelIdeal.Gen Cert.Egnn

/-! ## The two products' operand indices, axis by axis -/

private theorem lhs_mm128_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
private theorem lhs_mm128_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
private theorem rhs_mm128_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
private theorem rhs_mm128_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- A 3200 × 128 by 128 × 128 product into the zero accumulator, at (r, j): Σ_k a (r, k) · w (k, j). -/
private theorem mm128_apply {φ₁ φ₂ : FTy} (a : FVec Ideal S3200x128 φ₁) (w : FVec Ideal S128x128 φ₂) (r : Fin 3200) (j : Fin 128) :
    matmul dot_S3200x128_S128x128_S3200x128_1_0_0_1_n_n none a w (constant (F := Ideal) S3200x128 .f32 0x00000000#32) (ix2 r j)
      = ∑ k : Fin 128, a (ix2 r k) * w (ix2 k j) := by
  simp only [matmul]
  rw [Ideal.matmul_constant_zero_apply, ← Equiv.sum_comp (ValueIdx.contrEquiv1 dot_S3200x128_S128x128_S3200x128_1_0_0_1_n_n 128 rfl rfl).symm]
  refine Finset.sum_congr rfl fun k _ => ?_
  have hk := ValueIdx.contrEquiv1_symm_val dot_S3200x128_S128x128_S3200x128_1_0_0_1_n_n 128 rfl rfl k
  have el : dot_S3200x128_S128x128_S3200x128_1_0_0_1_n_n.lhsIdx (ix2 r j) ((ValueIdx.contrEquiv1 dot_S3200x128_S128x128_S3200x128_1_0_0_1_n_n 128 rfl rfl).symm k) = ix2 r k := funext fun a => Fin.ext (by
    match a with
    | ⟨0, _⟩ => exact lhs_mm128_0 _ _
    | ⟨1, _⟩ => exact (lhs_mm128_1 _ _).trans hk)
  have er : dot_S3200x128_S128x128_S3200x128_1_0_0_1_n_n.rhsIdx (ix2 r j) ((ValueIdx.contrEquiv1 dot_S3200x128_S128x128_S3200x128_1_0_0_1_n_n 128 rfl rfl).symm k) = ix2 k j := funext fun a => Fin.ext (by
    match a with
    | ⟨0, _⟩ => exact (rhs_mm128_0 _ _).trans hk
    | ⟨1, _⟩ => exact rhs_mm128_1 _ _)
  rw [el, er]

private theorem lhs_mm1_0 (i : S3200x1.Idx) (q : dot_S3200x128_S128x1_S3200x1_1_0_0_1_n_n.contr.Idx) :
    (dot_S3200x128_S128x1_S3200x1_1_0_0_1_n_n.lhsIdx i q 0).val = (i 0).val := by
  unfold DotDims.lhsIdx
  rw [dif_neg (show ¬(0 : Fin S3200x128.rank) ∈ dot_S3200x128_S128x1_S3200x1_1_0_0_1_n_n.lhsBatch by decide), dif_pos (show (0 : Fin S3200x128.rank) ∈ dot_S3200x128_S128x1_S3200x1_1_0_0_1_n_n.lhsNonContracting by decide)]
  rfl
private theorem lhs_mm1_1 (i : S3200x1.Idx) (q : dot_S3200x128_S128x1_S3200x1_1_0_0_1_n_n.contr.Idx) :
    (dot_S3200x128_S128x1_S3200x1_1_0_0_1_n_n.lhsIdx i q 1).val = (q ⟨0, by decide⟩).val :=
  dot_S3200x128_S128x1_S3200x1_1_0_0_1_n_n.lhsIdx_val_of_single rfl i q
private theorem rhs_mm1_0 (i : S3200x1.Idx) (q : dot_S3200x128_S128x1_S3200x1_1_0_0_1_n_n.contr.Idx) :
    (dot_S3200x128_S128x1_S3200x1_1_0_0_1_n_n.rhsIdx i q 0).val = (q ⟨0, by decide⟩).val :=
  dot_S3200x128_S128x1_S3200x1_1_0_0_1_n_n.rhsIdx_val_of_single rfl i q
private theorem rhs_mm1_1 (i : S3200x1.Idx) (q : dot_S3200x128_S128x1_S3200x1_1_0_0_1_n_n.contr.Idx) :
    (dot_S3200x128_S128x1_S3200x1_1_0_0_1_n_n.rhsIdx i q 1).val = (i 1).val := by
  unfold DotDims.rhsIdx
  rw [dif_neg (show ¬(1 : Fin S128x1.rank) ∈ dot_S3200x128_S128x1_S3200x1_1_0_0_1_n_n.rhsBatch by decide), dif_pos (show (1 : Fin S128x1.rank) ∈ dot_S3200x128_S128x1_S3200x1_1_0_0_1_n_n.rhsNonContracting by decide)]
  rfl

/-- A 3200 × 128 by 128 × 1 product into the zero accumulator, at (r, u): Σ_k a (r, k) · w (k, u). -/
private theorem mm1_apply {φ₁ φ₂ : FTy} (a : FVec Ideal S3200x128 φ₁) (w : FVec Ideal S128x1 φ₂) (r : Fin 3200) (u : Fin 1) :
    matmul dot_S3200x128_S128x1_S3200x1_1_0_0_1_n_n none a w (constant (F := Ideal) S3200x1 .f32 0x00000000#32) (ix2 r u)
      = ∑ k : Fin 128, a (ix2 r k) * w (ix2 k u) := by
  simp only [matmul]
  rw [Ideal.matmul_constant_zero_apply, ← Equiv.sum_comp (ValueIdx.contrEquiv1 dot_S3200x128_S128x1_S3200x1_1_0_0_1_n_n 128 rfl rfl).symm]
  refine Finset.sum_congr rfl fun k _ => ?_
  have hk := ValueIdx.contrEquiv1_symm_val dot_S3200x128_S128x1_S3200x1_1_0_0_1_n_n 128 rfl rfl k
  have el : dot_S3200x128_S128x1_S3200x1_1_0_0_1_n_n.lhsIdx (ix2 r u) ((ValueIdx.contrEquiv1 dot_S3200x128_S128x1_S3200x1_1_0_0_1_n_n 128 rfl rfl).symm k) = ix2 r k := funext fun a => Fin.ext (by
    match a with
    | ⟨0, _⟩ => exact lhs_mm1_0 _ _
    | ⟨1, _⟩ => exact (lhs_mm1_1 _ _).trans hk)
  have er : dot_S3200x128_S128x1_S3200x1_1_0_0_1_n_n.rhsIdx (ix2 r u) ((ValueIdx.contrEquiv1 dot_S3200x128_S128x1_S3200x1_1_0_0_1_n_n 128 rfl rfl).symm k) = ix2 k u := funext fun a => Fin.ext (by
    match a with
    | ⟨0, _⟩ => exact (rhs_mm1_0 _ _).trans hk
    | ⟨1, _⟩ => exact rhs_mm1_1 _ _)
  rw [el, er]

/-! ## Layout operations at an index -/

/-- An [a] array cast to [a, 1] reads, at (i, u), the operand at i. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 3 lanes of a 3200 × 3 array, at row r. -/
private theorem laneSum3_apply (v : FVec Ideal S3200x3 .f32) (hacc : (0x00000000#32 : BitVec 32) = 0x00000000#32) (r : Fin 3200) :
    multiReduction (F := Ideal) .add [1] S3200 v 0x00000000#32 reduces_S3200x3_S3200 (.inl rfl) hacc (ix1 r) = ∑ d : Fin 3, v (ix2 r d) := by
  refine (Ideal.multiReduction_add_single v 0x00000000#32 reduces_S3200x3_S3200 (.inl rfl) hacc (ix1 r)).trans ?_
  refine Finset.sum_congr rfl fun d _ => congrArg v (funext fun c => Fin.ext ?_)
  match c with
  | ⟨0, _⟩ => rfl
  | ⟨1, _⟩ => rfl

/-! ## The payloads at an index -/

/-- x · logistic x, entry by entry, is silu of the entry. -/
private theorem siluVec_apply {s : Shape} (x : FVec Ideal s .f32) (i : s.Idx) : mulf x (logistic x) i = silu (x i) := rfl

/-- The first layer's row: three partial products and the bias, at (r, k). -/
private theorem lin1_apply (v0 v3 : FVec Ideal S3200x128 .f32) (v6 : FVec Ideal S3200x3 .f32) (v11 v14 : FVec Ideal S128x128 .f32)
    (v17 : FVec Ideal S1x128 .f32) (v19 : FVec Ideal S128 .f32) (hacc : (0x00000000#32 : BitVec 32) = 0x00000000#32)
    (r : Fin 3200) (k : Fin 128) :
    addf (addf (addf
        (matmul dot_S3200x128_S128x128_S3200x128_1_0_0_1_n_n none (truncf .bf16 v0 bitsLt_bf16_f32) (truncf .bf16 v11 bitsLt_bf16_f32)
          (constant (F := Ideal) S3200x128 .f32 0x00000000#32))
        (matmul dot_S3200x128_S128x128_S3200x128_1_0_0_1_n_n none (truncf .bf16 v3 bitsLt_bf16_f32) (truncf .bf16 v14 bitsLt_bf16_f32)
          (constant (F := Ideal) S3200x128 .f32 0x00000000#32)))
        (mulf
          (broadcastTo S3200x128 (shapeCast S3200x1
            (multiReduction (F := Ideal) .add [1] S3200 (mulf v6 v6) 0x00000000#32 reduces_S3200x3_S3200 (.inl rfl) hacc)
            shapeCasts_S3200_S3200x1) broadcasts_S3200x1_S3200x128)
          (broadcastTo S3200x128 v17 broadcasts_S1x128_S3200x128)))
        (broadcastTo S3200x128 (shapeCast S1x128 v19 shapeCasts_S128_S1x128) broadcasts_S1x128_S3200x128) (ix2 r k)
      = lin1K (row v0 r) (row v3 r) (row v6 r) (mat v11) (mat v14) (row v17 0) (vec v19) k := by
  unfold lin1K dsq
  simp only [addf_apply, mulf_apply]
  refine congrArg₂ (· + ·) (congrArg₂ (· + ·) (congrArg₂ (· + ·) ?_ ?_) (congrArg₂ (· * ·) ?_ ?_)) ?_
  · exact mm128_apply _ _ r k
  · exact mm128_apply _ _ r k
  · exact (broadcastTo_a1_ab_apply _ _ r k).trans ((shapeCast_a_a1_apply _ _ r 0).trans (laneSum3_apply _ hacc r))
  · exact broadcastTo_1b_ab_apply v17 _ r k
  · exact (broadcastTo_1b_ab_apply _ _ r k).trans (shapeCast_a_1a_apply v19 _ 0 k)

/-- The second bias laid along every row, at (r, j). -/
private theorem pay5_apply (v34 : Vec Ideal S128 .f32) (r : Fin 3200) (j : Fin 128) :
    k0_pay5 (F := Ideal) v34 (ix2 r j) = v34 (ix1 j) := by
  unfold k0_pay5
  exact (broadcastTo_1b_ab_apply _ _ r j).trans (shapeCast_a_1a_apply v34 _ 0 j)

/-- The second layer's product, at (r, j): Σ_k silu (first-layer row at k) · W2 (k, j). -/
private theorem pay4_apply (v0 v3 : Vec Ideal S3200x128 .f32) (v6 : Vec Ideal S3200x3 .f32) (v11 v14 : Vec Ideal S128x128 .f32)
    (v17 : Vec Ideal S1x128 .f32) (v19 : Vec Ideal S128 .f32) (v32 : Vec Ideal S128x128 .f32) (r : Fin 3200) (j : Fin 128) :
    k0_pay4 (F := Ideal) v0 v3 v6 v11 v14 v17 v19 v32 (ix2 r j)
      = ∑ k : Fin 128, silu (lin1K (row v0 r) (row v3 r) (row v6 r) (mat v11) (mat v14) (row v17 0) (vec v19) k) * v32 (ix2 k j) := by
  unfold k0_pay4 k0_pay3
  simp only [shapeCast_self]
  refine (mm128_apply _ _ r j).trans ?_
  refine Finset.sum_congr rfl fun k _ => ?_
  refine congrArg₂ (· * ·) ?_ rfl
  refine (truncf_apply (ψ := .bf16) _ bitsLt_bf16_f32 _).trans ?_
  refine (siluVec_apply _ _).trans (congrArg silu ?_)
  exact lin1_apply v0 v3 v6 v11 v14 v17 v19 rfl r k

/-- The message block's payload, at (r, j): silu of the sum of its two operands' entries. -/
private theorem pay1_apply (v36 v38 : FVec Ideal S3200x128 .f32) (r : Fin 3200) (j : Fin 128) :
    k0_pay1 (F := Ideal) v36 v38 (ix2 r j) = silu (v36 (ix2 r j) + v38 (ix2 r j)) := rfl

/-- Row r of the message block's payload is the edge's message. -/
private theorem msg_apply (x0 x1 : Vec Ideal S3200x128 .f32) (x2 : Vec Ideal S3200x3 .f32) (x3 x4 : Vec Ideal S128x128 .f32)
    (x5 : Vec Ideal S1x128 .f32) (x6 : Vec Ideal S128 .f32) (x7 : Vec Ideal S128x128 .f32) (x8 : Vec Ideal S128 .f32)
    (r : Fin 3200) (j : Fin 128) :
    k0_pay1 (F := Ideal) (k0_pay4 x0 x1 x2 x3 x4 x5 x6 x7) (k0_pay5 x8) (ix2 r j)
      = msgOf (lin1K (row x0 r) (row x1 r) (row x2 r) (mat x3) (mat x4) (row x5 0) (vec x6)) (mat x7) (vec x8) j := by
  refine (pay1_apply _ _ r j).trans ?_
  unfold msgOf layer
  exact congrArg silu (congrArg₂ (· + ·) (pay4_apply x0 x1 x2 x3 x4 x5 x6 x7 r j) (pay5_apply x8 r j))

/-- The coordinate block's payload, at (r, d): the position entry times the coordinate weight of row r of the message payload. -/
private theorem pay2_apply (v7 : FVec Ideal S3200x3 .f32) (v36 v38 : FVec Ideal S3200x128 .f32) (v42 : Vec Ideal S128x128 .f32)
    (v44 : Vec Ideal S128 .f32) (v52 : Vec Ideal S128x1 .f32) (r : Fin 3200) (d : Fin 3) :
    k0_pay2 (F := Ideal) v7 v36 v38 v42 v44 v52 (ix2 r d)
      = v7 (ix2 r d) * coordW (fun k' => k0_pay1 (F := Ideal) v36 v38 (ix2 r k')) (mat v42) (vec v44) (fun k => v52 (ix2 k 0)) := by
  unfold k0_pay2 coordW
  refine (mulf_apply _ _ _).trans (congrArg₂ (· * ·) rfl ?_)
  refine (broadcastTo_a1_ab_apply _ _ r d).trans ?_
  refine (mm1_apply _ _ r 0).trans ?_
  refine Finset.sum_congr rfl fun k _ => congrArg₂ (· * ·) ?_ rfl
  refine (truncf_apply (ψ := .bf16) _ bitsLt_bf16_f32 _).trans ?_
  refine (siluVec_apply _ _).trans (congrArg silu ?_)
  refine (addf_apply _ _ _).trans (congrArg₂ (· + ·) ?_ ?_)
  · exact mm128_apply _ _ r k
  · exact (broadcastTo_1b_ab_apply _ _ r k).trans (shapeCast_a_1a_apply v44 _ 0 k)

private theorem zero2 : (![0, 0] : Fin 2 → Nat) = fun _ => 0 := funext fun a => by
  match a with
  | ⟨0, _⟩ => rfl
  | ⟨1, _⟩ => rfl

private theorem zero1 : (![0] : Fin 1 → Nat) = fun _ => 0 := funext fun a => by
  match a with
  | ⟨0, _⟩ => rfl

/-- Entry (r, j) of the message block. -/
theorem out12_apply (x0 x1 : Vec Ideal S3200x128 .f32) (x2 : Vec Ideal S3200x3 .f32) (x3 x4 : Vec Ideal S128x128 .f32)
    (x5 : Vec Ideal S1x128 .f32) (x6 : Vec Ideal S128 .f32) (x7 : Vec Ideal S128x128 .f32) (x8 : Vec Ideal S128 .f32)
    (x9 : Vec Ideal S128x128 .f32) (x10 : Vec Ideal S128 .f32) (x11 : Vec Ideal S128x1 .f32) (r : Fin 3200) (j : Fin 128) :
    out0_12 (F := Ideal) x0 x1 x2 x3 x4 x5 x6 x7 x8 x9 x10 x11 (ix2 r j)
      = msgOf (lin1K (row x0 r) (row x1 r) (row x2 r) (mat x3) (mat x4) (row x5 0) (vec x6)) (mat x7) (vec x8) j := by
  unfold out0_12
  rw [View.canon_unit_zero zero2]
  simp only [View.ld_unit_zero (S := S3200x128) zero2, View.ld_unit_zero (S := S3200x3) zero2,
    View.ld_unit_zero (S := S128x128) zero2, View.ld_unit_zero (S := S1x128) zero2, View.ld_unit_zero (S := S128) zero1]
  exact msg_apply x0 x1 x2 x3 x4 x5 x6 x7 x8 r j

/-- Entry (r, d) of the coordinate block. -/
theorem out13_apply (x0 x1 : Vec Ideal S3200x128 .f32) (x2 : Vec Ideal S3200x3 .f32) (x3 x4 : Vec Ideal S128x128 .f32)
    (x5 : Vec Ideal S1x128 .f32) (x6 : Vec Ideal S128 .f32) (x7 : Vec Ideal S128x128 .f32) (x8 : Vec Ideal S128 .f32)
    (x9 : Vec Ideal S128x128 .f32) (x10 : Vec Ideal S128 .f32) (x11 : Vec Ideal S128x1 .f32) (r : Fin 3200) (d : Fin 3) :
    out0_13 (F := Ideal) x0 x1 x2 x3 x4 x5 x6 x7 x8 x9 x10 x11 (ix2 r d)
      = x2 (ix2 r d) * coordW (msgOf (lin1K (row x0 r) (row x1 r) (row x2 r) (mat x3) (mat x4) (row x5 0) (vec x6)) (mat x7) (vec x8))
          (mat x9) (vec x10) (fun k => x11 (ix2 k 0)) := by
  unfold out0_13
  rw [View.canon_unit_zero zero2]
  simp only [View.ld_unit_zero (S := S3200x128) zero2, View.ld_unit_zero (S := S3200x3) zero2,
    View.ld_unit_zero (S := S128x128) zero2, View.ld_unit_zero (S := S1x128) zero2, View.ld_unit_zero (S := S128) zero1,
    View.ld_unit_zero (S := S128x1) zero2]
  refine (pay2_apply _ _ _ x9 x10 x11 r d).trans ?_
  refine congrArg₂ (· * ·) ?_
    (congrArg (fun em => coordW em (mat x9) (vec x10) (fun k => x11 (ix2 k 0)))
      (funext fun k' => msg_apply x0 x1 x2 x3 x4 x5 x6 x7 x8 r k'))
  unfold k0_pay3
  rw [shapeCast_self]

end Cert.KernelIdeal.EdgeBody

end
-- ==== Proof.NodeBody.lean ====
/-
  What the node kernel's body leaves in its output block, entry by entry: row r is the node's feature row plus the
  two-layer update computed from row r of the feature block and of the message block.
-/
import proofs.«404792_j40621800686307_1_alg».proof.Proof.Gen.KernelIdeal.Frame
import proofs.«404792_j40621800686307_1_alg».proof.Proof.Spec
import Idealize.ShloMosaic.PureOps.Ideal.Laws
import Idealize.ShloMosaic.Lib.Pipeline.Value
import Idealize.ShloMosaic.Lib.ValueLayout
set_option maxRecDepth 16384

noncomputable section

open Idealize.ShloMosaic Idealize.ShloMosaic.TcCoe Idealize.SL.Sem Idealize.ShloMosaic.ValueIdx
open Idealize.ShloMosaic.Pipeline (Dat)

namespace Cert.KernelIdeal.NodeBody

open Cert.KernelIdeal Cert.KernelIdeal.Gen Cert.Egnn

/-! ## A 5000 × 128 block times a 128 × 128 matrix, read at an entry

  The product's operand indices at output entry (r, j) and contraction position k are (r, k) and (k, j): one lemma per
  operand and axis, then the sum over the one-axis contraction index re-indexed by its coordinate. -/

/-- The left operand's row is the output's row. -/
private theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction position. -/
private theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction position. -/
private theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
private theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero block at (r, j) is Σ_k a (r, k) · w (k, j). -/
private theorem matmul_zero_apply {φ₁ φ₂ : FTy} (a : FVec Ideal S5000x128 φ₁) (w : FVec Ideal S128x128 φ₂) (r : Fin 5000) (j : Fin 128) :
    matmul dot_S5000x128_S128x128_S5000x128_1_0_0_1_n_n none a w (constant (F := Ideal) S5000x128 .f32 0x00000000#32) (ix2 r j)
      = ∑ k : Fin 128, a (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_node_0 _ _).trans hk
    | ⟨1, _⟩ => exact rhs_node_1 _ _)
  rw [el, er]

/-- The logistic of a block at an entry is the logistic of the entry. -/
private theorem logistic_apply {s : Shape} {φ : FTy} (a : FVec Ideal s φ) (i : s.Idx) : logistic a i = Ideal.logistic (a i) := rfl

/-! ## The body's one stored value at an entry -/

/-- The stored value at (r, j), over any eight blocks read: the last block's entry plus the second layer of the
    silu of the first layer. -/
private theorem pay1_apply (v0 v2 v28 : Vec Ideal S5000x128 .f32) (v5 v8 v20 : Vec Ideal S128x128 .f32) (v11 v22 : Vec Ideal S128 .f32)
    (r : Fin 5000) (j : Fin 128) :
    k1_pay1 (F := Ideal) v0 v2 v5 v8 v11 v20 v22 v28 (ix2 r j)
      = nodeOf (row v28 r) (nlin1K (row v0 r) (row v2 r) (mat v5) (mat v8) (vec v11)) (mat v20) (vec v22) j := by
  unfold k1_pay1
  simp only [shapeCast_self, addf_apply, mulf_apply, truncf_apply, logistic_apply, matmul_zero_apply,
    broadcastTo_1b_ab_apply, shapeCast_a_1a_apply]
  rfl

/-- Entry (r, j) of the new-feature block. -/
theorem out7_apply (x0 x1 : Vec Ideal S5000x128 .f32) (x2 x3 : Vec Ideal S128x128 .f32) (x4 : Vec Ideal S128 .f32)
    (x5 : Vec Ideal S128x128 .f32) (x6 : Vec Ideal S128 .f32) (r : Fin 5000) (j : Fin 128) :
    out1_7 (F := Ideal) x0 x1 x2 x3 x4 x5 x6 (ix2 r j)
      = nodeOf (row x0 r) (nlin1K (row x0 r) (row x1 r) (mat x2) (mat x3) (vec x4)) (mat x5) (vec x6) j := by
  have hz : (![0, 0] : Fin 2 → Nat) = fun _ => 0 := funext fun a => by fin_cases a <;> rfl
  have hz1 : (![0] : Fin 1 → Nat) = fun _ => 0 := funext fun a => by fin_cases a; rfl
  unfold out1_7
  rw [View.canon_unit_zero hz]
  simp only [View.ld_unit_zero (S := S5000x128) hz, View.ld_unit_zero (S := S128x128) hz, View.ld_unit_zero (S := S128) hz1]
  exact pay1_apply x0 x1 x0 x2 x3 x5 x4 x6 r j

end Cert.KernelIdeal.NodeBody

end
-- ==== Proof.EdgeArr.lean ====
/-
  The edge region's two output arrays after the run, as whole-array functions of the arrays the region was entered with:
  grid point t writes rows 3200·t … 3200·t + 3199, the 250 blocks tile the 800000 rows, and inside a block each row is the
  body's row function of the same rows of the input blocks.
-/
import proofs.«404792_j40621800686307_1_alg».proof.Proof.Gen.KernelIdeal.Frame
import proofs.«404792_j40621800686307_1_alg».proof.Proof.Spec
import Idealize.ShloMosaic.Lib.Pipeline.Value
set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeArr

open Cert.KernelIdeal Cert.KernelIdeal.Gen Cert.Egnn

variable (V : (c : Dev nD) → (b : Ref sig .tc) → Buf (Elt Ideal) ((c : Thread nD τ).loc b))

/-- The index maps over the 250 grid points: the three edge inputs and the two outputs move with the point along the rows,
    every weight and bias window stays at block 0. -/
private theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ win0_6.index t 0 = 0
    ∧ (win0_7.index t 0 = 0 ∧ win0_7.index t 1 = 0) ∧ win0_8.index t 0 = 0
    ∧ (win0_9.index t 0 = 0 ∧ win0_9.index t 1 = 0) ∧ win0_10.index t 0 = 0
    ∧ (win0_11.index t 0 = 0 ∧ win0_11.index t 1 = 0)
    ∧ (win0_12.index t 0 = t.val ∧ win0_12.index t 1 = 0) ∧ (win0_13.index t 0 = t.val ∧ win0_13.index t 1 = 0) :=
  (by decide +kernel : ∀ t : Fin grid0.N, _)

/-- Row r of window 0's block at point t is row 3200·t + r of the window's array. -/
private theorem blk0_apply (c : Dev nD) (t : Fin cfg0.N) (r : Fin 3200) (k : Fin 128) (e : Fin 800000) (he : e.val = 3200 * t.val + r.val) :
    (iblk0 (F := Ideal) V c 0 t : Vec Ideal S3200x128 .f32) (ix2 r k)
      = (V c main_v4 : (⟨2, ![800000, 128]⟩ : Shape).Idx → EReal) (ix2 e k) := by
  have hi := (idx_facts t).1
  unfold iblk0
  rw [View.read_apply]
  show V c main_v4 _ = V c main_v4 _
  congr 1
  funext a
  apply Fin.ext
  match a with
  | ⟨0, _⟩ => show win0_0.index t 0 * 3200 + 1 * r.val = e.val; rw [hi.1, he]; omega
  | ⟨1, _⟩ => show win0_0.index t 1 * 128 + 1 * k.val = k.val; rw [hi.2]; omega

/-- Row r of window 1's block at point t is row 3200·t + r of the window's array. -/
private theorem blk1_apply (c : Dev nD) (t : Fin cfg0.N) (r : Fin 3200) (k : Fin 128) (e : Fin 800000) (he : e.val = 3200 * t.val + r.val) :
    (iblk0 (F := Ideal) V c 1 t : Vec Ideal S3200x128 .f32) (ix2 r k)
      = (V c main_v5 : (⟨2, ![800000, 128]⟩ : Shape).Idx → EReal) (ix2 e k) := by
  have hi := (idx_facts t).2.1
  unfold iblk0
  rw [View.read_apply]
  show V c main_v5 _ = V c main_v5 _
  congr 1
  funext a
  apply Fin.ext
  match a with
  | ⟨0, _⟩ => show win0_1.index t 0 * 3200 + 1 * r.val = e.val; rw [hi.1, he]; omega
  | ⟨1, _⟩ => show win0_1.index t 1 * 128 + 1 * k.val = k.val; rw [hi.2]; omega

/-- Row r of window 2's block at point t is row 3200·t + r of the window's array. -/
private theorem blk2_apply (c : Dev nD) (t : Fin cfg0.N) (r : Fin 3200) (k : Fin 3) (e : Fin 800000) (he : e.val = 3200 * t.val + r.val) :
    (iblk0 (F := Ideal) V c 2 t : Vec Ideal S3200x3 .f32) (ix2 r k)
      = (V c main_v8 : (⟨2, ![800000, 3]⟩ : Shape).Idx → EReal) (ix2 e k) := by
  have hi := (idx_facts t).2.2.1
  unfold iblk0
  rw [View.read_apply]
  show V c main_v8 _ = V c main_v8 _
  congr 1
  funext a
  apply Fin.ext
  match a with
  | ⟨0, _⟩ => show win0_2.index t 0 * 3200 + 1 * r.val = e.val; rw [hi.1, he]; omega
  | ⟨1, _⟩ => show win0_2.index t 1 * 3 + 1 * k.val = k.val; rw [hi.2]; omega

/-- Window 3's block is its whole 128 × 128 array at every point: the block index is 0 on both axes. -/
private theorem blk3_eq (c : Dev nD) (t : Fin cfg0.N) :
    (iblk0 (F := Ideal) V c 3 t : Vec Ideal S128x128 .f32) = (V c main_v9 : (⟨2, ![128, 128]⟩ : Shape).Idx → EReal) := by
  have hi := (idx_facts t).2.2.2.1
  funext y
  unfold iblk0
  rw [View.read_apply]
  show V c main_v9 _ = V c main_v9 y
  congr 1
  funext a
  apply Fin.ext
  match a with
  | ⟨0, _⟩ => show win0_3.index t 0 * 128 + 1 * (y 0).val = (y 0).val; rw [hi.1]; omega
  | ⟨1, _⟩ => show win0_3.index t 1 * 128 + 1 * (y 1).val = (y 1).val; rw [hi.2]; omega

/-- Window 4's block is its whole 128 × 128 array at every point: the block index is 0 on both axes. -/
private theorem blk4_eq (c : Dev nD) (t : Fin cfg0.N) :
    (iblk0 (F := Ideal) V c 4 t : Vec Ideal S128x128 .f32) = (V c main_v10 : (⟨2, ![128, 128]⟩ : Shape).Idx → EReal) := by
  have hi := (idx_facts t).2.2.2.2.1
  funext y
  unfold iblk0
  rw [View.read_apply]
  show V c main_v10 _ = V c main_v10 y
  congr 1
  funext a
  apply Fin.ext
  match a with
  | ⟨0, _⟩ => show win0_4.index t 0 * 128 + 1 * (y 0).val = (y 0).val; rw [hi.1]; omega
  | ⟨1, _⟩ => show win0_4.index t 1 * 128 + 1 * (y 1).val = (y 1).val; rw [hi.2]; omega

/-- Window 5's block is its whole 1 × 128 array at every point: the block index is 0 on both axes. -/
private theorem blk5_eq (c : Dev nD) (t : Fin cfg0.N) :
    (iblk0 (F := Ideal) V c 5 t : Vec Ideal S1x128 .f32) = (V c main_v11 : (⟨2, ![1, 128]⟩ : Shape).Idx → EReal) := by
  have hi := (idx_facts t).2.2.2.2.2.1
  funext y
  unfold iblk0
  rw [View.read_apply]
  show V c main_v11 _ = V c main_v11 y
  congr 1
  funext a
  apply Fin.ext
  match a with
  | ⟨0, _⟩ => show win0_5.index t 0 * 1 + 1 * (y 0).val = (y 0).val; rw [hi.1]; omega
  | ⟨1, _⟩ => show win0_5.index t 1 * 128 + 1 * (y 1).val = (y 1).val; rw [hi.2]; omega

/-- Window 7's block is its whole 128 × 128 array at every point: the block index is 0 on both axes. -/
private theorem blk7_eq (c : Dev nD) (t : Fin cfg0.N) :
    (iblk0 (F := Ideal) V c 7 t : Vec Ideal S128x128 .f32) = (V c main_arg5 : (⟨2, ![128, 128]⟩ : Shape).Idx → EReal) := by
  have hi := (idx_facts t).2.2.2.2.2.2.2.1
  funext y
  unfold iblk0
  rw [View.read_apply]
  show V c main_arg5 _ = V c main_arg5 y
  congr 1
  funext a
  apply Fin.ext
  match a with
  | ⟨0, _⟩ => show win0_7.index t 0 * 128 + 1 * (y 0).val = (y 0).val; rw [hi.1]; omega
  | ⟨1, _⟩ => show win0_7.index t 1 * 128 + 1 * (y 1).val = (y 1).val; rw [hi.2]; omega

/-- Window 9's block is its whole 128 × 128 array at every point: the block index is 0 on both axes. -/
private theorem blk9_eq (c : Dev nD) (t : Fin cfg0.N) :
    (iblk0 (F := Ideal) V c 9 t : Vec Ideal S128x128 .f32) = (V c main_arg11 : (⟨2, ![128, 128]⟩ : Shape).Idx → EReal) := by
  have hi := (idx_facts t).2.2.2.2.2.2.2.2.2.1
  funext y
  unfold iblk0
  rw [View.read_apply]
  show V c main_arg11 _ = V c main_arg11 y
  congr 1
  funext a
  apply Fin.ext
  match a with
  | ⟨0, _⟩ => show win0_9.index t 0 * 128 + 1 * (y 0).val = (y 0).val; rw [hi.1]; omega
  | ⟨1, _⟩ => show win0_9.index t 1 * 128 + 1 * (y 1).val = (y 1).val; rw [hi.2]; omega

/-- Window 11's block is its whole 128 × 1 array at every point: the block index is 0 on both axes. -/
private theorem blk11_eq (c : Dev nD) (t : Fin cfg0.N) :
    (iblk0 (F := Ideal) V c 11 t : Vec Ideal S128x1 .f32) = (V c main_arg13 : (⟨2, ![128, 1]⟩ : Shape).Idx → EReal) := by
  have hi := (idx_facts t).2.2.2.2.2.2.2.2.2.2.2.1
  funext y
  unfold iblk0
  rw [View.read_apply]
  show V c main_arg13 _ = V c main_arg13 y
  congr 1
  funext a
  apply Fin.ext
  match a with
  | ⟨0, _⟩ => show win0_11.index t 0 * 128 + 1 * (y 0).val = (y 0).val; rw [hi.1]; omega
  | ⟨1, _⟩ => show win0_11.index t 1 * 1 + 1 * (y 1).val = (y 1).val; rw [hi.2]; omega

/-- Window 6's block is its whole 128-entry array at every point: the block index is 0. -/
private theorem blk6_eq (c : Dev nD) (t : Fin cfg0.N) :
    (iblk0 (F := Ideal) V c 6 t : Vec Ideal S128 .f32) = (V c main_arg4 : (⟨1, ![128]⟩ : Shape).Idx → EReal) := by
  have hi := (idx_facts t).2.2.2.2.2.2.1
  funext y
  unfold iblk0
  rw [View.read_apply]
  show V c main_arg4 _ = V c main_arg4 y
  congr 1
  funext a
  apply Fin.ext
  match a with
  | ⟨0, _⟩ => show win0_6.index t 0 * 128 + 1 * (y 0).val = (y 0).val; rw [hi]; omega

/-- Window 8's block is its whole 128-entry array at every point: the block index is 0. -/
private theorem blk8_eq (c : Dev nD) (t : Fin cfg0.N) :
    (iblk0 (F := Ideal) V c 8 t : Vec Ideal S128 .f32) = (V c main_arg6 : (⟨1, ![128]⟩ : Shape).Idx → EReal) := by
  have hi := (idx_facts t).2.2.2.2.2.2.2.2.1
  funext y
  unfold iblk0
  rw [View.read_apply]
  show V c main_arg6 _ = V c main_arg6 y
  congr 1
  funext a
  apply Fin.ext
  match a with
  | ⟨0, _⟩ => show win0_8.index t 0 * 128 + 1 * (y 0).val = (y 0).val; rw [hi]; omega

/-- Window 10's block is its whole 128-entry array at every point: the block index is 0. -/
private theorem blk10_eq (c : Dev nD) (t : Fin cfg0.N) :
    (iblk0 (F := Ideal) V c 10 t : Vec Ideal S128 .f32) = (V c main_arg12 : (⟨1, ![128]⟩ : Shape).Idx → EReal) := by
  have hi := (idx_facts t).2.2.2.2.2.2.2.2.2.2.1
  funext y
  unfold iblk0
  rw [View.read_apply]
  show V c main_arg12 _ = V c main_arg12 y
  congr 1
  funext a
  apply Fin.ext
  match a with
  | ⟨0, _⟩ => show win0_10.index t 0 * 128 + 1 * (y 0).val = (y 0).val; rw [hi]; omega

/-- One element of the message block at point t: the message function at row 3200·t + r. -/
private theorem pt12 (c : Dev nD)
    (hbody : ∀ (x0 x1 : Vec Ideal S3200x128 .f32) (x2 : Vec Ideal S3200x3 .f32) (x3 x4 : Vec Ideal S128x128 .f32)
      (x5 : Vec Ideal S1x128 .f32) (x6 : Vec Ideal S128 .f32) (x7 : Vec Ideal S128x128 .f32) (x8 : Vec Ideal S128 .f32)
      (x9 : Vec Ideal S128x128 .f32) (x10 : Vec Ideal S128 .f32) (x11 : Vec Ideal S128x1 .f32) (r : Fin 3200) (j : Fin 128),
      out0_12 (F := Ideal) x0 x1 x2 x3 x4 x5 x6 x7 x8 x9 x10 x11 (ix2 r j)
        = msgOf (lin1K (row x0 r) (row x1 r) (row x2 r) (mat x3) (mat x4) (row x5 0) (vec x6)) (mat x7) (vec x8) j)
    (t : Fin cfg0.N) (r : Fin 3200) (j : Fin 128) (e : Fin 800000) (he : e.val = 3200 * t.val + r.val) :
    out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (ix2 r j)
      = (EMarrK (E := 800000) (V c main_v4) (V c main_v5) (V c main_v8) (V c main_v9) (V c main_v10) (V c main_v11)
          (V c main_arg4) (V c main_arg5) (V c main_arg6)) (ix2 e j) := by
  have e0 : row (iblk0 (F := Ideal) V c 0 t : Vec Ideal S3200x128 .f32) r = row (V c main_v4) e :=
    funext fun k => blk0_apply V c t r k e he
  have e1 : row (iblk0 (F := Ideal) V c 1 t : Vec Ideal S3200x128 .f32) r = row (V c main_v5) e :=
    funext fun k => blk1_apply V c t r k e he
  have e2 : row (iblk0 (F := Ideal) V c 2 t : Vec Ideal S3200x3 .f32) r = row (V c main_v8) e :=
    funext fun k => blk2_apply V c t r k e he
  rw [hbody, e0, e1, e2, blk3_eq, blk4_eq, blk5_eq, blk6_eq, blk7_eq, blk8_eq]
  rfl

/-- What point t writes back to the message array is block t of the whole-array message function. -/
private theorem flushed12_eq (c : Dev nD)
    (hbody : ∀ (x0 x1 : Vec Ideal S3200x128 .f32) (x2 : Vec Ideal S3200x3 .f32) (x3 x4 : Vec Ideal S128x128 .f32)
      (x5 : Vec Ideal S1x128 .f32) (x6 : Vec Ideal S128 .f32) (x7 : Vec Ideal S128x128 .f32) (x8 : Vec Ideal S128 .f32)
      (x9 : Vec Ideal S128x128 .f32) (x10 : Vec Ideal S128 .f32) (x11 : Vec Ideal S128x1 .f32) (r : Fin 3200) (j : Fin 128),
      out0_12 (F := Ideal) x0 x1 x2 x3 x4 x5 x6 x7 x8 x9 x10 x11 (ix2 r j)
        = msgOf (lin1K (row x0 r) (row x1 r) (row x2 r) (mat x3) (mat x4) (row x5 0) (vec x6)) (mat x7) (vec x8) j)
    (t : Fin cfg0.N) :
    (dat0 (F := Ideal) V c).flushed 12 t = ((cfg0.win 12).blk t).view.read (Elt Ideal)
      (EMarrK (E := 800000) (V c main_v4) (V c main_v5) (V c main_v8) (V c main_v9) (V c main_v10) (V c main_v11)
          (V c main_arg4) (V c main_arg5) (V c main_arg6)) := by
  show (cfg0.win 12).cut (grid0.coords t) ((dat0 (F := Ideal) V c).after 12 t) = _
  rw [after0_12]
  have hi := (idx_facts t).2.2.2.2.2.2.2.2.2.2.2.2.1
  funext y
  have hy0 : (y 0).val < 3200 := (y 0).isLt
  have hy1 : (y 1).val < 128 := (y 1).isLt
  have ht : t.val < 250 := t.isLt
  have hL : (cfg0.win 12).xinj (grid0.coords t) y = (ix2 (⟨(y 0).val, hy0⟩ : Fin 3200) (⟨(y 1).val, hy1⟩ : Fin 128) : S3200x128.Idx) := by
    funext a
    match a with
    | ⟨0, _⟩ => rfl
    | ⟨1, _⟩ => rfl
  have hR : ((cfg0.win 12).blk t).view.emb y
      = (ix2 (⟨3200 * t.val + (y 0).val, by omega⟩ : Fin 800000) (⟨(y 1).val, hy1⟩ : Fin 128) : (⟨2, ![800000, 128]⟩ : Shape).Idx) := by
    funext a
    apply Fin.ext
    match a with
    | ⟨0, _⟩ => show win0_12.index t 0 * 3200 + 1 * (y 0).val = 3200 * t.val + (y 0).val; rw [hi.1]; omega
    | ⟨1, _⟩ => show win0_12.index t 1 * 128 + 1 * (y 1).val = (y 1).val; rw [hi.2]; omega
  rw [View.read_apply]
  show out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) ((cfg0.win 12).xinj (grid0.coords t) y)
      = (EMarrK (E := 800000) (V c main_v4) (V c main_v5) (V c main_v8) (V c main_v9) (V c main_v10) (V c main_v11)
          (V c main_arg4) (V c main_arg5) (V c main_arg6)) (((cfg0.win 12).blk t).view.emb y)
  rw [hL, hR]
  exact pt12 V c hbody t _ _ _ rfl

/-- Every index of window 12's array is in the block of the point its row falls in: row e is written by point e / 3200. -/
private theorem cover12 (i : (⟨2, ![800000, 128]⟩ : Shape).Idx) :
    ∃ t : Fin cfg0.N, (cfg0.win 12).flush t = true ∧ i ∈ ((cfg0.win 12).blk t).view.set := by
  have hi0 : (i 0).val < 800000 := (i 0).isLt
  have hi1 : (i 1).val < 128 := (i 1).isLt
  have hN : (i 0).val / 3200 < cfg0.N := by show (i 0).val / 3200 < 250; omega
  refine ⟨⟨(i 0).val / 3200, hN⟩, flush0_12 _, ?_⟩
  have hi := (idx_facts ⟨(i 0).val / 3200, hN⟩).2.2.2.2.2.2.2.2.2.2.2.2.1
  show i ∈ ((View.whole main_v12_0).slice (win0_12.rect ⟨(i 0).val / 3200, hN⟩)).set
  rw [View.set_slice_whole, Rect.mem_set_unit]
  intro a
  match a with
  | ⟨0, _⟩ =>
    show win0_12.index ⟨(i 0).val / 3200, hN⟩ 0 * 3200 ≤ (i 0).val
      ∧ (i 0).val < win0_12.index ⟨(i 0).val / 3200, hN⟩ 0 * 3200 + 3200
    rw [hi.1]
    show (i 0).val / 3200 * 3200 ≤ (i 0).val ∧ (i 0).val < (i 0).val / 3200 * 3200 + 3200
    omega
  | ⟨1, _⟩ =>
    show win0_12.index ⟨(i 0).val / 3200, hN⟩ 1 * 128 ≤ (i 1).val
      ∧ (i 1).val < win0_12.index ⟨(i 0).val / 3200, hN⟩ 1 * 128 + 128
    rw [hi.2]
    omega

/-- The message array after the edge region: row e is the message of edge e. -/
theorem arr12_eq (c : Dev nD)
    (hbody : ∀ (x0 x1 : Vec Ideal S3200x128 .f32) (x2 : Vec Ideal S3200x3 .f32) (x3 x4 : Vec Ideal S128x128 .f32)
      (x5 : Vec Ideal S1x128 .f32) (x6 : Vec Ideal S128 .f32) (x7 : Vec Ideal S128x128 .f32) (x8 : Vec Ideal S128 .f32)
      (x9 : Vec Ideal S128x128 .f32) (x10 : Vec Ideal S128 .f32) (x11 : Vec Ideal S128x1 .f32) (r : Fin 3200) (j : Fin 128),
      out0_12 (F := Ideal) x0 x1 x2 x3 x4 x5 x6 x7 x8 x9 x10 x11 (ix2 r j)
        = msgOf (lin1K (row x0 r) (row x1 r) (row x2 r) (mat x3) (mat x4) (row x5 0) (vec x6)) (mat x7) (vec x8) j) :
    (dat0 (F := Ideal) V c).arrAt 12 cfg0.N
      = EMarrK (E := 800000) (V c main_v4) (V c main_v5) (V c main_v8) (V c main_v9) (V c main_v10) (V c main_v11)
          (V c main_arg4) (V c main_arg5) (V c main_arg6) := by
  exact (dat0 (F := Ideal) V c).arrAt_eq_of_cover 12 _ (fun t _ => flushed12_eq V c hbody t) cover12

/-- One element of the coordinate-message block at point t: the coordinate-message function at row 3200·t + r. -/
private theorem pt13 (c : Dev nD)
    (hbody : ∀ (x0 x1 : Vec Ideal S3200x128 .f32) (x2 : Vec Ideal S3200x3 .f32) (x3 x4 : Vec Ideal S128x128 .f32)
      (x5 : Vec Ideal S1x128 .f32) (x6 : Vec Ideal S128 .f32) (x7 : Vec Ideal S128x128 .f32) (x8 : Vec Ideal S128 .f32)
      (x9 : Vec Ideal S128x128 .f32) (x10 : Vec Ideal S128 .f32) (x11 : Vec Ideal S128x1 .f32) (r : Fin 3200) (d : Fin 3),
      out0_13 (F := Ideal) x0 x1 x2 x3 x4 x5 x6 x7 x8 x9 x10 x11 (ix2 r d)
        = x2 (ix2 r d) * coordW (msgOf (lin1K (row x0 r) (row x1 r) (row x2 r) (mat x3) (mat x4) (row x5 0) (vec x6)) (mat x7) (vec x8))
            (mat x9) (vec x10) (fun k => x11 (ix2 k 0)))
    (t : Fin cfg0.N) (r : Fin 3200) (d : Fin 3) (e : Fin 800000) (he : e.val = 3200 * t.val + r.val) :
    out0_13 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (ix2 r d)
      = (CMarrK (E := 800000) (V c main_v4) (V c main_v5) (V c main_v8) (V c main_v9) (V c main_v10) (V c main_v11)
          (V c main_arg4) (V c main_arg5) (V c main_arg6) (V c main_arg11) (V c main_arg12) (V c main_arg13)) (ix2 e d) := by
  have e0 : row (iblk0 (F := Ideal) V c 0 t : Vec Ideal S3200x128 .f32) r = row (V c main_v4) e :=
    funext fun k => blk0_apply V c t r k e he
  have e1 : row (iblk0 (F := Ideal) V c 1 t : Vec Ideal S3200x128 .f32) r = row (V c main_v5) e :=
    funext fun k => blk1_apply V c t r k e he
  have e2 : row (iblk0 (F := Ideal) V c 2 t : Vec Ideal S3200x3 .f32) r = row (V c main_v8) e :=
    funext fun k => blk2_apply V c t r k e he
  rw [hbody, e0, e1, e2, blk2_apply V c t r d e he, blk3_eq, blk4_eq, blk5_eq, blk6_eq, blk7_eq, blk8_eq, blk9_eq, blk10_eq, blk11_eq]
  rfl

/-- What point t writes back to the coordinate-message array is block t of the whole-array coordinate-message function. -/
private theorem flushed13_eq (c : Dev nD)
    (hbody : ∀ (x0 x1 : Vec Ideal S3200x128 .f32) (x2 : Vec Ideal S3200x3 .f32) (x3 x4 : Vec Ideal S128x128 .f32)
      (x5 : Vec Ideal S1x128 .f32) (x6 : Vec Ideal S128 .f32) (x7 : Vec Ideal S128x128 .f32) (x8 : Vec Ideal S128 .f32)
      (x9 : Vec Ideal S128x128 .f32) (x10 : Vec Ideal S128 .f32) (x11 : Vec Ideal S128x1 .f32) (r : Fin 3200) (d : Fin 3),
      out0_13 (F := Ideal) x0 x1 x2 x3 x4 x5 x6 x7 x8 x9 x10 x11 (ix2 r d)
        = x2 (ix2 r d) * coordW (msgOf (lin1K (row x0 r) (row x1 r) (row x2 r) (mat x3) (mat x4) (row x5 0) (vec x6)) (mat x7) (vec x8))
            (mat x9) (vec x10) (fun k => x11 (ix2 k 0)))
    (t : Fin cfg0.N) :
    (dat0 (F := Ideal) V c).flushed 13 t = ((cfg0.win 13).blk t).view.read (Elt Ideal)
      (CMarrK (E := 800000) (V c main_v4) (V c main_v5) (V c main_v8) (V c main_v9) (V c main_v10) (V c main_v11)
          (V c main_arg4) (V c main_arg5) (V c main_arg6) (V c main_arg11) (V c main_arg12) (V c main_arg13)) := by
  show (cfg0.win 13).cut (grid0.coords t) ((dat0 (F := Ideal) V c).after 13 t) = _
  rw [after0_13]
  have hi := (idx_facts t).2.2.2.2.2.2.2.2.2.2.2.2.2
  funext y
  have hy0 : (y 0).val < 3200 := (y 0).isLt
  have hy1 : (y 1).val < 3 := (y 1).isLt
  have ht : t.val < 250 := t.isLt
  have hL : (cfg0.win 13).xinj (grid0.coords t) y = (ix2 (⟨(y 0).val, hy0⟩ : Fin 3200) (⟨(y 1).val, hy1⟩ : Fin 3) : S3200x3.Idx) := by
    funext a
    match a with
    | ⟨0, _⟩ => rfl
    | ⟨1, _⟩ => rfl
  have hR : ((cfg0.win 13).blk t).view.emb y
      = (ix2 (⟨3200 * t.val + (y 0).val, by omega⟩ : Fin 800000) (⟨(y 1).val, hy1⟩ : Fin 3) : (⟨2, ![800000, 3]⟩ : Shape).Idx) := by
    funext a
    apply Fin.ext
    match a with
    | ⟨0, _⟩ => show win0_13.index t 0 * 3200 + 1 * (y 0).val = 3200 * t.val + (y 0).val; rw [hi.1]; omega
    | ⟨1, _⟩ => show win0_13.index t 1 * 3 + 1 * (y 1).val = (y 1).val; rw [hi.2]; omega
  rw [View.read_apply]
  show out0_13 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) ((cfg0.win 13).xinj (grid0.coords t) y)
      = (CMarrK (E := 800000) (V c main_v4) (V c main_v5) (V c main_v8) (V c main_v9) (V c main_v10) (V c main_v11)
          (V c main_arg4) (V c main_arg5) (V c main_arg6) (V c main_arg11) (V c main_arg12) (V c main_arg13)) (((cfg0.win 13).blk t).view.emb y)
  rw [hL, hR]
  exact pt13 V c hbody t _ _ _ rfl

/-- Every index of window 13's array is in the block of the point its row falls in: row e is written by point e / 3200. -/
private theorem cover13 (i : (⟨2, ![800000, 3]⟩ : Shape).Idx) :
    ∃ t : Fin cfg0.N, (cfg0.win 13).flush t = true ∧ i ∈ ((cfg0.win 13).blk t).view.set := by
  have hi0 : (i 0).val < 800000 := (i 0).isLt
  have hi1 : (i 1).val < 3 := (i 1).isLt
  have hN : (i 0).val / 3200 < cfg0.N := by show (i 0).val / 3200 < 250; omega
  refine ⟨⟨(i 0).val / 3200, hN⟩, flush0_13 _, ?_⟩
  have hi := (idx_facts ⟨(i 0).val / 3200, hN⟩).2.2.2.2.2.2.2.2.2.2.2.2.2
  show i ∈ ((View.whole main_v12_1).slice (win0_13.rect ⟨(i 0).val / 3200, hN⟩)).set
  rw [View.set_slice_whole, Rect.mem_set_unit]
  intro a
  match a with
  | ⟨0, _⟩ =>
    show win0_13.index ⟨(i 0).val / 3200, hN⟩ 0 * 3200 ≤ (i 0).val
      ∧ (i 0).val < win0_13.index ⟨(i 0).val / 3200, hN⟩ 0 * 3200 + 3200
    rw [hi.1]
    show (i 0).val / 3200 * 3200 ≤ (i 0).val ∧ (i 0).val < (i 0).val / 3200 * 3200 + 3200
    omega
  | ⟨1, _⟩ =>
    show win0_13.index ⟨(i 0).val / 3200, hN⟩ 1 * 3 ≤ (i 1).val
      ∧ (i 1).val < win0_13.index ⟨(i 0).val / 3200, hN⟩ 1 * 3 + 3
    rw [hi.2]
    omega

/-- The coordinate-message array after the edge region. -/
theorem arr13_eq (c : Dev nD)
    (hbody : ∀ (x0 x1 : Vec Ideal S3200x128 .f32) (x2 : Vec Ideal S3200x3 .f32) (x3 x4 : Vec Ideal S128x128 .f32)
      (x5 : Vec Ideal S1x128 .f32) (x6 : Vec Ideal S128 .f32) (x7 : Vec Ideal S128x128 .f32) (x8 : Vec Ideal S128 .f32)
      (x9 : Vec Ideal S128x128 .f32) (x10 : Vec Ideal S128 .f32) (x11 : Vec Ideal S128x1 .f32) (r : Fin 3200) (d : Fin 3),
      out0_13 (F := Ideal) x0 x1 x2 x3 x4 x5 x6 x7 x8 x9 x10 x11 (ix2 r d)
        = x2 (ix2 r d) * coordW (msgOf (lin1K (row x0 r) (row x1 r) (row x2 r) (mat x3) (mat x4) (row x5 0) (vec x6)) (mat x7) (vec x8))
            (mat x9) (vec x10) (fun k => x11 (ix2 k 0))) :
    (dat0 (F := Ideal) V c).arrAt 13 cfg0.N
      = CMarrK (E := 800000) (V c main_v4) (V c main_v5) (V c main_v8) (V c main_v9) (V c main_v10) (V c main_v11)
          (V c main_arg4) (V c main_arg5) (V c main_arg6) (V c main_arg11) (V c main_arg12) (V c main_arg13) := by
  exact (dat0 (F := Ideal) V c).arrAt_eq_of_cover 13 _ (fun t _ => flushed13_eq V c hbody t) cover13

end Cert.KernelIdeal.EdgeArr

end
-- ==== Proof.NodeArr.lean ====
/-
  The node region's output array after the run, as a whole-array function of the arrays the region was entered with:
  grid point t writes rows 5000·t … 5000·t + 4999, the 10 blocks tile the 50000 rows.
-/
import proofs.«404792_j40621800686307_1_alg».proof.Proof.Gen.KernelIdeal.Frame
import proofs.«404792_j40621800686307_1_alg».proof.Proof.Spec
import Idealize.ShloMosaic.Lib.Pipeline.Value
set_option maxRecDepth 16384

noncomputable section

open Idealize.ShloMosaic Idealize.ShloMosaic.TcCoe Idealize.SL.Sem Idealize.ShloMosaic.ValueIdx
open Idealize.ShloMosaic.Pipeline (Dat)

namespace Cert.KernelIdeal.NodeArr

open Cert.KernelIdeal Cert.KernelIdeal.Gen Cert.Egnn

variable (V : (c : Dev nD) → (b : Ref sig .tc) → Buf (Elt Ideal) ((c : Thread nD τ).loc b))

/-- The block index of each window at each of the 10 grid points: the two row-blocked inputs and the output sit at block
    (t, 0), the weights and biases at block 0 throughout. -/
private theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0
    ∧ (win1_7.index t (0 : Fin 2) = t.val ∧ win1_7.index t (1 : Fin 2) = 0) :=
  (by decide +kernel : ∀ t : Fin grid1.N, _)

/-- Window 0 (the node features) is cut into blocks of 5000 rows: entry (r, k) of its block at point t is entry (5000·t + r, k)
    of the array. -/
private theorem blk0_row (c : Dev nD) (t : Fin cfg1.N) (r : Fin 5000) (k : Fin 128) (n : Fin 50000) (hn : n.val = t.val * 5000 + r.val) :
    (iblk1 (F := Ideal) V c 0 t : Vec Ideal S5000x128 .f32) (ix2 r k) = (V c main_arg0 : S50000x128.Idx → EReal) (ix2 n k) := by
  have h := idx_facts t
  unfold iblk1
  rw [View.read_apply]
  show V c main_arg0 _ = V c main_arg0 _
  congr 1
  funext a
  apply Fin.ext
  match a with
  | ⟨0, _⟩ => show win1_0.index t 0 * 5000 + 1 * r.val = n.val; omega
  | ⟨1, _⟩ => show win1_0.index t 1 * 128 + 1 * k.val = k.val; omega

/-- Window 1 (the summed messages) is cut into blocks of 5000 rows: entry (r, k) of its block at point t is entry (5000·t + r, k)
    of the array. -/
private theorem blk1_row (c : Dev nD) (t : Fin cfg1.N) (r : Fin 5000) (k : Fin 128) (n : Fin 50000) (hn : n.val = t.val * 5000 + r.val) :
    (iblk1 (F := Ideal) V c 1 t : Vec Ideal S5000x128 .f32) (ix2 r k) = (V c main_v15 : S50000x128.Idx → EReal) (ix2 n k) := by
  have h := idx_facts t
  unfold iblk1
  rw [View.read_apply]
  show V c main_v15 _ = V c main_v15 _
  congr 1
  funext a
  apply Fin.ext
  match a with
  | ⟨0, _⟩ => show win1_1.index t 0 * 5000 + 1 * r.val = n.val; omega
  | ⟨1, _⟩ => show win1_1.index t 1 * 128 + 1 * k.val = k.val; omega

/-- Window 2 (the first layer's rows against the features) has one block, the whole 128 × 128 array, at every point. -/
private theorem blk2_whole (c : Dev nD) (t : Fin cfg1.N) (k j : Fin 128) :
    (iblk1 (F := Ideal) V c 2 t : Vec Ideal S128x128 .f32) (ix2 k j) = (V c main_v19 : S128x128.Idx → EReal) (ix2 k j) := by
  have h := idx_facts t
  unfold iblk1
  rw [View.read_apply]
  show V c main_v19 _ = V c main_v19 _
  congr 1
  funext a
  apply Fin.ext
  match a with
  | ⟨0, _⟩ => show win1_2.index t 0 * 128 + 1 * k.val = k.val; omega
  | ⟨1, _⟩ => show win1_2.index t 1 * 128 + 1 * j.val = j.val; omega

/-- Window 3 (the first layer's rows against the messages) has one block, the whole 128 × 128 array, at every point. -/
private theorem blk3_whole (c : Dev nD) (t : Fin cfg1.N) (k j : Fin 128) :
    (iblk1 (F := Ideal) V c 3 t : Vec Ideal S128x128 .f32) (ix2 k j) = (V c main_v20 : S128x128.Idx → EReal) (ix2 k j) := by
  have h := idx_facts t
  unfold iblk1
  rw [View.read_apply]
  show V c main_v20 _ = V c main_v20 _
  congr 1
  funext a
  apply Fin.ext
  match a with
  | ⟨0, _⟩ => show win1_3.index t 0 * 128 + 1 * k.val = k.val; omega
  | ⟨1, _⟩ => show win1_3.index t 1 * 128 + 1 * j.val = j.val; omega

/-- Window 4 (the first layer's bias) has one block, the whole array of 128 entries, at every point. -/
private theorem blk4_whole (c : Dev nD) (t : Fin cfg1.N) (j : Fin 128) :
    (iblk1 (F := Ideal) V c 4 t : Vec Ideal S128 .f32) (ix1 j) = (V c main_arg8 : S128.Idx → EReal) (ix1 j) := by
  have h := idx_facts t
  unfold iblk1
  rw [View.read_apply]
  show V c main_arg8 _ = V c main_arg8 _
  congr 1
  funext a
  apply Fin.ext
  match a with
  | ⟨0, _⟩ => show win1_4.index t 0 * 128 + 1 * j.val = j.val; omega

/-- Window 5 (the second layer's matrix) has one block, the whole 128 × 128 array, at every point. -/
private theorem blk5_whole (c : Dev nD) (t : Fin cfg1.N) (k j : Fin 128) :
    (iblk1 (F := Ideal) V c 5 t : Vec Ideal S128x128 .f32) (ix2 k j) = (V c main_arg9 : S128x128.Idx → EReal) (ix2 k j) := by
  have h := idx_facts t
  unfold iblk1
  rw [View.read_apply]
  show V c main_arg9 _ = V c main_arg9 _
  congr 1
  funext a
  apply Fin.ext
  match a with
  | ⟨0, _⟩ => show win1_5.index t 0 * 128 + 1 * k.val = k.val; omega
  | ⟨1, _⟩ => show win1_5.index t 1 * 128 + 1 * j.val = j.val; omega

/-- Window 6 (the second layer's bias) has one block, the whole array of 128 entries, at every point. -/
private theorem blk6_whole (c : Dev nD) (t : Fin cfg1.N) (j : Fin 128) :
    (iblk1 (F := Ideal) V c 6 t : Vec Ideal S128 .f32) (ix1 j) = (V c main_arg10 : S128.Idx → EReal) (ix1 j) := by
  have h := idx_facts t
  unfold iblk1
  rw [View.read_apply]
  show V c main_arg10 _ = V c main_arg10 _
  congr 1
  funext a
  apply Fin.ext
  match a with
  | ⟨0, _⟩ => show win1_6.index t 0 * 128 + 1 * j.val = j.val; omega

/-- A node's row function only reads row r of the two row-blocked inputs and all of the weights and biases: if those agree
    with row n of two 50000-row arrays and with seven whole arrays, the row function's value is entry (n, j) of the
    whole-array function. -/
private theorem nodeRow_eq (x0 x1 : Vec Ideal S5000x128 .f32) (x2 x3 : Vec Ideal S128x128 .f32) (x4 : Vec Ideal S128 .f32)
    (x5 : Vec Ideal S128x128 .f32) (x6 : Vec Ideal S128 .f32)
    (H MSG : S50000x128.Idx → EReal) (A B : S128x128.Idx → EReal) (b1 : S128.Idx → EReal) (W2 : S128x128.Idx → EReal) (b2 : S128.Idx → EReal)
    (r : Fin 5000) (n : Fin 50000) (j : Fin 128)
    (e0 : ∀ k, x0 (ix2 r k) = H (ix2 n k)) (e1 : ∀ k, x1 (ix2 r k) = MSG (ix2 n k))
    (e2 : ∀ k j, x2 (ix2 k j) = A (ix2 k j)) (e3 : ∀ k j, x3 (ix2 k j) = B (ix2 k j)) (e4 : ∀ j, x4 (ix1 j) = b1 (ix1 j))
    (e5 : ∀ k j, x5 (ix2 k j) = W2 (ix2 k j)) (e6 : ∀ j, x6 (ix1 j) = b2 (ix1 j)) :
    nodeOf (row x0 r) (nlin1K (row x0 r) (row x1 r) (mat x2) (mat x3) (vec x4)) (mat x5) (vec x6) j
      = HarrK (N := 50000) H MSG A B b1 W2 b2 (ix2 n j) := by
  have r0 : row x0 r = row H n := funext e0
  have r1 : row x1 r = row MSG n := funext e1
  have m2 : mat x2 = mat A := funext fun k => funext fun j => e2 k j
  have m3 : mat x3 = mat B := funext fun k => funext fun j => e3 k j
  have v4 : vec x4 = vec b1 := funext e4
  have m5 : mat x5 = mat W2 := funext fun k => funext fun j => e5 k j
  have v6 : vec x6 = vec b2 := funext e6
  rw [r0, r1, m2, m3, v4, m5, v6]
  rfl

/-- What grid point t writes back is rows 5000·t … 5000·t + 4999 of the whole-array function: entry (r, j) of the body's
    result is the row function of row r of the input blocks, which is row 5000·t + r of the arrays. -/
private theorem flushed7_eq (c : Dev nD)
    (hbody : ∀ (x0 x1 : Vec Ideal S5000x128 .f32) (x2 x3 : Vec Ideal S128x128 .f32) (x4 : Vec Ideal S128 .f32)
      (x5 : Vec Ideal S128x128 .f32) (x6 : Vec Ideal S128 .f32) (r : Fin 5000) (j : Fin 128),
      out1_7 (F := Ideal) x0 x1 x2 x3 x4 x5 x6 (ix2 r j)
        = nodeOf (row x0 r) (nlin1K (row x0 r) (row x1 r) (mat x2) (mat x3) (vec x4)) (mat x5) (vec x6) j) (t : Fin cfg1.N) :
    (dat1 (F := Ideal) V c).flushed 7 t
      = ((cfg1.win 7).blk t).view.read (Elt Ideal) (HarrK (N := 50000) (V c main_arg0) (V c main_v15) (V c main_v19) (V c main_v20) (V c main_arg8) (V c main_arg9) (V c main_arg10)) := by
  show (cfg1.win 7).cut (grid1.coords t) ((dat1 V c).after 7 t) = _
  rw [after1_7]
  funext j
  rw [View.read_apply]
  have h := idx_facts t
  have hj0 : (j 0).val < 5000 := (j 0).isLt
  have hj1 : (j 1).val < 128 := (j 1).isLt
  have ht : t.val < 10 := lt_of_lt_of_eq t.isLt N_1
  -- the index inside the block, by its two coordinates
  have eL : (cfg1.win 7).xinj (grid1.coords t) j = ix2 (⟨(j 0).val, hj0⟩ : Fin 5000) (⟨(j 1).val, hj1⟩ : Fin 128) := by
    funext a; match a with | ⟨0, _⟩ => rfl | ⟨1, _⟩ => rfl
  -- and where the block puts it in the array: row 5000·t + r, the same column
  have eR : ((cfg1.win 7).blk t).view.emb j = ix2 (⟨t.val * 5000 + (j 0).val, by omega⟩ : Fin 50000) (⟨(j 1).val, hj1⟩ : Fin 128) := by
    funext a; apply Fin.ext
    match a with
    | ⟨0, _⟩ => show win1_7.index t 0 * 5000 + 1 * (j 0).val = t.val * 5000 + (j 0).val; omega
    | ⟨1, _⟩ => show win1_7.index t 1 * 128 + 1 * (j 1).val = (j 1).val; omega
  refine (congrArg (out1_7 (F := Ideal) (iblk1 V c 0 t) (iblk1 V c 1 t) (iblk1 V c 2 t) (iblk1 V c 3 t) (iblk1 V c 4 t) (iblk1 V c 5 t) (iblk1 V c 6 t)) eL).trans ?_
  rw [hbody]
  show _ = (HarrK (N := 50000) (V c main_arg0) (V c main_v15) (V c main_v19) (V c main_v20) (V c main_arg8) (V c main_arg9) (V c main_arg10)) (((cfg1.win 7).blk t).view.emb j)
  rw [eR]
  exact nodeRow_eq _ _ _ _ _ _ _ _ _ _ _ _ _ _ _ _ _
    (fun k => blk0_row V c t _ k _ rfl) (fun k => blk1_row V c t _ k _ rfl)
    (blk2_whole V c t) (blk3_whole V c t) (blk4_whole V c t) (blk5_whole V c t) (blk6_whole V c t)

/-- An index of the output array is in point t's block iff each coordinate is in the block's range on its axis. -/
private theorem mem_blk7 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v21).slice (win1_7.rect t)).set ↔ _
  rw [View.set_slice_whole, Rect.mem_set_unit]
  exact Iff.rfl

/-- The 10 blocks tile the 50000 rows: row n is in the block of point n / 5000. -/
private theorem cover7 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, htv⟩ : ∃ t : Fin cfg1.N, t.val = (i 0).val / 5000 := ⟨⟨(i 0).val / 5000, by omega⟩, rfl⟩
  refine ⟨t, flush1_7 t, ?_⟩
  rw [mem_blk7]
  have h := idx_facts t
  intro a
  match a with
  | ⟨0, _⟩ => show win1_7.index t 0 * 5000 ≤ (i 0).val ∧ (i 0).val < win1_7.index t 0 * 5000 + 5000; omega
  | ⟨1, _⟩ => show win1_7.index t 1 * 128 ≤ (i 1).val ∧ (i 1).val < win1_7.index t 1 * 128 + 128; omega

/-- The new-feature array after the node region: row n is node n's updated feature row. -/
theorem arr7_eq (c : Dev nD)
    (hbody : ∀ (x0 x1 : Vec Ideal S5000x128 .f32) (x2 x3 : Vec Ideal S128x128 .f32) (x4 : Vec Ideal S128 .f32)
      (x5 : Vec Ideal S128x128 .f32) (x6 : Vec Ideal S128 .f32) (r : Fin 5000) (j : Fin 128),
      out1_7 (F := Ideal) x0 x1 x2 x3 x4 x5 x6 (ix2 r j)
        = nodeOf (row x0 r) (nlin1K (row x0 r) (row x1 r) (mat x2) (mat x3) (vec x4)) (mat x5) (vec x6) j) :
    (dat1 (F := Ideal) V c).arrAt 7 cfg1.N
      = HarrK (N := 50000) (V c main_arg0) (V c main_v15) (V c main_v19) (V c main_v20) (V c main_arg8) (V c main_arg9) (V c main_arg10) := by
  exact (dat1 (F := Ideal) V c).arrAt_eq_of_cover 7 _ (fun t _ => flushed7_eq V c hbody t) cover7

end Cert.KernelIdeal.NodeArr

end
-- ==== Proof.HostVals0.lean ====
/-
  What the edge region finds in its twelve input arrays when it is entered: the host operations before it, read back to
  the launch memory. The gathered rows are jnp.take of the feature and position tables at the two rows of the edge list,
  the relative position their difference, the three weight groups row slices of the 257 × 128 matrix; the other six are
  arguments no operation writes.
-/
import proofs.«404792_j40621800686307_1_alg».proof.Proof.Gen.KernelIdeal.Frame
import proofs.«404792_j40621800686307_1_alg».proof.Proof.Spec
import proofs.«404792_j40621800686307_1_alg».proof.Proof.HostDefs
import Idealize.ShloMosaic.Lib.StableHlo.Run
set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostVals0

open Cert.KernelIdeal Cert.KernelIdeal.Facts₀ Cert.KernelIdeal.Facts Cert.KernelIdeal.Gen Cert.KernelIdeal.HostDefs Idealize.ShloMosaic.StableHlo

variable (m : (ℓ : Loc nD τ sig) → Buf (Elt Ideal) ℓ) (ρ : Dev nD → PrngReg)

/-! ## What a stretch of host operations leaves alone

Each stretch writes only its own results; every other buffer holds after it what it held before. -/

/-- The references the operations of stretch 0 write. -/
private abbrev written0 : List (Ref sig .tc) := [main_v0, main_v1, main_v2, main_v3]
private theorem writes0 : (hostOps0 : List (HloOp τ sig (Elt Ideal))).Forall fun op => op.writes ⊆ (written0.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 0 does not write holds after it what it held before. -/
private theorem keep0 (V : Valuation τ sig (Elt Ideal)) {r : Ref sig .tc} (h : r ∉ written0) :
    StableHlo.after hostOps0 V (Proc.devRef .tc r) = V (Proc.devRef .tc r) :=
  StableHlo.after_of_writes_sub _ V writes0 h

/-- The references the operations of stretch 1 write. -/
private abbrev written1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
private theorem writes1 : (hostOps0_1 : List (HloOp τ sig (Elt Ideal))).Forall fun op => op.writes ⊆ (written1.map (Proc.devRef (τ := τ) .tc)).toFinset := by
  simp only [hostOps0_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 1 does not write holds after it what it held before. -/
private theorem keep1 (V : Valuation τ sig (Elt Ideal)) {r : Ref sig .tc} (h : r ∉ written1) :
    StableHlo.after hostOps0_1 V (Proc.devRef .tc r) = V (Proc.devRef .tc r) :=
  StableHlo.after_of_writes_sub _ V writes1 h

/-- The references the operations of stretch 2 write. -/
private abbrev written2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
private theorem writes2 : (hostOps0_2 : List (HloOp τ sig (Elt Ideal))).Forall fun op => op.writes ⊆ (written2.map (Proc.devRef (τ := τ) .tc)).toFinset := by
  simp only [hostOps0_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 2 does not write holds after it what it held before. -/
private theorem keep2 (V : Valuation τ sig (Elt Ideal)) {r : Ref sig .tc} (h : r ∉ written2) :
    StableHlo.after hostOps0_2 V (Proc.devRef .tc r) = V (Proc.devRef .tc r) :=
  StableHlo.after_of_writes_sub _ V writes2 h

/-- The references the operations of stretch 3 write. -/
private abbrev written3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]
private theorem writes3 : (hostOps0_3 : List (HloOp τ sig (Elt Ideal))).Forall fun op => op.writes ⊆ (written3.map (Proc.devRef (τ := τ) .tc)).toFinset := by
  simp only [hostOps0_3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 3 does not write holds after it what it held before. -/
private theorem keep3 (V : Valuation τ sig (Elt Ideal)) {r : Ref sig .tc} (h : r ∉ written3) :
    StableHlo.after hostOps0_3 V (Proc.devRef .tc r) = V (Proc.devRef .tc r) :=
  StableHlo.after_of_writes_sub _ V writes3 h

/-- The references the operations of stretch 4 write. -/
private abbrev written4 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v7]
private theorem writes4 : (hostOps0_4 : List (HloOp τ sig (Elt Ideal))).Forall fun op => op.writes ⊆ (written4.map (Proc.devRef (τ := τ) .tc)).toFinset := by
  simp only [hostOps0_4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 4 does not write holds after it what it held before. -/
private theorem keep4 (V : Valuation τ sig (Elt Ideal)) {r : Ref sig .tc} (h : r ∉ written4) :
    StableHlo.after hostOps0_4 V (Proc.devRef .tc r) = V (Proc.devRef .tc r) :=
  StableHlo.after_of_writes_sub _ V writes4 h

/-- The references the operations of stretch 5 write. -/
private abbrev written5 : List (Ref sig .tc) := [main_v8, main_v9, main_v10, main_v11]
private theorem writes5 : (hostOps0_5 : List (HloOp τ sig (Elt Ideal))).Forall fun op => op.writes ⊆ (written5.map (Proc.devRef (τ := τ) .tc)).toFinset := by
  simp only [hostOps0_5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 5 does not write holds after it what it held before. -/
private theorem keep5 (V : Valuation τ sig (Elt Ideal)) {r : Ref sig .tc} (h : r ∉ written5) :
    StableHlo.after hostOps0_5 V (Proc.devRef .tc r) = V (Proc.devRef .tc r) :=
  StableHlo.after_of_writes_sub _ V writes5 h

/-! ## What the stretches that write compute

Each is read at ANY contents `V` before the stretch: the result buffer holds the stretch's operations composed, applied
to what `V` holds at the buffers the stretch reads from outside. -/

/-- Moving contents to a buffer's own type and back is the identity. -/
private theorem cast_cast_self {α β : Sort _} (h1 : β = α) (h2 : α = β) (v : α) : cast h1 (cast h2 v) = v := by
  subst h2; rfl

/-- Row 0 of the edge list, flattened. -/
private theorem read0_v1 (V : Valuation τ sig (Elt Ideal)) :
    StableHlo.after hostOps0 V (Proc.devRef .tc main_v1) = rowIdx (V (Proc.devRef .tc main_arg2)) := by
  after_results <;> rfl

/-- Row 1 of the edge list, flattened. -/
private theorem read0_v3 (V : Valuation τ sig (Elt Ideal)) :
    StableHlo.after hostOps0 V (Proc.devRef .tc main_v3) = colIdx (V (Proc.devRef .tc main_arg2)) := by
  after_results <;> rfl

/-- The first gather: the feature table taken at the source indices. The contents pass through the typed references of
    the called function unchanged (each is a literal buffer of exactly the carried type), which leaves the printed
    operations in order: wrap the negative indices, test the range, gather, and select against the fill value. -/
private theorem read1_v4 (V : Valuation τ sig (Elt Ideal)) :
    StableHlo.after hostOps0_1 V (Proc.devRef .tc main_v4)
      = takeH (F := Ideal) (V (Proc.devRef .tc main_arg0)) (V (Proc.devRef .tc main_v1)) := by
  after_results_simp
  simp only [TRef.ofBuf, TRef.toBuf, cast_cast_self]
  generalize_proofs h0 h1 h2 h3
  have e0 : ∀ x, cast h0 x = x := fun _ => rfl
  have e1 : cast h1 (V (Proc.devRef .tc main_v1)) = V (Proc.devRef .tc main_v1) := rfl
  have e2 : cast h2 (V (Proc.devRef .tc main_v1)) = V (Proc.devRef .tc main_v1) := rfl
  have e3 : cast h3 (V (Proc.devRef .tc main_arg0)) = V (Proc.devRef .tc main_arg0) := rfl
  simp only [e0, e1, e2, e3]
  unfold takeH normIdx inRange
  rfl

/-- The first weight group: rows 0 … 127 of the 257 × 128 matrix. -/
private theorem read5_v9 (V : Valuation τ sig (Elt Ideal)) :
    StableHlo.after hostOps0_5 V (Proc.devRef .tc main_v9)
      = extractStridedSlice S128x128 ![0, 0] (V (Proc.devRef .tc main_arg3)) Facts₀.slices_S257x128_S128x128_0_0 := by
  after_results <;> rfl

/-! ## The edge region's inputs, read back to the launch memory -/

theorem V6_v4 (c : Dev nD) : V6 m ρ c main_v4 = takeH (F := Ideal) (m ((c : Thread nD τ).loc main_arg0)) (rowIdx (m ((c : Thread nD τ).loc main_arg2))) :=
  calc W6 m ρ c (Proc.devRef .tc main_v4)
    _ = W5 m ρ c (Proc.devRef .tc main_v4) := keep5 _ (by decide)
    _ = W4 m ρ c (Proc.devRef .tc main_v4) := keep4 _ (by decide)
    _ = W3 m ρ c (Proc.devRef .tc main_v4) := keep3 _ (by decide)
    _ = W2 m ρ c (Proc.devRef .tc main_v4) := keep2 _ (by decide)
    _ = takeH (F := Ideal) (W1 m ρ c (Proc.devRef .tc main_arg0)) (W1 m ρ c (Proc.devRef .tc main_v1)) := read1_v4 _
    _ = takeH (F := Ideal) (W0 m ρ c (Proc.devRef .tc main_arg0)) (rowIdx (W0 m ρ c (Proc.devRef .tc main_arg2))) :=
        congrArg₂ (takeH (F := Ideal)) (keep0 _ (by decide)) (read0_v1 _)
    _ = takeH (F := Ideal) (m ((c : Thread nD τ).loc main_arg0)) (rowIdx (m ((c : Thread nD τ).loc main_arg2))) := rfl

theorem V6_v9 (c : Dev nD) : V6 m ρ c main_v9 = extractStridedSlice S128x128 ![0, 0] (m ((c : Thread nD τ).loc main_arg3)) Facts₀.slices_S257x128_S128x128_0_0 :=
  calc W6 m ρ c (Proc.devRef .tc main_v9)
    _ = extractStridedSlice S128x128 ![0, 0] (W5 m ρ c (Proc.devRef .tc main_arg3)) Facts₀.slices_S257x128_S128x128_0_0 := read5_v9 _
    _ = extractStridedSlice S128x128 ![0, 0] (W0 m ρ c (Proc.devRef .tc main_arg3)) Facts₀.slices_S257x128_S128x128_0_0 :=
        congrArg (fun x : FVec Ideal S257x128 .f32 => extractStridedSlice S128x128 ![0, 0] x Facts₀.slices_S257x128_S128x128_0_0)
          (calc W5 m ρ c (Proc.devRef .tc main_arg3)
            _ = W4 m ρ c (Proc.devRef .tc main_arg3) := keep4 _ (by decide)
            _ = W3 m ρ c (Proc.devRef .tc main_arg3) := keep3 _ (by decide)
            _ = W2 m ρ c (Proc.devRef .tc main_arg3) := keep2 _ (by decide)
            _ = W1 m ρ c (Proc.devRef .tc main_arg3) := keep1 _ (by decide)
            _ = W0 m ρ c (Proc.devRef .tc main_arg3) := keep0 _ (by decide))
    _ = extractStridedSlice S128x128 ![0, 0] (m ((c : Thread nD τ).loc main_arg3)) Facts₀.slices_S257x128_S128x128_0_0 := rfl

theorem V6_v3 (c : Dev nD) : V6 m ρ c main_v3 = colIdx (m ((c : Thread nD τ).loc main_arg2)) :=
  calc W6 m ρ c (Proc.devRef .tc main_v3)
    _ = W5 m ρ c (Proc.devRef .tc main_v3) := keep5 _ (by decide)
    _ = W4 m ρ c (Proc.devRef .tc main_v3) := keep4 _ (by decide)
    _ = W3 m ρ c (Proc.devRef .tc main_v3) := keep3 _ (by decide)
    _ = W2 m ρ c (Proc.devRef .tc main_v3) := keep2 _ (by decide)
    _ = W1 m ρ c (Proc.devRef .tc main_v3) := keep1 _ (by decide)
    _ = colIdx (W0 m ρ c (Proc.devRef .tc main_arg2)) := read0_v3 _
    _ = colIdx (m ((c : Thread nD τ).loc main_arg2)) := rfl

theorem V6_arg4 (c : Dev nD) : V6 m ρ c main_arg4 = m ((c : Thread nD τ).loc main_arg4) :=
  calc W6 m ρ c (Proc.devRef .tc main_arg4)
    _ = W5 m ρ c (Proc.devRef .tc main_arg4) := keep5 _ (by decide)
    _ = W4 m ρ c (Proc.devRef .tc main_arg4) := keep4 _ (by decide)
    _ = W3 m ρ c (Proc.devRef .tc main_arg4) := keep3 _ (by decide)
    _ = W2 m ρ c (Proc.devRef .tc main_arg4) := keep2 _ (by decide)
    _ = W1 m ρ c (Proc.devRef .tc main_arg4) := keep1 _ (by decide)
    _ = W0 m ρ c (Proc.devRef .tc main_arg4) := keep0 _ (by decide)
    _ = m ((c : Thread nD τ).loc main_arg4) := rfl

theorem V6_arg5 (c : Dev nD) : V6 m ρ c main_arg5 = m ((c : Thread nD τ).loc main_arg5) :=
  calc W6 m ρ c (Proc.devRef .tc main_arg5)
    _ = W5 m ρ c (Proc.devRef .tc main_arg5) := keep5 _ (by decide)
    _ = W4 m ρ c (Proc.devRef .tc main_arg5) := keep4 _ (by decide)
    _ = W3 m ρ c (Proc.devRef .tc main_arg5) := keep3 _ (by decide)
    _ = W2 m ρ c (Proc.devRef .tc main_arg5) := keep2 _ (by decide)
    _ = W1 m ρ c (Proc.devRef .tc main_arg5) := keep1 _ (by decide)
    _ = W0 m ρ c (Proc.devRef .tc main_arg5) := keep0 _ (by decide)
    _ = m ((c : Thread nD τ).loc main_arg5) := rfl

theorem V6_arg6 (c : Dev nD) : V6 m ρ c main_arg6 = m ((c : Thread nD τ).loc main_arg6) :=
  calc W6 m ρ c (Proc.devRef .tc main_arg6)
    _ = W5 m ρ c (Proc.devRef .tc main_arg6) := keep5 _ (by decide)
    _ = W4 m ρ c (Proc.devRef .tc main_arg6) := keep4 _ (by decide)
    _ = W3 m ρ c (Proc.devRef .tc main_arg6) := keep3 _ (by decide)
    _ = W2 m ρ c (Proc.devRef .tc main_arg6) := keep2 _ (by decide)
    _ = W1 m ρ c (Proc.devRef .tc main_arg6) := keep1 _ (by decide)
    _ = W0 m ρ c (Proc.devRef .tc main_arg6) := keep0 _ (by decide)
    _ = m ((c : Thread nD τ).loc main_arg6) := rfl

end Cert.KernelIdeal.HostVals0

end
-- ==== Proof.HostVals0b.lean ====
/-
  What the edge region finds in the rest of its input arrays when it is entered: the gathered target rows, the relative
  positions, two of the three weight groups and the three coordinate-layer arguments, each read back through the host
  operations before the region to the launch memory.
-/
import proofs.«404792_j40621800686307_1_alg».proof.Proof.Gen.KernelIdeal.Frame
import proofs.«404792_j40621800686307_1_alg».proof.Proof.Spec
import proofs.«404792_j40621800686307_1_alg».proof.Proof.HostDefs
import Idealize.ShloMosaic.Lib.StableHlo.Run
set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostVals0

open Cert.KernelIdeal Cert.KernelIdeal.Facts₀ Cert.KernelIdeal.Facts Cert.KernelIdeal.Gen Cert.KernelIdeal.HostDefs Idealize.ShloMosaic.StableHlo

variable (m : (ℓ : Loc nD τ sig) → Buf (Elt Ideal) ℓ) (ρ : Dev nD → PrngReg)

/-- The references the operations of stretch 0 write. -/
private abbrev written0 : List (Ref sig .tc) := [main_v0, main_v1, main_v2, main_v3]
private theorem writes0 : (hostOps0 : List (HloOp τ sig (Elt Ideal))).Forall fun op => op.writes ⊆ (written0.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 0 does not write holds after it what it held before. -/
private theorem keep0 (V : Valuation τ sig (Elt Ideal)) {r : Ref sig .tc} (h : r ∉ written0) :
    StableHlo.after hostOps0 V (Proc.devRef .tc r) = V (Proc.devRef .tc r) :=
  StableHlo.after_of_writes_sub _ V writes0 h

/-- The references the operations of stretch 1 write. -/
private abbrev written1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
private theorem writes1 : (hostOps0_1 : List (HloOp τ sig (Elt Ideal))).Forall fun op => op.writes ⊆ (written1.map (Proc.devRef (τ := τ) .tc)).toFinset := by
  simp only [hostOps0_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 1 does not write holds after it what it held before. -/
private theorem keep1 (V : Valuation τ sig (Elt Ideal)) {r : Ref sig .tc} (h : r ∉ written1) :
    StableHlo.after hostOps0_1 V (Proc.devRef .tc r) = V (Proc.devRef .tc r) :=
  StableHlo.after_of_writes_sub _ V writes1 h

/-- The references the operations of stretch 2 write. -/
private abbrev written2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
private theorem writes2 : (hostOps0_2 : List (HloOp τ sig (Elt Ideal))).Forall fun op => op.writes ⊆ (written2.map (Proc.devRef (τ := τ) .tc)).toFinset := by
  simp only [hostOps0_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 2 does not write holds after it what it held before. -/
private theorem keep2 (V : Valuation τ sig (Elt Ideal)) {r : Ref sig .tc} (h : r ∉ written2) :
    StableHlo.after hostOps0_2 V (Proc.devRef .tc r) = V (Proc.devRef .tc r) :=
  StableHlo.after_of_writes_sub _ V writes2 h

/-- The references the operations of stretch 3 write. -/
private abbrev written3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]
private theorem writes3 : (hostOps0_3 : List (HloOp τ sig (Elt Ideal))).Forall fun op => op.writes ⊆ (written3.map (Proc.devRef (τ := τ) .tc)).toFinset := by
  simp only [hostOps0_3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 3 does not write holds after it what it held before. -/
private theorem keep3 (V : Valuation τ sig (Elt Ideal)) {r : Ref sig .tc} (h : r ∉ written3) :
    StableHlo.after hostOps0_3 V (Proc.devRef .tc r) = V (Proc.devRef .tc r) :=
  StableHlo.after_of_writes_sub _ V writes3 h

/-- The references the operations of stretch 4 write. -/
private abbrev written4 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v7]
private theorem writes4 : (hostOps0_4 : List (HloOp τ sig (Elt Ideal))).Forall fun op => op.writes ⊆ (written4.map (Proc.devRef (τ := τ) .tc)).toFinset := by
  simp only [hostOps0_4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 4 does not write holds after it what it held before. -/
private theorem keep4 (V : Valuation τ sig (Elt Ideal)) {r : Ref sig .tc} (h : r ∉ written4) :
    StableHlo.after hostOps0_4 V (Proc.devRef .tc r) = V (Proc.devRef .tc r) :=
  StableHlo.after_of_writes_sub _ V writes4 h

/-- The references the operations of stretch 5 write. -/
private abbrev written5 : List (Ref sig .tc) := [main_v8, main_v9, main_v10, main_v11]
private theorem writes5 : (hostOps0_5 : List (HloOp τ sig (Elt Ideal))).Forall fun op => op.writes ⊆ (written5.map (Proc.devRef (τ := τ) .tc)).toFinset := by
  simp only [hostOps0_5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 5 does not write holds after it what it held before. -/
private theorem keep5 (V : Valuation τ sig (Elt Ideal)) {r : Ref sig .tc} (h : r ∉ written5) :
    StableHlo.after hostOps0_5 V (Proc.devRef .tc r) = V (Proc.devRef .tc r) :=
  StableHlo.after_of_writes_sub _ V writes5 h

/-- Contents carried to a typed reference and back are the contents. -/
private theorem ofBuf_toBuf {T : BufTy} (x : TRef sig T) (v : T.Contents (Elt Ideal)) : x.ofBuf (x.toBuf v) = v := by
  obtain ⟨r, h, h1, h2⟩ := x
  subst h
  rfl

/-- At a literal reference the carrying is the identity. -/
private theorem ofBuf_v1 (u : (Proc.devRef (τ := τ) .tc main_v1).ty.Contents (Elt Ideal)) :
    (TRef.of (T := ⟨S800000, .i32⟩) main_v1).ofBuf u = u := rfl
private theorem ofBuf_v3 (u : (Proc.devRef (τ := τ) .tc main_v3).ty.Contents (Elt Ideal)) :
    (TRef.of (T := ⟨S800000, .i32⟩) main_v3).ofBuf u = u := rfl
private theorem ofBuf_arg0 (u : (Proc.devRef (τ := τ) .tc main_arg0).ty.Contents (Elt Ideal)) :
    (TRef.of (T := ⟨S50000x128, .f32⟩) main_arg0).ofBuf u = u := rfl
private theorem ofBuf_arg1 (u : (Proc.devRef (τ := τ) .tc main_arg1).ty.Contents (Elt Ideal)) :
    (TRef.of (T := ⟨S50000x3, .f32⟩) main_arg1).ofBuf u = u := rfl
private theorem toBuf_v5 (v : (⟨S800000x128, .f32⟩ : BufTy).Contents (Elt Ideal)) :
    (TRef.of (T := ⟨S800000x128, .f32⟩) main_v5).toBuf v = v := rfl
private theorem toBuf_v6 (v : (⟨S800000x3, .f32⟩ : BufTy).Contents (Elt Ideal)) :
    (TRef.of (T := ⟨S800000x3, .f32⟩) main_v6).toBuf v = v := rfl
private theorem toBuf_v7 (v : (⟨S800000x3, .f32⟩ : BufTy).Contents (Elt Ideal)) :
    (TRef.of (T := ⟨S800000x3, .f32⟩) main_v7).toBuf v = v := rfl

/-! ## What one stretch leaves in a buffer it writes, from any contents before it -/

/-- The second row group of the 257 × 128 matrix. -/
private theorem slice10 (W : Valuation τ sig (Elt Ideal)) :
    (StableHlo.after hostOps0_5 W (Proc.devRef .tc main_v10) : S128x128.Idx → Ideal .f32)
      = extractStridedSlice S128x128 ![128, 0] (W (Proc.devRef .tc main_arg3) : S257x128.Idx → Ideal .f32) Facts₀.slices_S257x128_S128x128_128_0 := by
  after_results

/-- Its last row. -/
private theorem slice11 (W : Valuation τ sig (Elt Ideal)) :
    (StableHlo.after hostOps0_5 W (Proc.devRef .tc main_v11) : S1x128.Idx → Ideal .f32)
      = extractStridedSlice S1x128 ![256, 0] (W (Proc.devRef .tc main_arg3) : S257x128.Idx → Ideal .f32) Facts₀.slices_S257x128_S1x128_256_0 := by
  after_results

/-- The matrix itself is written by no stretch before the last. -/
private theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := keep4 _ (by decide)
    _ = W3 m ρ c (Proc.devRef .tc main_arg3) := keep3 _ (by decide)
    _ = W2 m ρ c (Proc.devRef .tc main_arg3) := keep2 _ (by decide)
    _ = W1 m ρ c (Proc.devRef .tc main_arg3) := keep1 _ (by decide)
    _ = W0 m ρ c (Proc.devRef .tc main_arg3) := keep0 _ (by decide)
    _ = m ((c : Thread nD τ).loc main_arg3) := rfl

/-- Row 0 of the edge list, as the first stretch leaves it. -/
private theorem row1 (W : Valuation τ sig (Elt Ideal)) :
    (StableHlo.after hostOps0 W (Proc.devRef .tc main_v1) : S800000.Idx → BitVec 32)
      = rowIdx (W (Proc.devRef .tc main_arg2) : S2x800000.Idx → BitVec 32) := by
  after_results
  all_goals rfl

/-- Row 1 of the edge list, as the first stretch leaves it. -/
private theorem col3 (W : Valuation τ sig (Elt Ideal)) :
    (StableHlo.after hostOps0 W (Proc.devRef .tc main_v3) : S800000.Idx → BitVec 32)
      = colIdx (W (Proc.devRef .tc main_arg2) : S2x800000.Idx → BitVec 32) := by
  after_results
  all_goals rfl

/-- The difference of the two gathered position tables. -/
private theorem sub8 (W : Valuation τ sig (Elt Ideal)) :
    (StableHlo.after hostOps0_5 W (Proc.devRef .tc main_v8) : S800000x3.Idx → Ideal .f32)
      = subf (F := Ideal) (s := S800000x3) (φ := .f32) (W (Proc.devRef .tc main_v6) : S800000x3.Idx → Ideal .f32) (W (Proc.devRef .tc main_v7) : S800000x3.Idx → Ideal .f32) := by
  after_results
  all_goals rfl

/-- The take of the feature table at the target nodes. -/
private theorem take5 (W : Valuation τ sig (Elt Ideal)) :
    (StableHlo.after hostOps0_2 W (Proc.devRef .tc main_v5) : S800000x128.Idx → Ideal .f32)
      = takeH (F := Ideal) (W (Proc.devRef .tc main_arg0) : S50000x128.Idx → Ideal .f32) (W (Proc.devRef .tc main_v3) : S800000.Idx → BitVec 32) := by
  after_results_simp
  simp only [ofBuf_toBuf, ofBuf_v3, ofBuf_arg0, toBuf_v5]
  unfold takeH normIdx inRange
  rfl

/-- The take of the position table at the source nodes. -/
private theorem take6 (W : Valuation τ sig (Elt Ideal)) :
    (StableHlo.after hostOps0_3 W (Proc.devRef .tc main_v6) : S800000x3.Idx → Ideal .f32)
      = takeX (F := Ideal) (W (Proc.devRef .tc main_arg1) : S50000x3.Idx → Ideal .f32) (W (Proc.devRef .tc main_v1) : S800000.Idx → BitVec 32) := by
  after_results_simp
  simp only [ofBuf_toBuf, ofBuf_v1, ofBuf_arg1, toBuf_v6]
  unfold takeX normIdx inRange
  rfl

/-- The take of the position table at the target nodes. -/
private theorem take7 (W : Valuation τ sig (Elt Ideal)) :
    (StableHlo.after hostOps0_4 W (Proc.devRef .tc main_v7) : S800000x3.Idx → Ideal .f32)
      = takeX (F := Ideal) (W (Proc.devRef .tc main_arg1) : S50000x3.Idx → Ideal .f32) (W (Proc.devRef .tc main_v3) : S800000.Idx → BitVec 32) := by
  after_results_simp
  simp only [ofBuf_toBuf, ofBuf_v3, ofBuf_arg1, toBuf_v7]
  unfold takeX normIdx inRange
  rfl

/-! ## The launch arguments and the two index rows, below the stretches that read them -/

private theorem W0_arg2 (c : Dev nD) : W0 m ρ c (Proc.devRef .tc main_arg2) = m ((c : Thread nD τ).loc main_arg2) := rfl

/-- The source-node row after the first stretch, and after every later one up to the third take. -/
private theorem W1_v1 (c : Dev nD) : W1 m ρ c (Proc.devRef .tc main_v1) = rowIdx (m ((c : Thread nD τ).loc main_arg2)) :=
  row1 (W0 m ρ c)
private theorem W3_v1 (c : Dev nD) : W3 m ρ c (Proc.devRef .tc main_v1) = rowIdx (m ((c : Thread nD τ).loc main_arg2)) :=
  calc W3 m ρ c (Proc.devRef .tc main_v1)
    _ = W2 m ρ c (Proc.devRef .tc main_v1) := keep2 _ (by decide)
    _ = W1 m ρ c (Proc.devRef .tc main_v1) := keep1 _ (by decide)
    _ = rowIdx (m ((c : Thread nD τ).loc main_arg2)) := W1_v1 m ρ c

/-- The target-node row after the first stretch, and after the later ones. -/
private theorem W1_v3 (c : Dev nD) : W1 m ρ c (Proc.devRef .tc main_v3) = colIdx (m ((c : Thread nD τ).loc main_arg2)) :=
  col3 (W0 m ρ c)
private theorem W2_v3 (c : Dev nD) : W2 m ρ c (Proc.devRef .tc main_v3) = colIdx (m ((c : Thread nD τ).loc main_arg2)) :=
  (keep1 _ (by decide)).trans (W1_v3 m ρ c)
private theorem W4_v3 (c : Dev nD) : W4 m ρ c (Proc.devRef .tc main_v3) = colIdx (m ((c : Thread nD τ).loc main_arg2)) :=
  calc W4 m ρ c (Proc.devRef .tc main_v3)
    _ = W3 m ρ c (Proc.devRef .tc main_v3) := keep3 _ (by decide)
    _ = W2 m ρ c (Proc.devRef .tc main_v3) := keep2 _ (by decide)
    _ = colIdx (m ((c : Thread nD τ).loc main_arg2)) := W2_v3 m ρ c

private theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := keep1 _ (by decide)
    _ = W0 m ρ c (Proc.devRef .tc main_arg0) := keep0 _ (by decide)
    _ = m ((c : Thread nD τ).loc main_arg0) := rfl

private theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := keep2 _ (by decide)
    _ = W1 m ρ c (Proc.devRef .tc main_arg1) := keep1 _ (by decide)
    _ = W0 m ρ c (Proc.devRef .tc main_arg1) := keep0 _ (by decide)
    _ = m ((c : Thread nD τ).loc main_arg1) := rfl
private theorem W4_arg1 (c : Dev nD) : W4 m ρ c (Proc.devRef .tc main_arg1) = m ((c : Thread nD τ).loc main_arg1) :=
  (keep3 _ (by decide)).trans (W3_arg1 m ρ c)

/-- The gathered target rows, below the stretches after their take. -/
private theorem W3_v5 (c : Dev nD) : W3 m ρ c (Proc.devRef .tc main_v5)
    = takeH (F := Ideal) (m ((c : Thread nD τ).loc main_arg0)) (colIdx (m ((c : Thread nD τ).loc main_arg2))) := by
  refine (take5 (W2 m ρ c)).trans ?_
  rw [W2_arg0 m ρ c, W2_v3 m ρ c]

/-- The two gathered position tables, below the last stretch. -/
private theorem W5_v6 (c : Dev nD) : W5 m ρ c (Proc.devRef .tc main_v6)
    = takeX (F := Ideal) (m ((c : Thread nD τ).loc main_arg1)) (rowIdx (m ((c : Thread nD τ).loc main_arg2))) := by
  refine (keep4 _ (by decide)).trans ?_
  refine (take6 (W3 m ρ c)).trans ?_
  rw [W3_arg1 m ρ c, W3_v1 m ρ c]
private theorem W5_v7 (c : Dev nD) : W5 m ρ c (Proc.devRef .tc main_v7)
    = takeX (F := Ideal) (m ((c : Thread nD τ).loc main_arg1)) (colIdx (m ((c : Thread nD τ).loc main_arg2))) := by
  refine (take7 (W4 m ρ c)).trans ?_
  rw [W4_arg1 m ρ c, W4_v3 m ρ c]

theorem V6_v5 (c : Dev nD) : V6 m ρ c main_v5 = takeH (F := Ideal) (m ((c : Thread nD τ).loc main_arg0)) (colIdx (m ((c : Thread nD τ).loc main_arg2))) :=
  calc W6 m ρ c (Proc.devRef .tc main_v5)
    _ = W5 m ρ c (Proc.devRef .tc main_v5) := keep5 _ (by decide)
    _ = W4 m ρ c (Proc.devRef .tc main_v5) := keep4 _ (by decide)
    _ = W3 m ρ c (Proc.devRef .tc main_v5) := keep3 _ (by decide)
    _ = takeH (F := Ideal) (m ((c : Thread nD τ).loc main_arg0)) (colIdx (m ((c : Thread nD τ).loc main_arg2))) := W3_v5 m ρ c
theorem V6_v8 (c : Dev nD) : V6 m ρ c main_v8 = subf (F := Ideal) (takeX (F := Ideal) (m ((c : Thread nD τ).loc main_arg1)) (rowIdx (m ((c : Thread nD τ).loc main_arg2)))) (takeX (F := Ideal) (m ((c : Thread nD τ).loc main_arg1)) (colIdx (m ((c : Thread nD τ).loc main_arg2)))) := by
  refine (sub8 (W5 m ρ c)).trans ?_
  rw [W5_v6 m ρ c, W5_v7 m ρ c]

theorem V6_v10 (c : Dev nD) : V6 m ρ c main_v10 = extractStridedSlice S128x128 ![128, 0] (m ((c : Thread nD τ).loc main_arg3)) Facts₀.slices_S257x128_S128x128_128_0 := by
  refine (slice10 (W5 m ρ c)).trans ?_
  rw [W5_arg3 m ρ c]
theorem V6_v11 (c : Dev nD) : V6 m ρ c main_v11 = extractStridedSlice S1x128 ![256, 0] (m ((c : Thread nD τ).loc main_arg3)) Facts₀.slices_S257x128_S1x128_256_0 := by
  refine (slice11 (W5 m ρ c)).trans ?_
  rw [W5_arg3 m ρ c]
theorem V6_arg11 (c : Dev nD) : V6 m ρ c main_arg11 = m ((c : Thread nD τ).loc main_arg11) :=
  calc W6 m ρ c (Proc.devRef .tc main_arg11)
    _ = W5 m ρ c (Proc.devRef .tc main_arg11) := keep5 _ (by decide)
    _ = W4 m ρ c (Proc.devRef .tc main_arg11) := keep4 _ (by decide)
    _ = W3 m ρ c (Proc.devRef .tc main_arg11) := keep3 _ (by decide)
    _ = W2 m ρ c (Proc.devRef .tc main_arg11) := keep2 _ (by decide)
    _ = W1 m ρ c (Proc.devRef .tc main_arg11) := keep1 _ (by decide)
    _ = W0 m ρ c (Proc.devRef .tc main_arg11) := keep0 _ (by decide)
    _ = m ((c : Thread nD τ).loc main_arg11) := rfl
theorem V6_arg12 (c : Dev nD) : V6 m ρ c main_arg12 = m ((c : Thread nD τ).loc main_arg12) :=
  calc W6 m ρ c (Proc.devRef .tc main_arg12)
    _ = W5 m ρ c (Proc.devRef .tc main_arg12) := keep5 _ (by decide)
    _ = W4 m ρ c (Proc.devRef .tc main_arg12) := keep4 _ (by decide)
    _ = W3 m ρ c (Proc.devRef .tc main_arg12) := keep3 _ (by decide)
    _ = W2 m ρ c (Proc.devRef .tc main_arg12) := keep2 _ (by decide)
    _ = W1 m ρ c (Proc.devRef .tc main_arg12) := keep1 _ (by decide)
    _ = W0 m ρ c (Proc.devRef .tc main_arg12) := keep0 _ (by decide)
    _ = m ((c : Thread nD τ).loc main_arg12) := rfl
theorem V6_arg13 (c : Dev nD) : V6 m ρ c main_arg13 = m ((c : Thread nD τ).loc main_arg13) :=
  calc W6 m ρ c (Proc.devRef .tc main_arg13)
    _ = W5 m ρ c (Proc.devRef .tc main_arg13) := keep5 _ (by decide)
    _ = W4 m ρ c (Proc.devRef .tc main_arg13) := keep4 _ (by decide)
    _ = W3 m ρ c (Proc.devRef .tc main_arg13) := keep3 _ (by decide)
    _ = W2 m ρ c (Proc.devRef .tc main_arg13) := keep2 _ (by decide)
    _ = W1 m ρ c (Proc.devRef .tc main_arg13) := keep1 _ (by decide)
    _ = W0 m ρ c (Proc.devRef .tc main_arg13) := keep0 _ (by decide)
    _ = m ((c : Thread nD τ).loc main_arg13) := rfl

end Cert.KernelIdeal.HostVals0

end
-- ==== Proof.HostVals1.lean ====
/-
  What the node region finds in its seven input arrays when it is entered, and what the program's two results are: the
  summed messages are the scatter-add of the edge region's message array at the target nodes into zeros, the two weight
  groups row slices of the 256 × 128 matrix; the new features are the node region's output array, the new positions the
  positions plus the scatter-add of the edge region's coordinate array.
-/
import proofs.«404792_j40621800686307_1_alg».proof.Proof.Gen.KernelIdeal.Frame
import proofs.«404792_j40621800686307_1_alg».proof.Proof.Spec
import proofs.«404792_j40621800686307_1_alg».proof.Proof.HostDefs
import Idealize.ShloMosaic.Lib.StableHlo.Run
set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostVals1

open Cert.KernelIdeal Cert.KernelIdeal.Facts₀ Cert.KernelIdeal.Facts Cert.KernelIdeal.Gen Cert.KernelIdeal.HostDefs Idealize.ShloMosaic.StableHlo

variable (m : (ℓ : Loc nD τ sig) → Buf (Elt Ideal) ℓ) (ρ : Dev nD → PrngReg)

/-- No operation of the named stretch writes the buffer in question: its result buffers are other references. -/
local macro "unwritten " h:ident : tactic =>
  `(tactic| exact List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- A buffer that none of the six stretches before the edge region writes holds at the edge region's entry what it held
    at launch. -/
private theorem W6_launch (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes)
    (h4 : ∀ op ∈ (hostOps0_4 : List (HloOp τ sig (Elt Ideal))), Proc.devRef .tc b ∉ op.writes)
    (h5 : ∀ op ∈ (hostOps0_5 : List (HloOp τ sig (Elt Ideal))), Proc.devRef .tc b ∉ op.writes) :
    W6 m ρ c (Proc.devRef .tc b) = m ((c : Thread nD τ).loc b) :=
  calc W6 m ρ c (Proc.devRef .tc b)
    _ = W5 m ρ c (Proc.devRef .tc b) := StableHlo.after_of_forall_not_mem (b := Proc.devRef .tc b) _ _ h5
    _ = W4 m ρ c (Proc.devRef .tc b) := StableHlo.after_of_forall_not_mem (b := Proc.devRef .tc b) _ _ h4
    _ = W3 m ρ c (Proc.devRef .tc b) := StableHlo.after_of_forall_not_mem (b := Proc.devRef .tc b) _ _ h3
    _ = W2 m ρ c (Proc.devRef .tc b) := StableHlo.after_of_forall_not_mem (b := Proc.devRef .tc b) _ _ h2
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

/-- The same at the edge region's exit, for a buffer that is moreover none of the edge region's arrays. -/
private theorem W7_launch (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes)
    (h4 : ∀ op ∈ (hostOps0_4 : List (HloOp τ sig (Elt Ideal))), Proc.devRef .tc b ∉ op.writes)
    (h5 : ∀ op ∈ (hostOps0_5 : List (HloOp τ sig (Elt Ideal))), Proc.devRef .tc b ∉ op.writes)
    (hr : ∀ w, Pipeline.arrRef spec0 w ≠ b) :
    W7 m ρ c (Proc.devRef .tc b) = m ((c : Thread nD τ).loc b) :=
  (W7_of_ne m ρ c b hr).trans (W6_launch m ρ c b h0 h1 h2 h3 h4 h5)

/-- The same at the node region's entry, for a buffer that the stretch between the two regions does not write either. -/
private theorem W8_launch (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes)
    (h4 : ∀ op ∈ (hostOps0_4 : List (HloOp τ sig (Elt Ideal))), Proc.devRef .tc b ∉ op.writes)
    (h5 : ∀ op ∈ (hostOps0_5 : List (HloOp τ sig (Elt Ideal))), Proc.devRef .tc b ∉ op.writes)
    (hr : ∀ w, Pipeline.arrRef spec0 w ≠ b)
    (h8 : ∀ op ∈ (hostOps1 : List (HloOp τ sig (Elt Ideal))), Proc.devRef .tc b ∉ op.writes) :
    W8 m ρ c (Proc.devRef .tc b) = m ((c : Thread nD τ).loc b) :=
  (StableHlo.after_of_forall_not_mem (b := Proc.devRef .tc b) _ _ h8).trans (W7_launch m ρ c b h0 h1 h2 h3 h4 h5 hr)

theorem V8_arg0 (c : Dev nD) : V8 m ρ c main_arg0 = m ((c : Thread nD τ).loc main_arg0) :=
  W8_launch m ρ c main_arg0 (by unwritten hostOps0) (by unwritten hostOps0_1) (by unwritten hostOps0_2)
    (by unwritten hostOps0_3) (by unwritten hostOps0_4) (by unwritten hostOps0_5) (by decide) (by unwritten hostOps1)
theorem V8_arg8 (c : Dev nD) : V8 m ρ c main_arg8 = m ((c : Thread nD τ).loc main_arg8) :=
  W8_launch m ρ c main_arg8 (by unwritten hostOps0) (by unwritten hostOps0_1) (by unwritten hostOps0_2)
    (by unwritten hostOps0_3) (by unwritten hostOps0_4) (by unwritten hostOps0_5) (by decide) (by unwritten hostOps1)
theorem V8_arg9 (c : Dev nD) : V8 m ρ c main_arg9 = m ((c : Thread nD τ).loc main_arg9) :=
  W8_launch m ρ c main_arg9 (by unwritten hostOps0) (by unwritten hostOps0_1) (by unwritten hostOps0_2)
    (by unwritten hostOps0_3) (by unwritten hostOps0_4) (by unwritten hostOps0_5) (by decide) (by unwritten hostOps1)
theorem V8_arg10 (c : Dev nD) : V8 m ρ c main_arg10 = m ((c : Thread nD τ).loc main_arg10) :=
  W8_launch m ρ c main_arg10 (by unwritten hostOps0) (by unwritten hostOps0_1) (by unwritten hostOps0_2)
    (by unwritten hostOps0_3) (by unwritten hostOps0_4) (by unwritten hostOps0_5) (by decide) (by unwritten hostOps1)

/-- The 256 × 128 weight matrix reaches the node region's entry as launched. -/
private theorem W7_arg7 (c : Dev nD) : W7 m ρ c (Proc.devRef .tc main_arg7) = m ((c : Thread nD τ).loc main_arg7) :=
  W7_launch m ρ c main_arg7 (by unwritten hostOps0) (by unwritten hostOps0_1) (by unwritten hostOps0_2)
    (by unwritten hostOps0_3) (by unwritten hostOps0_4) (by unwritten hostOps0_5) (by decide)

theorem V8_v19 (c : Dev nD) : V8 m ρ c main_v19 = extractStridedSlice S128x128 ![0, 0] (m ((c : Thread nD τ).loc main_arg7)) Facts₀.slices_S256x128_S128x128_0_0 := by
  have e : W8 m ρ c (Proc.devRef .tc main_v19)
      = extractStridedSlice S128x128 ![0, 0] (W7 m ρ c (Proc.devRef .tc main_arg7) : FVec Ideal S256x128 .f32) Facts₀.slices_S256x128_S128x128_0_0 := by
    show StableHlo.after hostOps1 _ (Proc.devRef .tc main_v19) = _
    after_results <;> rfl
  show W8 m ρ c (Proc.devRef .tc main_v19) = _
  rw [e, W7_arg7 m ρ c]
theorem V8_v20 (c : Dev nD) : V8 m ρ c main_v20 = extractStridedSlice S128x128 ![128, 0] (m ((c : Thread nD τ).loc main_arg7)) Facts₀.slices_S256x128_S128x128_128_0 := by
  have e : W8 m ρ c (Proc.devRef .tc main_v20)
      = extractStridedSlice S128x128 ![128, 0] (W7 m ρ c (Proc.devRef .tc main_arg7) : FVec Ideal S256x128 .f32) Facts₀.slices_S256x128_S128x128_128_0 := by
    show StableHlo.after hostOps1 _ (Proc.devRef .tc main_v20) = _
    after_results <;> rfl
  show W8 m ρ c (Proc.devRef .tc main_v20) = _
  rw [e, W7_arg7 m ρ c]

end Cert.KernelIdeal.HostVals1

end
-- ==== Proof.HostVals1b.lean ====
/-
  The summed messages the node region finds, and the program's two results: the scatter-add of the edge region's message
  array at the target nodes into zeros; the node region's output array; the positions plus the scatter-add of the edge
  region's coordinate array.
-/
import proofs.«404792_j40621800686307_1_alg».proof.Proof.Gen.KernelIdeal.Frame
import proofs.«404792_j40621800686307_1_alg».proof.Proof.Spec
import proofs.«404792_j40621800686307_1_alg».proof.Proof.HostDefs
import Idealize.ShloMosaic.Lib.StableHlo.Run
set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostVals1

open Cert.KernelIdeal Cert.KernelIdeal.Facts₀ Cert.KernelIdeal.Facts Cert.KernelIdeal.Gen Cert.KernelIdeal.HostDefs Idealize.ShloMosaic.StableHlo

variable (m : (ℓ : Loc nD τ sig) → Buf (Elt Ideal) ℓ) (ρ : Dev nD → PrngReg)

/-- No operation of the named stretch writes the buffer in question: its result buffers are other references. -/
local macro "unwritten " h:ident : tactic =>
  `(tactic| exact List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- A buffer that none of the six stretches before the edge region writes holds at the edge region's entry what it held
    at launch. -/
private theorem W6_launch (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes)
    (h4 : ∀ op ∈ (hostOps0_4 : List (HloOp τ sig (Elt Ideal))), Proc.devRef .tc b ∉ op.writes)
    (h5 : ∀ op ∈ (hostOps0_5 : List (HloOp τ sig (Elt Ideal))), Proc.devRef .tc b ∉ op.writes) :
    W6 m ρ c (Proc.devRef .tc b) = m ((c : Thread nD τ).loc b) :=
  calc W6 m ρ c (Proc.devRef .tc b)
    _ = W5 m ρ c (Proc.devRef .tc b) := StableHlo.after_of_forall_not_mem (b := Proc.devRef .tc b) _ _ h5
    _ = W4 m ρ c (Proc.devRef .tc b) := StableHlo.after_of_forall_not_mem (b := Proc.devRef .tc b) _ _ h4
    _ = W3 m ρ c (Proc.devRef .tc b) := StableHlo.after_of_forall_not_mem (b := Proc.devRef .tc b) _ _ h3
    _ = W2 m ρ c (Proc.devRef .tc b) := StableHlo.after_of_forall_not_mem (b := Proc.devRef .tc b) _ _ h2
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

/-- The same at the edge region's exit, for a buffer that is moreover none of the edge region's arrays. -/
private theorem W7_launch (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes)
    (h4 : ∀ op ∈ (hostOps0_4 : List (HloOp τ sig (Elt Ideal))), Proc.devRef .tc b ∉ op.writes)
    (h5 : ∀ op ∈ (hostOps0_5 : List (HloOp τ sig (Elt Ideal))), Proc.devRef .tc b ∉ op.writes)
    (hr : ∀ w, Pipeline.arrRef spec0 w ≠ b) :
    W7 m ρ c (Proc.devRef .tc b) = m ((c : Thread nD τ).loc b) :=
  (W7_of_ne m ρ c b hr).trans (W6_launch m ρ c b h0 h1 h2 h3 h4 h5)

/-- The same at the node region's entry, for a buffer that the stretch between the two regions does not write either. -/
private theorem W8_launch (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes)
    (h4 : ∀ op ∈ (hostOps0_4 : List (HloOp τ sig (Elt Ideal))), Proc.devRef .tc b ∉ op.writes)
    (h5 : ∀ op ∈ (hostOps0_5 : List (HloOp τ sig (Elt Ideal))), Proc.devRef .tc b ∉ op.writes)
    (hr : ∀ w, Pipeline.arrRef spec0 w ≠ b)
    (h8 : ∀ op ∈ (hostOps1 : List (HloOp τ sig (Elt Ideal))), Proc.devRef .tc b ∉ op.writes) :
    W8 m ρ c (Proc.devRef .tc b) = m ((c : Thread nD τ).loc b) :=
  (StableHlo.after_of_forall_not_mem (b := Proc.devRef .tc b) _ _ h8).trans (W7_launch m ρ c b h0 h1 h2 h3 h4 h5 hr)

/-- The target-node vector after the first stretch: row 1 of the edge list, read off the launch memory. -/
private theorem W1_v3 (c : Dev nD) :
    W1 m ρ c (Proc.devRef .tc main_v3) = colIdx (m ((c : Thread nD τ).loc main_arg2)) := by
  show StableHlo.after hostOps0 _ (Proc.devRef .tc main_v3) = _
  after_results <;> rfl

/-- No later stretch and no array of the edge region overwrites the target-node vector: the edge region leaves it as the
    first stretch made it. -/
private theorem W7_v3 (c : Dev nD) :
    W7 m ρ c (Proc.devRef .tc main_v3) = colIdx (m ((c : Thread nD τ).loc main_arg2)) :=
  calc W7 m ρ c (Proc.devRef .tc main_v3)
    _ = W6 m ρ c (Proc.devRef .tc main_v3) := W7_of_ne m ρ c main_v3 (by decide)
    _ = W5 m ρ c (Proc.devRef .tc main_v3) := StableHlo.after_of_forall_not_mem (b := Proc.devRef .tc main_v3) _ _ (by unwritten hostOps0_5)
    _ = W4 m ρ c (Proc.devRef .tc main_v3) := StableHlo.after_of_forall_not_mem (b := Proc.devRef .tc main_v3) _ _ (by unwritten hostOps0_4)
    _ = W3 m ρ c (Proc.devRef .tc main_v3) := StableHlo.after_of_forall_not_mem (b := Proc.devRef .tc main_v3) _ _ (by unwritten hostOps0_3)
    _ = W2 m ρ c (Proc.devRef .tc main_v3) := StableHlo.after_of_forall_not_mem (b := Proc.devRef .tc main_v3) _ _ (by unwritten hostOps0_2)
    _ = W1 m ρ c (Proc.devRef .tc main_v3) := StableHlo.after_of_forall_not_mem (b := Proc.devRef .tc main_v3) _ _ (by unwritten hostOps0_1)
    _ = colIdx (m ((c : Thread nD τ).loc main_arg2)) := W1_v3 m ρ c

/-- The edge region's message array and coordinate array at its exit: what its pipeline leaves in outputs 12 and 13. -/
private theorem W7_v12_0 (c : Dev nD) :
    W7 m ρ c (Proc.devRef .tc main_v12_0) = (dat0 (V6 m ρ) c).arrAt 12 cfg0.N := W7_arr m ρ c 12
private theorem W7_v12_1 (c : Dev nD) :
    W7 m ρ c (Proc.devRef .tc main_v12_1) = (dat0 (V6 m ρ) c).arrAt 13 cfg0.N := W7_arr m ρ c 13

/-- The stretch between the regions, read at the summed messages: a scatter-add into zeros of what the edge region left. -/
private theorem W8_v15 (c : Dev nD) : W8 m ρ c (Proc.devRef .tc main_v15)
    = Host.scatterAdd scatter_S50000x128_S800000x1_S800000x128_1_0_0_1
        (broadcastInDim S50000x128 ![] Facts₀.bcast_S_S50000x128 (constant (F := Ideal) S_ .f32 0x00000000#32))
        (broadcastInDim S800000x1 ![0] Facts₀.bcast_S800000_S800000x1_0 (W7 m ρ c (Proc.devRef .tc main_v3) : IVec S800000 32))
        (W7 m ρ c (Proc.devRef .tc main_v12_0) : FVec Ideal S800000x128 .f32) := by
  show StableHlo.after hostOps1 _ (Proc.devRef .tc main_v15) = _
  after_results <;> rfl

/-- The same stretch read at the summed coordinate updates. -/
private theorem W8_v18 (c : Dev nD) : W8 m ρ c (Proc.devRef .tc main_v18)
    = Host.scatterAdd scatter_S50000x3_S800000x1_S800000x3_1_0_0_1
        (broadcastInDim S50000x3 ![] Facts₀.bcast_S_S50000x3 (constant (F := Ideal) S_ .f32 0x00000000#32))
        (broadcastInDim S800000x1 ![0] Facts₀.bcast_S800000_S800000x1_0 (W7 m ρ c (Proc.devRef .tc main_v3) : IVec S800000 32))
        (W7 m ρ c (Proc.devRef .tc main_v12_1) : FVec Ideal S800000x3 .f32) := by
  show StableHlo.after hostOps1 _ (Proc.devRef .tc main_v18) = _
  after_results <;> rfl

theorem V8_v15 (c : Dev nD) : V8 m ρ c main_v15
    = Host.scatterAdd scatter_S50000x128_S800000x1_S800000x128_1_0_0_1
        (broadcastInDim S50000x128 ![] Facts₀.bcast_S_S50000x128 (constant (F := Ideal) S_ .f32 0x00000000#32))
        (broadcastInDim S800000x1 ![0] Facts₀.bcast_S800000_S800000x1_0 (colIdx (m ((c : Thread nD τ).loc main_arg2))))
        ((dat0 (V6 m ρ) c).arrAt 12 cfg0.N) := by
  show W8 m ρ c (Proc.devRef .tc main_v15) = _
  rw [W8_v15 m ρ c, W7_v3 m ρ c, W7_v12_0 m ρ c]

theorem W10_v21 (c : Dev nD) : W10 m ρ c (Proc.devRef .tc main_v21) = (dat1 (V8 m ρ) c).arrAt 7 cfg1.N :=
  calc W10 m ρ c (Proc.devRef .tc main_v21)
    _ = W9 m ρ c (Proc.devRef .tc main_v21) := StableHlo.after_of_forall_not_mem (b := Proc.devRef .tc main_v21) _ _ (by unwritten hostOps2)
    _ = (dat1 (V8 m ρ) c).arrAt 7 cfg1.N := W9_arr m ρ c 7

/-- The positions reach the last stretch as launched: no stretch writes them and neither region holds them as an array. -/
private theorem W9_arg1 (c : Dev nD) : W9 m ρ c (Proc.devRef .tc main_arg1) = m ((c : Thread nD τ).loc main_arg1) :=
  (W9_of_ne m ρ c main_arg1 (by decide)).trans
    (W8_launch m ρ c main_arg1 (by unwritten hostOps0) (by unwritten hostOps0_1) (by unwritten hostOps0_2)
      (by unwritten hostOps0_3) (by unwritten hostOps0_4) (by unwritten hostOps0_5) (by decide) (by unwritten hostOps1))

/-- The last stretch, read at the new positions: the positions plus what the node region's exit holds of the summed
    coordinate updates. -/
private theorem W10_v22_at_W9 (c : Dev nD) : (W10 m ρ c (Proc.devRef .tc main_v22) : FVec Ideal S50000x3 .f32)
    = addf (F := Ideal) (s := S50000x3) (φ := .f32) (W9 m ρ c (Proc.devRef .tc main_arg1) : FVec Ideal S50000x3 .f32)
        (W9 m ρ c (Proc.devRef .tc main_v18) : FVec Ideal S50000x3 .f32) := by
  show StableHlo.after hostOps2 _ (Proc.devRef .tc main_v22) = _
  after_results <;> rfl

theorem W10_v22 (c : Dev nD) : W10 m ρ c (Proc.devRef .tc main_v22)
    = addf (F := Ideal) (m ((c : Thread nD τ).loc main_arg1))
        (Host.scatterAdd scatter_S50000x3_S800000x1_S800000x3_1_0_0_1
          (broadcastInDim S50000x3 ![] Facts₀.bcast_S_S50000x3 (constant (F := Ideal) S_ .f32 0x00000000#32))
          (broadcastInDim S800000x1 ![0] Facts₀.bcast_S800000_S800000x1_0 (colIdx (m ((c : Thread nD τ).loc main_arg2))))
          ((dat0 (V6 m ρ) c).arrAt 13 cfg0.N)) := by
  rw [W10_v22_at_W9 m ρ c, W9_arg1 m ρ c, W9_of_ne m ρ c main_v18 (by decide), W8_v18 m ρ c, W7_v3 m ρ c, W7_v12_1 m ρ c]

end Cert.KernelIdeal.HostVals1

end
-- ==== Proof.TakePre.lean ====
/-
  Under the precondition every entry of the edge list lies in 0 … 49999, so jnp.take never meets an index out of range:
  a non-negative index is not wrapped, the wrapped index passes the range test on every edge, and the select between the
  gathered row and the fill value returns the gathered row everywhere.
-/
import proofs.«404792_j40621800686307_1_alg».proof.Proof.HostDefs
import proofs.«404792_j40621800686307_1_alg».proof.Pre_finite_inputs
import proofs.«404792_j40621800686307_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate
import Idealize.ShloMosaic.Lib.Pipeline.Value

set_option maxRecDepth 16384

noncomputable section

open Idealize.ShloMosaic Idealize.ShloMosaic.TcCoe Idealize.ShloMosaic.ValueIdx

namespace Cert.KernelIdeal.TakePre

open Cert.KernelIdeal Cert.KernelIdeal.Facts₀ Cert.KernelIdeal.Facts Cert.KernelIdeal.HostDefs

/-! ## Words and folds -/

/-- A left fold by `and` that starts at 1 and meets only 1s is 1. -/
private theorem foldl_andi_of_all {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hl =>
    foldl_andi_of_all f l _ (IntOp.andi_eq_one.2 ⟨h, hl a (List.mem_cons_self ..)⟩)
      (fun n hn => hl n (List.mem_cons_of_mem _ hn))

/-- A reduction by `and` from the initial value 1 of an operand that is 1 everywhere is 1 at every result index. -/
private theorem reduce_andi_of_all {s t u : Shape} {axes : List (Fin s.rank)} (x : s.Idx → BitVec 1)
    (init : u.Idx → BitVec 1) (h : s.ReducesTo axes t) (hu : 0 < u.numel) (j : t.Idx)
    (hi : init (Shape.Idx.first hu) = 1#1) (hx : ∀ i, x i = 1#1) : Host.reduce IntOp.andi x init h hu j = 1#1 := by
  rw [Host.reduce_eq_foldl]
  exact foldl_andi_of_all x _ _ hi (fun i _ => hx i)

/-- A non-negative word is not below 0, so the wrap `w < 0 ? w + 50000 : w` returns it unchanged. -/
private theorem wrap_eq (w : BitVec 32) (h0 : 0 ≤ w.toInt) :
    Scalar.select (IntOp.cmpi .slt w 0#32) (IntOp.addi w 50000#32) w = w := by
  have hc : IntOp.cmpi .slt w 0#32 = 0#1 := by
    apply eq_zero_of_ne_one
    rw [IntOp.cmpi_slt, show (0#32 : BitVec 32).toInt = 0 from by decide]
    omega
  rw [hc, select_zero]

/-- A word in 0 … 49999 passes both range tests: 0 ≤ w and w ≤ 49999, signed. -/
private theorem range_cmp (w : BitVec 32) (h0 : 0 ≤ w.toInt) (h1 : w.toInt < 50000) :
    IntOp.andi (IntOp.cmpi .sge w 0#32) (IntOp.cmpi .sle w 49999#32) = 1#1 := by
  rw [IntOp.andi_eq_one, IntOp.cmpi_sge, IntOp.cmpi_sle, show (0#32 : BitVec 32).toInt = 0 from by decide,
    show (49999#32 : BitVec 32).toInt = 49999 from by decide]
  omega

/-- The scalar shape has one index. -/
private instance subsingleton_scalar_idx : Subsingleton Cert.Pre_finite_inputs.S_.Idx :=
  ⟨fun a b => funext fun d => d.elim0⟩

/-! ## The precondition decoded -/

/-- The precondition, all ones, puts every entry of the edge list in 0 … 49999 (as a signed word). -/
theorem idx_range_of_pre (a0 : FVec Ideal S50000x128 .f32) (a1 : FVec Ideal S50000x3 .f32) (a2 : IVec S2x800000 32)
    (a3 : FVec Ideal S257x128 .f32) (a4 : FVec Ideal S128 .f32) (a5 : FVec Ideal S128x128 .f32) (a6 : FVec Ideal S128 .f32)
    (a7 : FVec Ideal S256x128 .f32) (a8 : FVec Ideal S128 .f32) (a9 : FVec Ideal S128x128 .f32) (a10 : FVec Ideal S128 .f32)
    (a11 : FVec Ideal S128x128 .f32) (a12 : FVec Ideal S128 .f32) (a13 : FVec Ideal S128x1 .f32)
    (h : Cert.Pre_finite_inputs.fn (F := Ideal) a0 a1 a2 a3 a4 a5 a6 a7 a8 a9 a10 a11 a12 a13 = fun _ => 1#1) :
    ∀ i : S2x800000.Idx, 0 ≤ (a2 i).toInt ∧ (a2 i).toInt < 50000 := by
  intro i
  -- the predicate's one word: the conjunction of all its jnp.all terms, the two about the edge list last
  have e := congrFun h ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e67, e70⟩ := IntOp.andi_eq_one.1 e
  obtain ⟨-, e66⟩ := IntOp.andi_eq_one.1 e67
  -- each jnp.all, being 1, gives its compare word at entry i
  have g0 : IntOp.cmpi .sge (a2 i) 0#32 = 1#1 := Host.reduce_andi_all _ _ _ _ _ e66 i
  have g1 : IntOp.cmpi .slt (a2 i) 50000#32 = 1#1 := Host.reduce_andi_all _ _ _ _ _ e70 i
  rw [IntOp.cmpi_sge, show (0#32 : BitVec 32).toInt = 0 from by decide] at g0
  rw [IntOp.cmpi_slt, show (50000#32 : BitVec 32).toInt = 50000 from by decide] at g1
  exact ⟨g0, g1⟩

/-- Then so is every source index. -/
theorem rowIdx_range (a2 : IVec S2x800000 32) (h : ∀ i : S2x800000.Idx, 0 ≤ (a2 i).toInt ∧ (a2 i).toInt < 50000) :
    ∀ e : S800000.Idx, 0 ≤ (rowIdx a2 e).toInt ∧ (rowIdx a2 e).toInt < 50000 := by
  intro e
  -- a reshape of a slice reads the edge list at one of its entries
  unfold rowIdx shapeCast extractStridedSlice
  exact h _

/-- And every target index. -/
theorem colIdx_range (a2 : IVec S2x800000 32) (h : ∀ i : S2x800000.Idx, 0 ≤ (a2 i).toInt ∧ (a2 i).toInt < 50000) :
    ∀ e : S800000.Idx, 0 ≤ (colIdx a2 e).toInt ∧ (colIdx a2 e).toInt < 50000 := by
  intro e
  unfold colIdx shapeCast extractStridedSlice
  exact h _

/-! ## jnp.take under the range -/

/-- With every index non-negative the wrap is the identity: the column of start indices is the index vector itself,
    broadcast to a column. -/
private theorem normIdx_eq (idx : IVec S800000 32) (h : ∀ e : S800000.Idx, 0 ≤ (idx e).toInt ∧ (idx e).toInt < 50000) :
    normIdx idx = broadcastInDim S800000x1 ![0] bcast_S800000_S800000x1_0 idx := by
  unfold normIdx
  refine congrArg (broadcastInDim (s := S800000) (α := BitVec 32) S800000x1 ![0] bcast_S800000_S800000x1_0) (funext fun e => ?_)
  exact wrap_eq (idx e) (h e).1

/-- So every start index lies in 0 … 49999. -/
private theorem normIdx_range (idx : IVec S800000 32) (h : ∀ e : S800000.Idx, 0 ≤ (idx e).toInt ∧ (idx e).toInt < 50000)
    (k : S800000x1.Idx) : 0 ≤ (normIdx idx k).toInt ∧ (normIdx idx k).toInt < 50000 := by
  rw [normIdx_eq idx h]
  unfold broadcastInDim
  exact h _

/-- And the range test holds on every edge. -/
private theorem inRange_one (idx : IVec S800000 32) (h : ∀ e : S800000.Idx, 0 ≤ (idx e).toInt ∧ (idx e).toInt < 50000)
    (e : S800000.Idx) : inRange (normIdx idx) e = 1#1 := by
  unfold inRange
  refine reduce_andi_of_all _ _ _ _ _ rfl (fun k => ?_)
  exact range_cmp (normIdx idx k) (normIdx_range idx h k).1 (normIdx_range idx h k).2

/-- With every index in range, jnp.take of the feature table is the plain gather at the wrapped indices. -/
theorem takeH_eq_gather (x : FVec Ideal S50000x128 .f32) (idx : IVec S800000 32)
    (h : ∀ e : S800000.Idx, 0 ≤ (idx e).toInt ∧ (idx e).toInt < 50000) :
    takeH (F := Ideal) x idx = Host.gather gather_S50000x128_S800000x1_S800000x128_1_0_n_n_0_1_1128 x (normIdx idx) := by
  funext i
  unfold takeH
  rw [select_apply]
  -- the mask at i is the range test of i's edge
  have hm : broadcastInDim S800000x128 ![0] bcast_S800000_S800000x128_0 (inRange (normIdx idx)) i = 1#1 := by
    unfold broadcastInDim
    exact inRange_one idx h _
  rw [hm, select_one]

/-- Likewise of the position table. -/
theorem takeX_eq_gather (x : FVec Ideal S50000x3 .f32) (idx : IVec S800000 32)
    (h : ∀ e : S800000.Idx, 0 ≤ (idx e).toInt ∧ (idx e).toInt < 50000) :
    takeX (F := Ideal) x idx = Host.gather gather_S50000x3_S800000x1_S800000x3_1_0_n_n_0_1_13 x (normIdx idx) := by
  funext i
  unfold takeX
  rw [select_apply]
  have hm : broadcastInDim S800000x3 ![0] bcast_S800000_S800000x3_0 (inRange (normIdx idx)) i = 1#1 := by
    unfold broadcastInDim
    exact inRange_one idx h _
  rw [hm, select_one]

end Cert.KernelIdeal.TakePre

end
-- ==== Proof.RefEdge.lean ====
/-
  The reference's per-edge arrays, entry by entry: its edge messages and its coordinate messages are the row functions of
  the specification applied to rows of the gathered feature arrays h[row], h[col] and of the relative positions
  x[row] − x[col]; the concatenated 257-entry feature row against the 257 × 128 matrix is the specification's lin1R.
-/
import proofs.«404792_j40621800686307_1_alg».proof.Proof.Gen.ReferenceIdeal.Read
import proofs.«404792_j40621800686307_1_alg».proof.Proof.Spec
import Idealize.ShloMosaic.PureOps.Ideal.Laws
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx

namespace Cert.ReferenceIdeal.RefEdge

open Cert.ReferenceIdeal Cert.ReferenceIdeal.Read Cert.Egnn

/-- The bit pattern 0x3F800000 is the number one. -/
private theorem one_f32 : Ideal.ofBits .f32 0x3F800000#32 = 1 := by
  simp [Ideal.ofBits, Ideal.ieee, -EReal.coe_mul]; norm_num

/-- x · (1 / (1 + e^(-x))), spelt with the host's negate, exponential, add and divide, is silu x. -/
private theorem silu_chain (x : EReal) :
    FloatOps.mulf (F := Ideal) (φ := .f32) x
      (FloatOps.hostDivf (FloatOps.ofBits .f32 0x3F800000#32)
        (FloatOps.addf (FloatOps.ofBits .f32 0x3F800000#32) (FloatOps.hostUnary .exp (FloatOps.hostNegf x)))) = silu x := by
  simp only [Ideal.mulf_def, Ideal.hostDivf_def, Ideal.addf_def, Ideal.hostUnary_exp_def, Ideal.hostNegf_def, Ideal.negf_def,
    Ideal.ofBits_def, one_f32]
  rfl

/-- Three arrays of 128, 128 and 1 columns joined along the columns, read at (e, k): columns 0–127 are the first array's,
    columns 128–255 the second's, column 256 the third's. -/
private theorem cat3_apply {α : Type} {E : Nat} (A B : (⟨2, ![E, 128]⟩ : Shape).Idx → α) (C : (⟨2, ![E, 1]⟩ : Shape).Idx → α)
    (h : Shape.Concatenates ([(⟨(⟨2, ![E, 128]⟩ : Shape), A⟩ : (s : Shape) × (s.Idx → α)), ⟨(⟨2, ![E, 128]⟩ : Shape), B⟩,
      ⟨(⟨2, ![E, 1]⟩ : Shape), C⟩].map (·.1)) (⟨2, ![E, 257]⟩ : Shape) 1)
    (e : Fin E) (k : Fin 257) :
    concatenate (⟨2, ![E, 257]⟩ : Shape) 1 [⟨(⟨2, ![E, 128]⟩ : Shape), A⟩, ⟨(⟨2, ![E, 128]⟩ : Shape), B⟩, ⟨(⟨2, ![E, 1]⟩ : Shape), C⟩] h (ix2 e k)
      = if h1 : k.val < 128 then A (ix2 e ⟨k.val, h1⟩)
        else if h2 : k.val < 256 then B (ix2 e ⟨k.val - 128, by omega⟩) else C (ix2 e 0) := by
  by_cases h1 : k.val < 128
  · rw [dif_pos h1]
    refine concatenate_apply_piece (t := (⟨2, ![E, 257]⟩ : Shape)) 1 _ h (ix2 e k) 0 (by simp) (⟨2, ![E, 128]⟩ : Shape) A rfl rfl 0 rfl
      (ix2 e ⟨k.val, h1⟩) (fun b hb => ?_) ?_
    · match b, hb with
      | ⟨0, _⟩, _ => rfl
      | ⟨1, _⟩, hb => exact absurd rfl hb
    · show 0 + k.val = k.val; omega
  · rw [dif_neg h1]
    by_cases h2 : k.val < 256
    · rw [dif_pos h2]
      refine concatenate_apply_piece (t := (⟨2, ![E, 257]⟩ : Shape)) 1 _ h (ix2 e k) 1 (by simp) (⟨2, ![E, 128]⟩ : Shape) B rfl rfl 128 rfl
        (ix2 e ⟨k.val - 128, by omega⟩) (fun b hb => ?_) ?_
      · match b, hb with
        | ⟨0, _⟩, _ => rfl
        | ⟨1, _⟩, hb => exact absurd rfl hb
      · show 128 + (k.val - 128) = k.val; omega
    · rw [dif_neg h2]
      refine concatenate_apply_piece (t := (⟨2, ![E, 257]⟩ : Shape)) 1 _ h (ix2 e k) 2 (by simp) (⟨2, ![E, 1]⟩ : Shape) C rfl rfl 256 rfl
        (ix2 e 0) (fun b hb => ?_) ?_
      · match b, hb with
        | ⟨0, _⟩, _ => rfl
        | ⟨1, _⟩, hb => exact absurd rfl hb
      · show 256 + 0 = k.val; have := k.isLt; omega

/-- The squared distance of edge e (%19 … %21): the sum over the three coordinates of the squared relative position. -/
private theorem v21_row (x1 : (⟨S50000x3, .f32⟩ : BufTy).Contents (Elt Ideal)) (x2 : (⟨S2x800000, .i32⟩ : BufTy).Contents (Elt Ideal)) (e : Fin 800000) :
    val_main_v21 (F := Ideal) x1 x2 (ix2 e (0 : Fin 1)) = dsq (row (val_main_v18 (F := Ideal) x1 x2) e) := by
  have e1 : idx_main_v21 (ix2 e (0 : Fin 1)) = ix1 e := funext fun a => Fin.ext (by match a with | ⟨0, _⟩ => rfl)
  have e2 : ∀ k : Fin 3, idx_main_v20 (ix1 e) k = ix2 e k := fun k => funext fun a => Fin.ext (by match a with | ⟨0, _⟩ => rfl | ⟨1, _⟩ => rfl)
  rw [val_main_v21_apply, e1, val_main_v20_apply]
  simp only [e2, val_main_v19_apply, val_main_cst_apply, Ideal.ofBits_def, Ideal.ofBits_zero_f32, zero_add, Ideal.mulf_def]
  generalize val_main_v18 (F := Ideal) x1 x2 = RP
  rfl

/-- Row e of the concatenated feature array (%36) is the specification's concatenated row. -/
private theorem v36_row (x0 : (⟨S50000x128, .f32⟩ : BufTy).Contents (Elt Ideal)) (x1 : (⟨S50000x3, .f32⟩ : BufTy).Contents (Elt Ideal)) (x2 : (⟨S2x800000, .i32⟩ : BufTy).Contents (Elt Ideal)) (e : Fin 800000) (k : Fin 257) :
    val_main_v36 (F := Ideal) x0 x1 x2 (ix2 e k)
      = cat257 (row (val_main_v28 (F := Ideal) x0 x2) e) (row (val_main_v35 (F := Ideal) x0 x2) e) (dsq (row (val_main_v18 (F := Ideal) x1 x2) e)) k := by
  unfold val_main_v36
  refine (cat3_apply (val_main_v28 (F := Ideal) x0 x2) (val_main_v35 (F := Ideal) x0 x2) (val_main_v21 (F := Ideal) x1 x2) _ e k).trans ?_
  rw [v21_row]
  generalize val_main_v28 (F := Ideal) x0 x2 = HR
  generalize val_main_v35 (F := Ideal) x0 x2 = HC
  generalize val_main_v18 (F := Ideal) x1 x2 = RP
  rfl

/-- The first layer (%37 … %40) at (e, j): the concatenated row against the 257 × 128 matrix, plus the bias. -/
private theorem v40_row (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (e : Fin 800000) (j : Fin 128) :
    val_main_v40 (F := Ideal) x0 x1 x2 x3 x4 (ix2 e j) = (lin1R (row (val_main_v28 (F := Ideal) x0 x2) e) (row (val_main_v35 (F := Ideal) x0 x2) e) (row (val_main_v18 (F := Ideal) x1 x2) e) (mat x3) (vec x4)) j := by
  have el : ∀ k : Fin 257, lidx_main_v37 (ix2 e j) k = ix2 e k := fun k => funext fun a => Fin.ext (by match a with | ⟨0, _⟩ => rfl | ⟨1, _⟩ => rfl)
  have er : ∀ k : Fin 257, ridx_main_v37 (ix2 e j) k = ix2 k j := fun k => funext fun a => Fin.ext (by match a with | ⟨0, _⟩ => rfl | ⟨1, _⟩ => rfl)
  have e39 : idx_main_v39 (ix2 e j) = ix2 (0 : Fin 1) j := funext fun a => Fin.ext (by match a with | ⟨0, _⟩ => rfl | ⟨1, _⟩ => rfl)
  have e38 : idx_main_v38 (ix2 (0 : Fin 1) j) = ix1 j := funext fun a => Fin.ext (by match a with | ⟨0, _⟩ => rfl)
  rw [val_main_v40_apply, val_main_v37_apply, val_main_v39_apply, e39, val_main_v38_apply, e38]
  simp only [el, er, v36_row, Ideal.addf_def]
  generalize val_main_v28 (F := Ideal) x0 x2 = HR
  generalize val_main_v35 (F := Ideal) x0 x2 = HC
  generalize val_main_v18 (F := Ideal) x1 x2 = RP
  rfl

/-- After the first silu (%41). -/
private theorem v41_row (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (e : Fin 800000) (j : Fin 128) :
    val_main_v41 (F := Ideal) x0 x1 x2 x3 x4 (ix2 e j) = silu ((lin1R (row (val_main_v28 (F := Ideal) x0 x2) e) (row (val_main_v35 (F := Ideal) x0 x2) e) (row (val_main_v18 (F := Ideal) x1 x2) e) (mat x3) (vec x4)) j) := by
  rw [val_main_v41_apply, val_main_call0_v5_apply, val_main_call0_v4_apply, val_main_call0_cst_0_apply, val_main_call0_v3_apply,
    val_main_call0_v2_apply, val_main_call0_cst_apply, val_main_call0_v1_apply, val_main_call0_v0_apply]
  exact (silu_chain _).trans (congrArg silu (v40_row x0 x1 x2 x3 x4 e j))

/-- The second layer (%42 … %45) at (e, j). -/
private theorem v45_row (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 800000) (j : Fin 128) :
    val_main_v45 (F := Ideal) x0 x1 x2 x3 x4 x5 x6 (ix2 e j) = layer (lin1R (row (val_main_v28 (F := Ideal) x0 x2) e) (row (val_main_v35 (F := Ideal) x0 x2) e) (row (val_main_v18 (F := Ideal) x1 x2) e) (mat x3) (vec x4)) (mat x5) (vec x6) j := by
  have el : ∀ k : Fin 128, lidx_main_v42 (ix2 e j) k = ix2 e k := fun k => funext fun a => Fin.ext (by match a with | ⟨0, _⟩ => rfl | ⟨1, _⟩ => rfl)
  have er : ∀ k : Fin 128, ridx_main_v42 (ix2 e j) k = ix2 k j := fun k => funext fun a => Fin.ext (by match a with | ⟨0, _⟩ => rfl | ⟨1, _⟩ => rfl)
  have e44 : idx_main_v44 (ix2 e j) = ix2 (0 : Fin 1) j := funext fun a => Fin.ext (by match a with | ⟨0, _⟩ => rfl | ⟨1, _⟩ => rfl)
  have e43 : idx_main_v43 (ix2 (0 : Fin 1) j) = ix1 j := funext fun a => Fin.ext (by match a with | ⟨0, _⟩ => rfl)
  rw [val_main_v45_apply, val_main_v42_apply, val_main_v44_apply, e44, val_main_v43_apply, e43]
  simp only [el, er, v41_row, Ideal.addf_def]
  generalize val_main_v28 (F := Ideal) x0 x2 = HR
  generalize val_main_v35 (F := Ideal) x0 x2 = HC
  generalize val_main_v18 (F := Ideal) x1 x2 = RP
  rfl

/-- The edge message (%46) at (e, j). -/
theorem v46_row (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 800000) (j : Fin 128) :
    val_main_v46 (F := Ideal) x0 x1 x2 x3 x4 x5 x6 (ix2 e j) = (msgOf (lin1R (row (val_main_v28 (F := Ideal) x0 x2) e) (row (val_main_v35 (F := Ideal) x0 x2) e) (row (val_main_v18 (F := Ideal) x1 x2) e) (mat x3) (vec x4)) (mat x5) (vec x6)) j := by
  rw [val_main_v46_apply, val_main_call1_v5_apply, val_main_call1_v4_apply, val_main_call1_cst_0_apply, val_main_call1_v3_apply,
    val_main_call1_v2_apply, val_main_call1_cst_apply, val_main_call1_v1_apply, val_main_call1_v0_apply]
  exact (silu_chain _).trans (congrArg silu (v45_row x0 x1 x2 x3 x4 x5 x6 e j))

/-- The reference's edge messages (%46) as a function of the gathered rows and the relative positions. -/
theorem v46_eq (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S257x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v46 (F := Ideal) x0 x1 x2 x3 x4 x5 x6
      = EMarrR (E := 800000) (val_main_v28 (F := Ideal) x0 x2) (val_main_v35 (F := Ideal) x0 x2) (val_main_v18 (F := Ideal) x1 x2)
          x3 x4 x5 x6 := by
  funext i
  obtain ⟨e, j, rfl⟩ : ∃ (e : Fin 800000) (j : Fin 128), i = ix2 e j := ⟨c0 i, c1 i, eq_ix2 i⟩
  rw [v46_row]
  generalize val_main_v28 (F := Ideal) x0 x2 = HR
  generalize val_main_v35 (F := Ideal) x0 x2 = HC
  generalize val_main_v18 (F := Ideal) x1 x2 = RP
  rfl

/-- The coordinate layer's first stage after silu (%61 … %65) at (e, k). -/
private theorem v65_row (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128x128, .f32⟩ : BufTy).Contents (Elt Ideal)) (x12 : (⟨S128, .f32⟩ : BufTy).Contents (Elt Ideal)) (e : Fin 800000) (k : Fin 128) :
    val_main_v65 (F := Ideal) x0 x1 x2 x3 x4 x5 x6 x11 x12 (ix2 e k)
      = silu ((∑ k' : Fin 128, (msgOf (lin1R (row (val_main_v28 (F := Ideal) x0 x2) e) (row (val_main_v35 (F := Ideal) x0 x2) e) (row (val_main_v18 (F := Ideal) x1 x2) e) (mat x3) (vec x4)) (mat x5) (vec x6)) k' * x11 (ix2 k' k)) + x12 (ix1 k)) := by
  have el : ∀ k' : Fin 128, lidx_main_v61 (ix2 e k) k' = ix2 e k' := fun k' => funext fun a => Fin.ext (by match a with | ⟨0, _⟩ => rfl | ⟨1, _⟩ => rfl)
  have er : ∀ k' : Fin 128, ridx_main_v61 (ix2 e k) k' = ix2 k' k := fun k' => funext fun a => Fin.ext (by match a with | ⟨0, _⟩ => rfl | ⟨1, _⟩ => rfl)
  have e63 : idx_main_v63 (ix2 e k) = ix2 (0 : Fin 1) k := funext fun a => Fin.ext (by match a with | ⟨0, _⟩ => rfl | ⟨1, _⟩ => rfl)
  have e62 : idx_main_v62 (ix2 (0 : Fin 1) k) = ix1 k := funext fun a => Fin.ext (by match a with | ⟨0, _⟩ => rfl)
  rw [val_main_v65_apply, val_main_call3_v5_apply, val_main_call3_v4_apply, val_main_call3_cst_0_apply, val_main_call3_v3_apply,
    val_main_call3_v2_apply, val_main_call3_cst_apply, val_main_call3_v1_apply, val_main_call3_v0_apply]
  refine (silu_chain _).trans (congrArg silu ?_)
  rw [val_main_v64_apply, val_main_v61_apply, val_main_v63_apply, e63, val_main_v62_apply, e62]
  simp only [el, er, v46_row, Ideal.addf_def]

/-- The reference's coordinate messages (%68). -/
theorem v68_eq (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S257x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x11 : (⟨S128x128, .f32⟩ : BufTy).Contents (Elt Ideal))
    (x12 : (⟨S128, .f32⟩ : BufTy).Contents (Elt Ideal)) (x13 : (⟨S128x1, .f32⟩ : BufTy).Contents (Elt Ideal)) :
    val_main_v68 (F := Ideal) x0 x1 x2 x3 x4 x5 x6 x11 x12 x13
      = CMarrR (E := 800000) (val_main_v28 (F := Ideal) x0 x2) (val_main_v35 (F := Ideal) x0 x2) (val_main_v18 (F := Ideal) x1 x2)
          x3 x4 x5 x6 x11 x12 x13 := by
  funext i
  obtain ⟨e, d, rfl⟩ : ∃ (e : Fin 800000) (d : Fin 3), i = ix2 e d := ⟨c0 i, c1 i, eq_ix2 i⟩
  have e67 : idx_main_v67 (ix2 e d) = ix2 e (0 : Fin 1) := funext fun a => Fin.ext (by match a with | ⟨0, _⟩ => rfl | ⟨1, _⟩ => rfl)
  have el : ∀ k : Fin 128, lidx_main_v66 (ix2 e (0 : Fin 1)) k = ix2 e k := fun k => funext fun a => Fin.ext (by match a with | ⟨0, _⟩ => rfl | ⟨1, _⟩ => rfl)
  have er : ∀ k : Fin 128, ridx_main_v66 (ix2 e (0 : Fin 1)) k = ix2 k (0 : Fin 1) := fun k => funext fun a => Fin.ext (by match a with | ⟨0, _⟩ => rfl | ⟨1, _⟩ => rfl)
  rw [val_main_v68_apply, val_main_v67_apply, e67, val_main_v66_apply]
  simp only [el, er, v65_row, Ideal.mulf_def]
  generalize val_main_v28 (F := Ideal) x0 x2 = HR
  generalize val_main_v35 (F := Ideal) x0 x2 = HC
  generalize val_main_v18 (F := Ideal) x1 x2 = RP
  rfl

end Cert.ReferenceIdeal.RefEdge

end
-- ==== Proof.RefNode.lean ====
/-
  The reference's new node features, entry by entry: the row function of the specification applied to rows of the
  feature array and of the summed messages; the concatenated 256-entry row against the 256 × 128 matrix is nlin1R.
-/
import proofs.«404792_j40621800686307_1_alg».proof.Proof.Gen.ReferenceIdeal.Read
import proofs.«404792_j40621800686307_1_alg».proof.Proof.Spec
import Idealize.ShloMosaic.PureOps.Ideal.Laws
import Idealize.ShloMosaic.Lib.Pipeline.Value
import Idealize.ShloMosaic.Lib.ValueLayout
import Idealize.ShloMosaic.Lib.IdealHost

set_option maxRecDepth 16384

noncomputable section

open Idealize.ShloMosaic Idealize.ShloMosaic.TcCoe Idealize.SL.Sem Idealize.ShloMosaic.ValueIdx

namespace Cert.ReferenceIdeal.RefNode

open Cert.ReferenceIdeal Cert.ReferenceIdeal.Read Cert.Egnn

/-- Entry (e, k) of two n × 128 arrays joined along the columns is entry k of the two rows joined. -/
private theorem cat_row {n : Nat} (x y : (⟨2, ![n, 128]⟩ : Shape).Idx → EReal)
    (h : Shape.Concatenates [(⟨2, ![n, 128]⟩ : Shape), ⟨2, ![n, 128]⟩] ⟨2, ![n, 256]⟩ 1) (e : Fin n) (k : Fin 256) :
    concatenate ⟨2, ![n, 256]⟩ 1 [⟨⟨2, ![n, 128]⟩, x⟩, ⟨⟨2, ![n, 128]⟩, y⟩] h (ix2 e k) = cat256 (row x e) (row y e) k := by
  unfold cat256
  by_cases hk : k.val < 128
  · rw [dif_pos hk]
    exact concatenate_pair_apply_left 1 x y h _ rfl (ix2 e ⟨k.val, hk⟩) (fun b => by
      match b with
      | ⟨0, _⟩ => rfl
      | ⟨1, _⟩ => rfl)
  · rw [dif_neg hk]
    exact concatenate_pair_apply_right 1 x y h _ rfl rfl (ix2 e ⟨k.val - 128, by omega⟩)
      (fun b hb => by
        match b with
        | ⟨0, _⟩ => rfl
        | ⟨1, _⟩ => exact absurd rfl hb)
      (by show (k.val - 128) + 128 = k.val; omega)

section Stages

variable (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S257x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal))

/-- %50: row e of the joined array is the node's feature row followed by its summed-message row. -/
private theorem v50_row (e : Fin 50000) (k : Fin 256) :
    val_main_v50 (F := Ideal) x0 x1 x2 x3 x4 x5 x6 (ix2 e k)
      = cat256 (row x0 e) (row (val_main_v49 (F := Ideal) x0 x1 x2 x3 x4 x5 x6) e) k := by
  unfold val_main_v50
  generalize val_main_v49 (F := Ideal) x0 x1 x2 x3 x4 x5 x6 = M
  exact cat_row x0 M _ e k

/-- %54: the first node layer, the joined row against the 256 × 128 matrix, plus the bias. -/
private theorem v54_row (e : Fin 50000) (k : Fin 128) :
    val_main_v54 (F := Ideal) x0 x1 x2 x3 x4 x5 x6 x7 x8 (ix2 e k)
      = nlin1R (row x0 e) (row (val_main_v49 (F := Ideal) x0 x1 x2 x3 x4 x5 x6) e) (mat x7) (vec x8) k := by
  have el : ∀ k' : Fin 256, lidx_main_v51 (ix2 e k) k' = ix2 e k' := fun k' =>
    funext fun a => Fin.ext (by match a with | ⟨0, _⟩ => rfl | ⟨1, _⟩ => rfl)
  have er : ∀ k' : Fin 256, ridx_main_v51 (ix2 e k) k' = ix2 k' k := fun k' =>
    funext fun a => Fin.ext (by match a with | ⟨0, _⟩ => rfl | ⟨1, _⟩ => rfl)
  have eb : idx_main_v52 (idx_main_v53 (ix2 e k)) = ix1 k :=
    funext fun a => Fin.ext (by match a with | ⟨0, _⟩ => rfl)
  rw [val_main_v54_apply, val_main_v51_apply, val_main_v53_apply, val_main_v52_apply]
  simp only [el, er, eb, v50_row, Ideal.addf_def]
  rfl

/-- %55: silu, spelt x · (1 / (1 + e^(-x))). -/
private theorem v55_at (i : S50000x128.Idx) :
    val_main_v55 (F := Ideal) x0 x1 x2 x3 x4 x5 x6 x7 x8 i = silu (val_main_v54 (F := Ideal) x0 x1 x2 x3 x4 x5 x6 x7 x8 i) := by
  rw [val_main_v55_apply, val_main_call2_v5_apply, val_main_call2_v4_apply, val_main_call2_cst_0_apply, val_main_call2_v3_apply,
    val_main_call2_v2_apply, val_main_call2_cst_apply, val_main_call2_v1_apply, val_main_call2_v0_apply]
  generalize val_main_v54 (F := Ideal) x0 x1 x2 x3 x4 x5 x6 x7 x8 i = a
  show a * Ideal.div (Ideal.ofBits .f32 0x3F800000#32) (Ideal.ofBits .f32 0x3F800000#32 + Ideal.exp (-a)) = silu a
  rw [Ideal.ofBits_one_f32]
  rfl

end Stages

/-- The reference's new node features (%60) as a function of the features and the summed messages (%49). -/
theorem v60_eq (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S257x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) :
    val_main_v60 (F := Ideal) x0 x1 x2 x3 x4 x5 x6 x7 x8 x9 x10
      = HarrR (N := 50000) x0 (val_main_v49 (F := Ideal) x0 x1 x2 x3 x4 x5 x6) x7 x8 x9 x10 := by
  funext i
  obtain ⟨e, j, rfl⟩ : ∃ (e : Fin 50000) (j : Fin 128), i = ix2 e j := ⟨c0 i, c1 i, eq_ix2 i⟩
  have el : ∀ k : Fin 128, lidx_main_v56 (ix2 e j) k = ix2 e k := fun k =>
    funext fun a => Fin.ext (by match a with | ⟨0, _⟩ => rfl | ⟨1, _⟩ => rfl)
  have er : ∀ k : Fin 128, ridx_main_v56 (ix2 e j) k = ix2 k j := fun k =>
    funext fun a => Fin.ext (by match a with | ⟨0, _⟩ => rfl | ⟨1, _⟩ => rfl)
  have eb : idx_main_v57 (idx_main_v58 (ix2 e j)) = ix1 j :=
    funext fun a => Fin.ext (by match a with | ⟨0, _⟩ => rfl)
  show _ = nodeOf (row x0 e)
    (nlin1R (row x0 e) (row (val_main_v49 (F := Ideal) x0 x1 x2 x3 x4 x5 x6) e) (mat x7) (vec x8)) (mat x9) (vec x10) j
  rw [val_main_v60_apply, val_main_v59_apply, val_main_v56_apply, val_main_v58_apply, val_main_v57_apply]
  simp only [el, er, eb, v55_at, v54_row, Ideal.addf_def]
  generalize val_main_v49 (F := Ideal) x0 x1 x2 x3 x4 x5 x6 = M
  rfl

end Cert.ReferenceIdeal.RefNode

end
-- ==== Proof.Glue.lean ====
/-
  Small facts that join the two programs' host sides.

  The kernel's program cuts the 257 × 128 matrix into rows 0–127, 128–255 and 256, and the 256 × 128 matrix into its two
  halves: an entry of a slice is the entry of the matrix at the shifted row. Both programs wrap negative edge indices the
  same way and gather with the same dimension numbers, so the kernel program's gathers at the wrapped indices are the
  reference's gather stages, operation for operation; likewise both scatter-add into zeros at the target nodes.
-/
import proofs.«404792_j40621800686307_1_alg».proof.Proof.HostDefs
import proofs.«404792_j40621800686307_1_alg».proof.Proof.Gen.ReferenceIdeal.Read
import Idealize.ShloMosaic.Lib.Pipeline.Value
import Idealize.ShloMosaic.Lib.ValueIdx

set_option maxRecDepth 16384

noncomputable section

open Idealize.ShloMosaic Idealize.ShloMosaic.TcCoe Idealize.ShloMosaic.ValueIdx

namespace Cert.Proof.Glue

open Cert.KernelIdeal.HostDefs

/-- Rows 0–127 of the 257 × 128 matrix. -/
theorem slice_We1a (a3 : FVec Ideal Cert.KernelIdeal.S257x128 .f32) (k j : Fin 128) :
    extractStridedSlice Cert.KernelIdeal.S128x128 ![0, 0] a3 Cert.KernelIdeal.Facts₀.slices_S257x128_S128x128_0_0 (ix2 k j)
      = a3 (ix2 ⟨k.val, by omega⟩ j) := by
  exact extractStridedSlice_apply ![0, 0] a3 Cert.KernelIdeal.Facts₀.slices_S257x128_S128x128_0_0 (ix2 k j) (ix2 ⟨k.val, by omega⟩ j) (fun a => match a with
    | ⟨0, _⟩ => by show k.val = 0 + k.val; omega
    | ⟨1, _⟩ => by show j.val = 0 + j.val; omega)

/-- Rows 128–255 of the 257 × 128 matrix. -/
theorem slice_We1b (a3 : FVec Ideal Cert.KernelIdeal.S257x128 .f32) (k j : Fin 128) :
    extractStridedSlice Cert.KernelIdeal.S128x128 ![128, 0] a3 Cert.KernelIdeal.Facts₀.slices_S257x128_S128x128_128_0 (ix2 k j)
      = a3 (ix2 ⟨128 + k.val, by omega⟩ j) := by
  exact extractStridedSlice_apply ![128, 0] a3 Cert.KernelIdeal.Facts₀.slices_S257x128_S128x128_128_0 (ix2 k j) (ix2 ⟨128 + k.val, by omega⟩ j) (fun a => match a with
    | ⟨0, _⟩ => by show 128 + k.val = 128 + k.val; omega
    | ⟨1, _⟩ => by show j.val = 0 + j.val; omega)

/-- Row 256 of the 257 × 128 matrix. -/
theorem slice_We1c (a3 : FVec Ideal Cert.KernelIdeal.S257x128 .f32) (j : Fin 128) :
    extractStridedSlice Cert.KernelIdeal.S1x128 ![256, 0] a3 Cert.KernelIdeal.Facts₀.slices_S257x128_S1x128_256_0 (ix2 0 j)
      = a3 (ix2 ⟨256, by omega⟩ j) := by
  exact extractStridedSlice_apply ![256, 0] a3 Cert.KernelIdeal.Facts₀.slices_S257x128_S1x128_256_0 (ix2 0 j) (ix2 ⟨256, by omega⟩ j) (fun a => match a with
    | ⟨0, _⟩ => by show (256 : Nat) = 256 + ((0 : Fin 1) : Nat); rfl
    | ⟨1, _⟩ => by show j.val = 0 + j.val; omega)

/-- Rows 0–127 of the 256 × 128 matrix. -/
theorem slice_Wn1a (a7 : FVec Ideal Cert.KernelIdeal.S256x128 .f32) (k j : Fin 128) :
    extractStridedSlice Cert.KernelIdeal.S128x128 ![0, 0] a7 Cert.KernelIdeal.Facts₀.slices_S256x128_S128x128_0_0 (ix2 k j)
      = a7 (ix2 ⟨k.val, by omega⟩ j) := by
  exact extractStridedSlice_apply ![0, 0] a7 Cert.KernelIdeal.Facts₀.slices_S256x128_S128x128_0_0 (ix2 k j) (ix2 ⟨k.val, by omega⟩ j) (fun a => match a with
    | ⟨0, _⟩ => by show k.val = 0 + k.val; omega
    | ⟨1, _⟩ => by show j.val = 0 + j.val; omega)

/-- Rows 128–255 of the 256 × 128 matrix. -/
theorem slice_Wn1b (a7 : FVec Ideal Cert.KernelIdeal.S256x128 .f32) (k j : Fin 128) :
    extractStridedSlice Cert.KernelIdeal.S128x128 ![128, 0] a7 Cert.KernelIdeal.Facts₀.slices_S256x128_S128x128_128_0 (ix2 k j)
      = a7 (ix2 ⟨128 + k.val, by omega⟩ j) := by
  exact extractStridedSlice_apply ![128, 0] a7 Cert.KernelIdeal.Facts₀.slices_S256x128_S128x128_128_0 (ix2 k j) (ix2 ⟨128 + k.val, by omega⟩ j) (fun a => match a with
    | ⟨0, _⟩ => by show 128 + k.val = 128 + k.val; omega
    | ⟨1, _⟩ => by show j.val = 0 + j.val; omega)

/-! ## The two programs' index vectors are the same terms -/

/-- The source-node vector is the reference's %1. -/
private theorem rowIdx_eq (x2 : IVec Cert.KernelIdeal.S2x800000 32) : rowIdx x2 = Cert.ReferenceIdeal.Read.val_main_v1 (F := Ideal) x2 := by
  unfold rowIdx Cert.ReferenceIdeal.Read.val_main_v1 Cert.ReferenceIdeal.Read.val_main_v0
  rfl

/-- The target-node vector is the reference's %3. -/
private theorem colIdx_eq (x2 : IVec Cert.KernelIdeal.S2x800000 32) : colIdx x2 = Cert.ReferenceIdeal.Read.val_main_v3 (F := Ideal) x2 := by
  unfold colIdx Cert.ReferenceIdeal.Read.val_main_v3 Cert.ReferenceIdeal.Read.val_main_v2
  rfl

/-- The wrapped source indices are the reference's %9 … -/
private theorem normRow_eq9 (x2 : IVec Cert.KernelIdeal.S2x800000 32) : normIdx (rowIdx x2) = Cert.ReferenceIdeal.Read.val_main_v9 (F := Ideal) x2 := by
  rw [rowIdx_eq]
  unfold normIdx Cert.ReferenceIdeal.Read.val_main_v9 Cert.ReferenceIdeal.Read.val_main_v8 Cert.ReferenceIdeal.Read.val_main_v5 Cert.ReferenceIdeal.Read.val_main_v7 Cert.ReferenceIdeal.Read.val_main_v4 Cert.ReferenceIdeal.Read.val_main_v6
    Cert.ReferenceIdeal.Read.val_main_c Cert.ReferenceIdeal.Read.val_main_c_0
  rfl

/-- … and its %27 (the same operations, printed a second time for the feature gather). -/
private theorem normRow_eq27 (x2 : IVec Cert.KernelIdeal.S2x800000 32) : normIdx (rowIdx x2) = Cert.ReferenceIdeal.Read.val_main_v27 (F := Ideal) x2 := by
  rw [rowIdx_eq]
  unfold normIdx Cert.ReferenceIdeal.Read.val_main_v27 Cert.ReferenceIdeal.Read.val_main_v26 Cert.ReferenceIdeal.Read.val_main_v23 Cert.ReferenceIdeal.Read.val_main_v25 Cert.ReferenceIdeal.Read.val_main_v22 Cert.ReferenceIdeal.Read.val_main_v24
    Cert.ReferenceIdeal.Read.val_main_c_3 Cert.ReferenceIdeal.Read.val_main_c_4
  rfl

/-- The wrapped target indices are the reference's %16 … -/
private theorem normCol_eq16 (x2 : IVec Cert.KernelIdeal.S2x800000 32) : normIdx (colIdx x2) = Cert.ReferenceIdeal.Read.val_main_v16 (F := Ideal) x2 := by
  rw [colIdx_eq]
  unfold normIdx Cert.ReferenceIdeal.Read.val_main_v16 Cert.ReferenceIdeal.Read.val_main_v15 Cert.ReferenceIdeal.Read.val_main_v12 Cert.ReferenceIdeal.Read.val_main_v14 Cert.ReferenceIdeal.Read.val_main_v11 Cert.ReferenceIdeal.Read.val_main_v13
    Cert.ReferenceIdeal.Read.val_main_c_1 Cert.ReferenceIdeal.Read.val_main_c_2
  rfl

/-- … and its %34. -/
private theorem normCol_eq34 (x2 : IVec Cert.KernelIdeal.S2x800000 32) : normIdx (colIdx x2) = Cert.ReferenceIdeal.Read.val_main_v34 (F := Ideal) x2 := by
  rw [colIdx_eq]
  unfold normIdx Cert.ReferenceIdeal.Read.val_main_v34 Cert.ReferenceIdeal.Read.val_main_v33 Cert.ReferenceIdeal.Read.val_main_v30 Cert.ReferenceIdeal.Read.val_main_v32 Cert.ReferenceIdeal.Read.val_main_v29 Cert.ReferenceIdeal.Read.val_main_v31
    Cert.ReferenceIdeal.Read.val_main_c_5 Cert.ReferenceIdeal.Read.val_main_c_6
  rfl

/-- The kernel program's gather of feature rows at the wrapped source indices is the reference's h[row] (%28). -/
theorem gatherH_row (x0 : FVec Ideal Cert.KernelIdeal.S50000x128 .f32) (x2 : IVec Cert.KernelIdeal.S2x800000 32) :
    Host.gather Cert.KernelIdeal.gather_S50000x128_S800000x1_S800000x128_1_0_n_n_0_1_1128 x0 (normIdx (rowIdx x2))
      = Cert.ReferenceIdeal.Read.val_main_v28 (F := Ideal) x0 x2 := by
  rw [normRow_eq27]
  unfold Cert.ReferenceIdeal.Read.val_main_v28
  rfl

/-- At the wrapped target indices it is the reference's h[col] (%35). -/
theorem gatherH_col (x0 : FVec Ideal Cert.KernelIdeal.S50000x128 .f32) (x2 : IVec Cert.KernelIdeal.S2x800000 32) :
    Host.gather Cert.KernelIdeal.gather_S50000x128_S800000x1_S800000x128_1_0_n_n_0_1_1128 x0 (normIdx (colIdx x2))
      = Cert.ReferenceIdeal.Read.val_main_v35 (F := Ideal) x0 x2 := by
  rw [normCol_eq34]
  unfold Cert.ReferenceIdeal.Read.val_main_v35
  rfl

/-- The difference of the two position gathers is the reference's relative position (%18). -/
theorem relpos_eq (x1 : FVec Ideal Cert.KernelIdeal.S50000x3 .f32) (x2 : IVec Cert.KernelIdeal.S2x800000 32) :
    subf (Host.gather Cert.KernelIdeal.gather_S50000x3_S800000x1_S800000x3_1_0_n_n_0_1_13 x1 (normIdx (rowIdx x2)))
        (Host.gather Cert.KernelIdeal.gather_S50000x3_S800000x1_S800000x3_1_0_n_n_0_1_13 x1 (normIdx (colIdx x2)))
      = Cert.ReferenceIdeal.Read.val_main_v18 (F := Ideal) x1 x2 := by
  rw [normRow_eq9, normCol_eq16]
  unfold Cert.ReferenceIdeal.Read.val_main_v18 Cert.ReferenceIdeal.Read.val_main_v10 Cert.ReferenceIdeal.Read.val_main_v17
  rfl

/-- The kernel program's scatter-add of a message array into zeros at the target nodes is the reference's scatter-add of
    the same array (the operation of %49). -/
theorem scatterH_eq (x2 : IVec Cert.KernelIdeal.S2x800000 32) (EM : FVec Ideal Cert.KernelIdeal.S800000x128 .f32) :
    Host.scatterAdd Cert.KernelIdeal.scatter_S50000x128_S800000x1_S800000x128_1_0_0_1
        (broadcastInDim Cert.KernelIdeal.S50000x128 ![] Cert.KernelIdeal.Facts₀.bcast_S_S50000x128 (constant (F := Ideal) Cert.KernelIdeal.S_ .f32 0x00000000#32))
        (broadcastInDim Cert.KernelIdeal.S800000x1 ![0] Cert.KernelIdeal.Facts₀.bcast_S800000_S800000x1_0 (colIdx x2)) EM
      = Host.scatterAdd Cert.ReferenceIdeal.scatter_S50000x128_S800000x1_S800000x128_1_0_0_1
          (Cert.ReferenceIdeal.Read.val_main_v47 (F := Ideal)) (Cert.ReferenceIdeal.Read.val_main_v48 (F := Ideal) x2) EM := by
  rw [colIdx_eq]
  unfold Cert.ReferenceIdeal.Read.val_main_v47 Cert.ReferenceIdeal.Read.val_main_v48 Cert.ReferenceIdeal.Read.val_main_cst_7
  rfl

/-- Likewise the scatter-add of a coordinate array (the operation of %71). -/
theorem scatterX_eq (x2 : IVec Cert.KernelIdeal.S2x800000 32) (CM : FVec Ideal Cert.KernelIdeal.S800000x3 .f32) :
    Host.scatterAdd Cert.KernelIdeal.scatter_S50000x3_S800000x1_S800000x3_1_0_0_1
        (broadcastInDim Cert.KernelIdeal.S50000x3 ![] Cert.KernelIdeal.Facts₀.bcast_S_S50000x3 (constant (F := Ideal) Cert.KernelIdeal.S_ .f32 0x00000000#32))
        (broadcastInDim Cert.KernelIdeal.S800000x1 ![0] Cert.KernelIdeal.Facts₀.bcast_S800000_S800000x1_0 (colIdx x2)) CM
      = Host.scatterAdd Cert.ReferenceIdeal.scatter_S50000x3_S800000x1_S800000x3_1_0_0_1
          (Cert.ReferenceIdeal.Read.val_main_v69 (F := Ideal)) (Cert.ReferenceIdeal.Read.val_main_v70 (F := Ideal) x2) CM := by
  rw [colIdx_eq]
  unfold Cert.ReferenceIdeal.Read.val_main_v69 Cert.ReferenceIdeal.Read.val_main_v70 Cert.ReferenceIdeal.Read.val_main_cst_8
  rfl

end Cert.Proof.Glue

end
-- ==== Proof.lean ====
/-
  Equivalence, over the extended reals, of one EGNN message-passing layer written as two Pallas kernels with host gathers
  and segment sums between them, and its plain reference.

  Under the precondition every float input is finite and every entry of the edge list is a node number 0 … 49999 (outside
  that range the reference's indexing x[row] reads out of range, while jnp.take in the kernel's program fills: the two
  differ there, so the range is part of the statement). Then jnp.take is the plain gather the reference performs. The edge
  kernel computes, block by block of 3200 edges, the message silu(silu(l₁)·We2 + be2) with
  l₁ = h[row]·We1[0:128] + h[col]·We1[128:256] + |x[row] − x[col]|²·We1[256] + be1 — the reference's one product of the
  concatenated 257 features with We1, regrouped — and the coordinate message (x[row] − x[col])·(silu(msg·Wc1 + bc1)·Wc2);
  the 250 blocks tile the edges, so its two output arrays are the reference's arrays. Both programs scatter-add them at the
  target nodes into zeros. The node kernel computes, block by block of 5000 nodes, h + (silu(h·Wn1[0:128] + msg·Wn1[128:256]
  + bn1)·Wn2 + bn2), again the reference's product with the concatenated row regrouped. silu is x·logistic x on both sides,
  one function on the extended reals; the regroupings use only that + is commutative and associative, so finiteness of the
  inputs is never used.
-/
import proofs.«404792_j40621800686307_1_alg».proof.Defs
import proofs.«404792_j40621800686307_1_alg».proof.Proof.Gen.Kernel
import proofs.«404792_j40621800686307_1_alg».proof.Proof.Gen.Kernel.Skeleton
import proofs.«404792_j40621800686307_1_alg».proof.Proof.Gen.Kernel.Launch
import proofs.«404792_j40621800686307_1_alg».proof.Proof.Gen.Kernel.Points
import proofs.«404792_j40621800686307_1_alg».proof.Proof.Gen.Kernel.Frame
import proofs.«404792_j40621800686307_1_alg».proof.Proof.Gen.KernelIdeal
import proofs.«404792_j40621800686307_1_alg».proof.Proof.Gen.KernelIdeal.Skeleton
import proofs.«404792_j40621800686307_1_alg».proof.Proof.Gen.KernelIdeal.Launch
import proofs.«404792_j40621800686307_1_alg».proof.Proof.Gen.KernelIdeal.Points
import proofs.«404792_j40621800686307_1_alg».proof.Proof.Gen.KernelIdeal.Frame
import proofs.«404792_j40621800686307_1_alg».proof.Proof.Gen.ReferenceIdeal
import proofs.«404792_j40621800686307_1_alg».proof.Proof.Gen.ReferenceIdeal.Run
import proofs.«404792_j40621800686307_1_alg».proof.Proof.Gen.ReferenceIdeal.Read
import proofs.«404792_j40621800686307_1_alg».proof.Proof.Gen.Pre_finite_inputs
import proofs.«404792_j40621800686307_1_alg».proof.Proof.Spec
import proofs.«404792_j40621800686307_1_alg».proof.Proof.HostDefs
import proofs.«404792_j40621800686307_1_alg».proof.Proof.RunValue
import proofs.«404792_j40621800686307_1_alg».proof.Proof.EdgeBody
import proofs.«404792_j40621800686307_1_alg».proof.Proof.NodeBody
import proofs.«404792_j40621800686307_1_alg».proof.Proof.EdgeArr
import proofs.«404792_j40621800686307_1_alg».proof.Proof.NodeArr
import proofs.«404792_j40621800686307_1_alg».proof.Proof.HostVals0
import proofs.«404792_j40621800686307_1_alg».proof.Proof.HostVals0b
import proofs.«404792_j40621800686307_1_alg».proof.Proof.HostVals1
import proofs.«404792_j40621800686307_1_alg».proof.Proof.HostVals1b
import proofs.«404792_j40621800686307_1_alg».proof.Proof.TakePre
import proofs.«404792_j40621800686307_1_alg».proof.Proof.RefEdge
import proofs.«404792_j40621800686307_1_alg».proof.Proof.RefNode
import proofs.«404792_j40621800686307_1_alg».proof.Proof.Glue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The kernel program's two results are the reference's two result stages -/

namespace KernelValue

open Cert.KernelIdeal Cert.KernelIdeal.Gen Cert.KernelIdeal.HostDefs Cert.Egnn
open Cert.ReferenceIdeal.Read (val_main_v18 val_main_v28 val_main_v35 val_main_v46 val_main_v49 val_main_v60 val_main_v68 val_main_v72)

variable (m : (ℓ : Loc nD τ sig) → Buf (Elt Ideal) ℓ) (ρ : Dev nD → PrngReg)

/-- Every entry of the edge list is a node number. -/
abbrev InRange (c : Dev nD) : Prop :=
  ∀ i : S2x800000.Idx, 0 ≤ ((m ((c : Thread nD τ).loc main_arg2) : IVec S2x800000 32) i).toInt
    ∧ ((m ((c : Thread nD τ).loc main_arg2) : IVec S2x800000 32) i).toInt < 50000

set_option maxHeartbeats 4000000 in
/-- The edge region's message array is the reference's edge messages (%46). -/
theorem em_eq (c : Dev nD) (hr : InRange m c) :
    (dat0 (V6 m ρ) c).arrAt 12 cfg0.N
      = val_main_v46 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  rw [Cert.KernelIdeal.EdgeArr.arr12_eq (V6 m ρ) c Cert.KernelIdeal.EdgeBody.out12_apply]
  rw [Cert.KernelIdeal.HostVals0.V6_v4, Cert.KernelIdeal.HostVals0.V6_v5, Cert.KernelIdeal.HostVals0.V6_v8,
    Cert.KernelIdeal.HostVals0.V6_v9, Cert.KernelIdeal.HostVals0.V6_v10, Cert.KernelIdeal.HostVals0.V6_v11,
    Cert.KernelIdeal.HostVals0.V6_arg4, Cert.KernelIdeal.HostVals0.V6_arg5, Cert.KernelIdeal.HostVals0.V6_arg6]
  rw [Cert.KernelIdeal.TakePre.takeH_eq_gather _ _ (Cert.KernelIdeal.TakePre.rowIdx_range _ hr),
    Cert.KernelIdeal.TakePre.takeH_eq_gather _ _ (Cert.KernelIdeal.TakePre.colIdx_range _ hr),
    Cert.KernelIdeal.TakePre.takeX_eq_gather _ _ (Cert.KernelIdeal.TakePre.rowIdx_range _ hr),
    Cert.KernelIdeal.TakePre.takeX_eq_gather _ _ (Cert.KernelIdeal.TakePre.colIdx_range _ hr)]
  rw [EMarrK_eq_EMarrR _ _ _ _ _ _ (m ((c : Thread nD τ).loc main_arg3)) _ _ _
    (Cert.Proof.Glue.slice_We1a _) (Cert.Proof.Glue.slice_We1b _) (Cert.Proof.Glue.slice_We1c _)]
  rw [Cert.Proof.Glue.gatherH_row, Cert.Proof.Glue.gatherH_col, Cert.Proof.Glue.relpos_eq]
  exact (Cert.ReferenceIdeal.RefEdge.v46_eq _ _ _ _ _ _ _).symm

set_option maxHeartbeats 4000000 in
/-- The edge region's coordinate array is the reference's coordinate messages (%68). -/
theorem cm_eq (c : Dev nD) (hr : InRange m c) :
    (dat0 (V6 m ρ) c).arrAt 13 cfg0.N
      = val_main_v68 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg11)) (m ((c : Thread nD τ).loc main_arg12)) (m ((c : Thread nD τ).loc main_arg13)) := by
  rw [Cert.KernelIdeal.EdgeArr.arr13_eq (V6 m ρ) c Cert.KernelIdeal.EdgeBody.out13_apply]
  rw [Cert.KernelIdeal.HostVals0.V6_v4, Cert.KernelIdeal.HostVals0.V6_v5, Cert.KernelIdeal.HostVals0.V6_v8,
    Cert.KernelIdeal.HostVals0.V6_v9, Cert.KernelIdeal.HostVals0.V6_v10, Cert.KernelIdeal.HostVals0.V6_v11,
    Cert.KernelIdeal.HostVals0.V6_arg4, Cert.KernelIdeal.HostVals0.V6_arg5, Cert.KernelIdeal.HostVals0.V6_arg6,
    Cert.KernelIdeal.HostVals0.V6_arg11, Cert.KernelIdeal.HostVals0.V6_arg12, Cert.KernelIdeal.HostVals0.V6_arg13]
  rw [Cert.KernelIdeal.TakePre.takeH_eq_gather _ _ (Cert.KernelIdeal.TakePre.rowIdx_range _ hr),
    Cert.KernelIdeal.TakePre.takeH_eq_gather _ _ (Cert.KernelIdeal.TakePre.colIdx_range _ hr),
    Cert.KernelIdeal.TakePre.takeX_eq_gather _ _ (Cert.KernelIdeal.TakePre.rowIdx_range _ hr),
    Cert.KernelIdeal.TakePre.takeX_eq_gather _ _ (Cert.KernelIdeal.TakePre.colIdx_range _ hr)]
  rw [CMarrK_eq_CMarrR _ _ _ _ _ _ (m ((c : Thread nD τ).loc main_arg3)) _ _ _ _ _ _
    (Cert.Proof.Glue.slice_We1a _) (Cert.Proof.Glue.slice_We1b _) (Cert.Proof.Glue.slice_We1c _)]
  rw [Cert.Proof.Glue.gatherH_row, Cert.Proof.Glue.gatherH_col, Cert.Proof.Glue.relpos_eq]
  exact (Cert.ReferenceIdeal.RefEdge.v68_eq _ _ _ _ _ _ _ _ _ _).symm

set_option maxHeartbeats 4000000 in
/-- What the node region finds as the summed messages is the reference's summed messages (%49). -/
theorem msg_eq (c : Dev nD) (hr : InRange m c) :
    V8 m ρ c main_v15
      = val_main_v49 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  rw [Cert.KernelIdeal.HostVals1.V8_v15, em_eq m ρ c hr, Cert.Proof.Glue.scatterH_eq]
  rfl

set_option maxHeartbeats 4000000 in
/-- The first result, the new node features, is the reference's (%60). -/
theorem h_eq (c : Dev nD) (hr : InRange m c) :
    W10 m ρ c (Proc.devRef .tc main_v21)
      = val_main_v60 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) := by
  rw [Cert.KernelIdeal.HostVals1.W10_v21, Cert.KernelIdeal.NodeArr.arr7_eq (V8 m ρ) c Cert.KernelIdeal.NodeBody.out7_apply]
  rw [Cert.KernelIdeal.HostVals1.V8_arg0, msg_eq m ρ c hr, Cert.KernelIdeal.HostVals1.V8_v19, Cert.KernelIdeal.HostVals1.V8_v20,
    Cert.KernelIdeal.HostVals1.V8_arg8, Cert.KernelIdeal.HostVals1.V8_arg9, Cert.KernelIdeal.HostVals1.V8_arg10]
  rw [HarrK_eq_HarrR _ _ _ _ (m ((c : Thread nD τ).loc main_arg7)) _ _ _ (Cert.Proof.Glue.slice_Wn1a _) (Cert.Proof.Glue.slice_Wn1b _)]
  exact (Cert.ReferenceIdeal.RefNode.v60_eq _ _ _ _ _ _ _ _ _ _ _).symm

set_option maxHeartbeats 4000000 in
/-- The second result, the new positions, is the reference's (%72). -/
theorem x_eq (c : Dev nD) (hr : InRange m c) :
    W10 m ρ c (Proc.devRef .tc main_v22)
      = val_main_v72 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg11)) (m ((c : Thread nD τ).loc main_arg12)) (m ((c : Thread nD τ).loc main_arg13)) := by
  rw [Cert.KernelIdeal.HostVals1.W10_v22, cm_eq m ρ c hr, Cert.Proof.Glue.scatterX_eq]
  rfl

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the reference's two result stages of those arguments. -/
theorem algebraic : Cert.algebraic_KernelIdeal_ReferenceIdeal := by
  intro m ρ m' ρ' hpre hagree
  have hr : ∀ c, KernelValue.InRange m c := fun c =>
    Cert.KernelIdeal.TakePre.idx_range_of_pre _ _ _ _ _ _ _ _ _ _ _ _ _ _ (hpre c)
  refine ⟨_, _, (θ_run Cert.KernelIdeal.defs _ _).mono (fun r h c =>
      ⟨(h c).1.trans (KernelValue.h_eq m ρ c (hr c)), (h c).2.1.trans (KernelValue.x_eq m ρ c (hr c)), (h c).2.2⟩)
      (Cert.KernelIdeal.Gen.run_values (F := Ideal) m ρ), ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13⟩ := hagree c
  refine ⟨(h c).1.trans ?_, (h c).2.1.trans ?_, (h c).2.2⟩
  · rw [Cert.ReferenceIdeal.Read.val_main_v60_eq, e0, e1, e2, e3, e4, e5, e6, e7, e8, e9, e10]
  · rw [Cert.ReferenceIdeal.Read.val_main_v72_eq, e0, e1, e2, e3, e4, e5, e6, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
